-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S1x1 : Shape := ⟨2, ![1, 1]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S4096 : Shape := ⟨1, ![4096]⟩
abbrev S_ : Shape := ⟨0, ![]⟩
abbrev S4096x1 : Shape := ⟨2, ![4096, 1]⟩
abbrev S2048x1024 : Shape := ⟨2, ![2048, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S2 : Shape := ⟨1, ![2]⟩

abbrev nBuf : Space → Nat
  | .hbm => 33
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .bf16⟩
  | .hbm, ⟨3, _⟩ => ⟨S8192x4096, .bf16⟩
  | .hbm, ⟨4, _⟩ => ⟨S1x1, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S1x1, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S2, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S1x1, .f32⟩
  | .local _ .vmem, ⟨9, _⟩ => ⟨S1x4096, .f32⟩
  | .local _ .vmem, ⟨10, _⟩ => ⟨S1x4096, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1x1, .f32⟩
  | .local _ .vmem, ⟨20, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨3, ![4, 4, 4], ![false, false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k1_cond3 (i : grid1.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

class Facts₀ : Prop where
  inb_S1x1_S1x1_0_0 : ∀ a, (![0, 0] : Fin 2 → Nat) a + S1x1.size a ≤ S1x1.size a
  h_S1x1 : 0 < S1x1.numel
  inb_S1x4096_S1x4096_0_0 : ∀ a, (![0, 0] : Fin 2 → Nat) a + S1x4096.size a ≤ S1x4096.size a
  h_S1x4096 : 0 < S1x4096.numel
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  reduces_S128x1_S1 : S128x1.Reduces [0] S1
  shapeCasts_S1_S1x1 : S1.ShapeCasts S1x1
  shapeCasts_S1x1_S1x1 : S1x1.ShapeCasts S1x1
  shapeCasts_S1x4096_S1x4096 : S1x4096.ShapeCasts S1x4096
  reduces_S128x4096_S4096 : S128x4096.Reduces [0] S4096
  shapeCasts_S4096_S1x4096 : S4096.ShapeCasts S1x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S1x1_S_ : S1x1.ShapeCasts S_
  shapeCasts_S1x4096_S4096 : S1x4096.ShapeCasts S4096
  bcast_S_S4096 : S_.BroadcastsInDim S4096 (![] : Fin 0 → Fin S4096.rank)
  shapeCasts_S4096_S4096x1 : S4096.ShapeCasts S4096x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  bcast_S_S1 : S_.BroadcastsInDim S1 (![] : Fin 0 → Fin S1.rank)
  concatenates_S1_S1_S2_d0 : Shape.Concatenates [S1, S1] S2 0
  dot_S2048x1024_S2048x1024_S1024x1024_0_0_1_1_n_n_wf : DotDims.WF S2048x1024 S2048x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .bf16 = 32 ∨ (Rect.block (s := S8192x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .bf16 = 32 ∨ (Rect.block (s := S8192x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x4096.size a
  hwx1_1 : ∀ i : grid1.Coords, EltTy.bits .bf16 = 32 ∨ (Rect.block (s := S8192x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x4096.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x4096.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) && !(k1_cond3 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1 : Shape := ⟨1, ![1]⟩
abbrev S2 : Shape := ⟨1, ![2]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S1x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S2, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_cst_14 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_15 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_16 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S8192_S_d0 : S8192.ReducesTo [0] S_
  bcast_S_S4096x4096 : S_.BroadcastsInDim S4096x4096 (![] : Fin 0 → Fin S4096x4096.rank)
  reducesTo_S8192x4096_S4096_d0 : S8192x4096.ReducesTo [0] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  bcast_S_S1 : S_.BroadcastsInDim S1 (![] : Fin 0 → Fin S1.rank)
  concatenates_S1_S1_S2_d0 : Shape.Concatenates [S1, S1] S2 0
  dot_S8192x4096_S8192x4096_S4096x4096_0_0_1_1_n_n_wf : DotDims.WF S8192x4096 S8192x4096 S4096x4096 [0] [0] [1] [1] [] []

variable [Facts₀]

def dot_S8192x4096_S8192x4096_S4096x4096_0_0_1_1_n_n : DotDims S8192x4096 S8192x4096 S4096x4096 where
  lhsContracting := [0]
  rhsContracting := [0]
  lhsNonContracting := [1]
  rhsNonContracting := [1]
  lhsBatch := []
  rhsBatch := []
  wf := dot_S8192x4096_S8192x4096_S4096x4096_0_0_1_1_n_n_wf

class Facts : Prop extends Facts₀ where

variable [Facts]
-- ==== Proof.K.S1Runs.lean ====
/-
  Stage 1 (the softmax call, 64 row tiles of 128 rows): what its two whole-body runs share. A row tile's
  blocks of the two inputs as the call finds them, the one condition of the body (the accumulators are
  reset at the first tile only), and the staging memrefs the body is called with at a tile.
-/
import proofs.«102363_j2070174236949_1_alg».proof.Proof.Gen.Kernel.Launch
import proofs.«102363_j2070174236949_1_alg».proof.Proof.Gen.Kernel.Skeleton
import proofs.«102363_j2070174236949_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.TableIdle
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at row tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds tile `t`'s 128 rows when the body runs there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one condition: the tile is the first. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- A staging buffer of each output window, through which its contents are stated. -/
abbrev VO0_2 : View sig .tc .vmem S128x4096 .bf16 := (Memref.whole cc0_stg2_0 : Memref sig .tc .vmem S128x4096 .bf16).view
abbrev VO0_3 : View sig .tc .vmem S128x4096 .bf16 := (Memref.whole cc0_stg3_0 : Memref sig .tc .vmem S128x4096 .bf16).view
abbrev VO0_4 : View sig .tc .vmem S1x1 .f32 := (Memref.whole cc0_stg4_0 : Memref sig .tc .vmem S1x1 .f32).view
abbrev VO0_5 : View sig .tc .vmem S1x4096 .f32 := (Memref.whole cc0_stg5_0 : Memref sig .tc .vmem S1x4096 .f32).view
abbrev VO0_6 : View sig .tc .vmem S1x4096 .f32 := (Memref.whole cc0_stg6_0 : Memref sig .tc .vmem S1x4096 .f32).view

/-- Each window's current staging memref at tile `t`, as the pipeline passes it, and its wholeness. -/
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)

end Cert.Kernel.Fr

end
-- ==== Proof.K.S1RunA.lean ====
/-
  Stage 1, the body at the first row tile: the three accumulators (the entropy sum, the two column sums) are
  zeroed, then the tile's softmax rows are added into them and written out as the two bf16 blocks.
  The pieces each output's buffer ends with are found by running the body.
-/
import proofs.«102363_j2070174236949_1_alg».proof.Proof.K.S1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first tile, on whole staging memrefs: the inputs at their blocks, every output buffer at anything;
    it ends with the inputs as they were and each output's buffer with its pieces written. -/
noncomputable def kernelRun0_A (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    Σ' (L3 : List (View.Piece (Elt F) S128x4096 .bf16)) (L4 : List (View.Piece (Elt F) S128x4096 .bf16)) (L5 : List (View.Piece (Elt F) S1x1 .f32)) (L6 : List (View.Piece (Elt F) S1x4096 .f32)), { L7 : List (View.Piece (Elt F) S1x4096 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L3)
              ∗ (∃ f, arg4.view.loc (c : Thread nD τ) ↦[arg4.view.set]{fullShare} arg4.view.writes (Elt F) f L4)
              ∗ (∃ f, arg5.view.loc (c : Thread nD τ) ↦[arg5.view.set]{fullShare} arg5.view.writes (Elt F) f L5)
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)) -∗ K ⟨⟩))
          ⊢ wp frame (wpE (defs₀ (F := F)) Variants.none c none) E (cc0__stage1_kernel i arg1 harg1 arg2 harg2 arg3 harg3 arg4 harg4 arg5 harg5 arg6 harg6 arg7 harg7) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Fr

end
-- ==== Proof.K.S1RunB.lean ====
/-
  Stage 1, the body at a later row tile: the three accumulators hold what the tile before left; the tile's
  softmax rows are added into them and written out as the two bf16 blocks.
-/
import proofs.«102363_j2070174236949_1_alg».proof.Proof.K.S1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a tile that is not the first, on whole staging memrefs: the inputs at their blocks, the three
    accumulators at what the tile before left (`xo5`, `xo6`, `xo7`), the two bf16 outputs at anything. -/
noncomputable def kernelRun0_B (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    Σ' (L3 : List (View.Piece (Elt F) S128x4096 .bf16)) (L4 : List (View.Piece (Elt F) S128x4096 .bf16)) (L5 : List (View.Piece (Elt F) S1x1 .f32)) (L6 : List (View.Piece (Elt F) S1x4096 .f32)), { L7 : List (View.Piece (Elt F) S1x4096 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xo5 ∗ owns (c : Thread nD τ) arg6 fullShare xo6 ∗ owns (c : Thread nD τ) arg7 fullShare xo7
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L3)
              ∗ (∃ f, arg4.view.loc (c : Thread nD τ) ↦[arg4.view.set]{fullShare} arg4.view.writes (Elt F) f L4)
              ∗ (∃ f, arg5.view.loc (c : Thread nD τ) ↦[arg5.view.set]{fullShare} arg5.view.writes (Elt F) f L5)
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)) -∗ K ⟨⟩))
          ⊢ wp frame (wpE (defs₀ (F := F)) Variants.none c none) E (cc0__stage1_kernel i arg1 harg1 arg2 harg2 arg3 harg3 arg4 harg4 arg5 harg5 arg6 harg6 arg7 harg7) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%f6, %hf6, H6⟩, ⟨%f7, %hf7, H7⟩, Hk⟩
    obtain rfl := harg1.eq_unread hf0; obtain rfl := harg2.eq_unread hf1
    obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.Kernel.Fr

end
-- ==== Proof.K.S1Outs.lean ====
/-
  Stage 1 (the softmax call): at each of its two control cases, that the stores into each output buffer tile it,
  and what the buffer then holds: the pieces the run found, read back.
-/
import proofs.«102363_j2070174236949_1_alg».proof.Proof.K.S1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first tile the stores into the first bf16 block's buffer tile it. -/
theorem cover0_A_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S128x4096.Idx) :
    ∃ pc ∈ (kernelRun0_A c i arg1 harg1 arg2 harg2 arg3 harg3 arg4 harg4 arg5 harg5 arg6 harg6 arg7 harg7 hc0 x0 x1).1, y ∈ pc.1.set :=
  View.cover_of_tiledL (kernelRun0_A c i arg1 harg1 arg2 harg2 arg3 harg3 arg4 harg4 arg5 harg5 arg6 harg6 arg7 harg7 hc0 x0 x1).1 S128x4096.size (by sl_kernel_rfl) y

/-- What the first tile leaves there: its pieces read back. -/
def out0_A_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S128x4096 .bf16 :=
  VO0_2.read (Elt F) (VO0_2.writes (Elt F) VO0_2.junk (kernelRun0_A c i arg1 harg1 arg2 harg2 arg3 harg3 arg4 harg4 arg5 harg5 arg6 harg6 arg7 harg7 hc0 x0 x1).1)

/-- At the first tile the stores into the second bf16 block's buffer tile it. -/
theorem cover0_A_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S128x4096.Idx) :
    ∃ pc ∈ (kernelRun0_A c i arg1 harg1 arg2 harg2 arg3 harg3 arg4 harg4 arg5 harg5 arg6 harg6 arg7 harg7 hc0 x0 x1).2.1, y ∈ pc.1.set :=
  View.cover_of_tiledL (kernelRun0_A c i arg1 harg1 arg2 harg2 arg3 harg3 arg4 harg4 arg5 harg5 arg6 harg6 arg7 harg7 hc0 x0 x1).2.1 S128x4096.size (by sl_kernel_rfl) y

/-- What the first tile leaves there: its pieces read back. -/
def out0_A_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S128x4096 .bf16 :=
  VO0_3.read (Elt F) (VO0_3.writes (Elt F) VO0_3.junk (kernelRun0_A c i arg1 harg1 arg2 harg2 arg3 harg3 arg4 harg4 arg5 harg5 arg6 harg6 arg7 harg7 hc0 x0 x1).2.1)

/-- At the first tile the stores into the entropy sum's buffer tile it. -/
theorem cover0_A_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x1.Idx) :
    ∃ pc ∈ (kernelRun0_A c i arg1 harg1 arg2 harg2 arg3 harg3 arg4 harg4 arg5 harg5 arg6 harg6 arg7 harg7 hc0 x0 x1).2.2.1, y ∈ pc.1.set :=
  View.cover_of_tiledL (kernelRun0_A c i arg1 harg1 arg2 harg2 arg3 harg3 arg4 harg4 arg5 harg5 arg6 harg6 arg7 harg7 hc0 x0 x1).2.2.1 S1x1.size (by sl_kernel_rfl) y

/-- What the first tile leaves there: its pieces read back. -/
def out0_A_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x1 .f32 :=
  VO0_4.read (Elt F) (VO0_4.writes (Elt F) VO0_4.junk (kernelRun0_A c i arg1 harg1 arg2 harg2 arg3 harg3 arg4 harg4 arg5 harg5 arg6 harg6 arg7 harg7 hc0 x0 x1).2.2.1)

/-- At the first tile the stores into the first column sum's buffer tile it. -/
theorem cover0_A_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x4096.Idx) :
    ∃ pc ∈ (kernelRun0_A c i arg1 harg1 arg2 harg2 arg3 harg3 arg4 harg4 arg5 harg5 arg6 harg6 arg7 harg7 hc0 x0 x1).2.2.2.1, y ∈ pc.1.set :=
  View.cover_of_tiledL (kernelRun0_A c i arg1 harg1 arg2 harg2 arg3 harg3 arg4 harg4 arg5 harg5 arg6 harg6 arg7 harg7 hc0 x0 x1).2.2.2.1 S1x4096.size (by sl_kernel_rfl) y

/-- What the first tile leaves there: its pieces read back. -/
def out0_A_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x4096 .f32 :=
  VO0_5.read (Elt F) (VO0_5.writes (Elt F) VO0_5.junk (kernelRun0_A c i arg1 harg1 arg2 harg2 arg3 harg3 arg4 harg4 arg5 harg5 arg6 harg6 arg7 harg7 hc0 x0 x1).2.2.2.1)

/-- At the first tile the stores into the second column sum's buffer tile it. -/
theorem cover0_A_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x4096.Idx) :
    ∃ pc ∈ (kernelRun0_A c i arg1 harg1 arg2 harg2 arg3 harg3 arg4 harg4 arg5 harg5 arg6 harg6 arg7 harg7 hc0 x0 x1).2.2.2.2.1, y ∈ pc.1.set :=
  View.cover_of_tiledL (kernelRun0_A c i arg1 harg1 arg2 harg2 arg3 harg3 arg4 harg4 arg5 harg5 arg6 harg6 arg7 harg7 hc0 x0 x1).2.2.2.2.1 S1x4096.size (by sl_kernel_rfl) y

/-- What the first tile leaves there: its pieces read back. -/
def out0_A_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x4096 .f32 :=
  VO0_6.read (Elt F) (VO0_6.writes (Elt F) VO0_6.junk (kernelRun0_A c i arg1 harg1 arg2 harg2 arg3 harg3 arg4 harg4 arg5 harg5 arg6 harg6 arg7 harg7 hc0 x0 x1).2.2.2.2.1)

/-- At a later tile the stores into the first bf16 block's buffer tile it. -/
theorem cover0_B_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S128x4096.Idx) :
    ∃ pc ∈ (kernelRun0_B c i arg1 harg1 arg2 harg2 arg3 harg3 arg4 harg4 arg5 harg5 arg6 harg6 arg7 harg7 hc0 x0 x1 xo5 xo6 xo7).1, y ∈ pc.1.set :=
  View.cover_of_tiledL (kernelRun0_B c i arg1 harg1 arg2 harg2 arg3 harg3 arg4 harg4 arg5 harg5 arg6 harg6 arg7 harg7 hc0 x0 x1 xo5 xo6 xo7).1 S128x4096.size (by sl_kernel_rfl) y

/-- What a later tile leaves there, over what the tile before left in the accumulators. -/
def out0_B_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S128x4096 .bf16 :=
  VO0_2.read (Elt F) (VO0_2.writes (Elt F) VO0_2.junk (kernelRun0_B c i arg1 harg1 arg2 harg2 arg3 harg3 arg4 harg4 arg5 harg5 arg6 harg6 arg7 harg7 hc0 x0 x1 xo5 xo6 xo7).1)

/-- At a later tile the stores into the second bf16 block's buffer tile it. -/
theorem cover0_B_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S128x4096.Idx) :
    ∃ pc ∈ (kernelRun0_B c i arg1 harg1 arg2 harg2 arg3 harg3 arg4 harg4 arg5 harg5 arg6 harg6 arg7 harg7 hc0 x0 x1 xo5 xo6 xo7).2.1, y ∈ pc.1.set :=
  View.cover_of_tiledL (kernelRun0_B c i arg1 harg1 arg2 harg2 arg3 harg3 arg4 harg4 arg5 harg5 arg6 harg6 arg7 harg7 hc0 x0 x1 xo5 xo6 xo7).2.1 S128x4096.size (by sl_kernel_rfl) y

/-- What a later tile leaves there, over what the tile before left in the accumulators. -/
def out0_B_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S128x4096 .bf16 :=
  VO0_3.read (Elt F) (VO0_3.writes (Elt F) VO0_3.junk (kernelRun0_B c i arg1 harg1 arg2 harg2 arg3 harg3 arg4 harg4 arg5 harg5 arg6 harg6 arg7 harg7 hc0 x0 x1 xo5 xo6 xo7).2.1)

/-- At a later tile the stores into the entropy sum's buffer tile it. -/
theorem cover0_B_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x1.Idx) :
    ∃ pc ∈ (kernelRun0_B c i arg1 harg1 arg2 harg2 arg3 harg3 arg4 harg4 arg5 harg5 arg6 harg6 arg7 harg7 hc0 x0 x1 xo5 xo6 xo7).2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.1 S1x1.size (by sl_kernel_rfl) y

/-- What a later tile leaves there, over what the tile before left in the accumulators. -/
def out0_B_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x1 .f32 :=
  VO0_4.read (Elt F) (VO0_4.writes (Elt F) VO0_4.junk (kernelRun0_B c i arg1 harg1 arg2 harg2 arg3 harg3 arg4 harg4 arg5 harg5 arg6 harg6 arg7 harg7 hc0 x0 x1 xo5 xo6 xo7).2.2.1)

/-- At a later tile the stores into the first column sum's buffer tile it. -/
theorem cover0_B_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x4096.Idx) :
    ∃ pc ∈ (kernelRun0_B c i arg1 harg1 arg2 harg2 arg3 harg3 arg4 harg4 arg5 harg5 arg6 harg6 arg7 harg7 hc0 x0 x1 xo5 xo6 xo7).2.2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.2.1 S1x4096.size (by sl_kernel_rfl) y

/-- What a later tile leaves there, over what the tile before left in the accumulators. -/
def out0_B_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x4096 .f32 :=
  VO0_5.read (Elt F) (VO0_5.writes (Elt F) VO0_5.junk (kernelRun0_B c i arg1 harg1 arg2 harg2 arg3 harg3 arg4 harg4 arg5 harg5 arg6 harg6 arg7 harg7 hc0 x0 x1 xo5 xo6 xo7).2.2.2.1)

/-- At a later tile the stores into the second column sum's buffer tile it. -/
theorem cover0_B_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x4096.Idx) :
    ∃ pc ∈ (kernelRun0_B c i arg1 harg1 arg2 harg2 arg3 harg3 arg4 harg4 arg5 harg5 arg6 harg6 arg7 harg7 hc0 x0 x1 xo5 xo6 xo7).2.2.2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.2.2.1 S1x4096.size (by sl_kernel_rfl) y

/-- What a later tile leaves there, over what the tile before left in the accumulators. -/
def out0_B_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x4096 .f32 :=
  VO0_6.read (Elt F) (VO0_6.writes (Elt F) VO0_6.junk (kernelRun0_B c i arg1 harg1 arg2 harg2 arg3 harg3 arg4 harg4 arg5 harg5 arg6 harg6 arg7 harg7 hc0 x0 x1 xo5 xo6 xo7).2.2.2.2.1)

end Cert.Kernel.Fr

end
-- ==== Proof.K.S1Frame.lean ====
/-
  Stage 1 (the softmax call): what every buffer holds tile by tile, the proof data of the pipeline, and the
  body obligation. The two bf16 outputs are written whole at each tile from that tile's rows alone; the
  entropy sum and the two column sums are accumulators: zeroed at tile 0, and at tile t the tile's
  contribution is added to what tile t - 1 left (their blocks do not move, and are written back only after
  the last tile).
-/
import proofs.«102363_j2070174236949_1_alg».proof.Proof.K.S1Outs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the outputs hold after each tile -/

/-- What the five output buffers hold after the body at tile `n`: the two bf16 blocks of that tile, and the
    three accumulators — from zero at tile 0, else over what tile `n - 1` left. -/
def outsAt0 (c : Dev nD) : (n : ℕ) → n < cfg0.N → Vec F S128x4096 .bf16 × Vec F S128x4096 .bf16 × Vec F S1x1 .f32 × Vec F S1x4096 .f32 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- At the first tile. -/
theorem outsAt0_A (c : Dev nD) (t : Fin cfg0.N) (h0 : t.val % 64 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t)) := by
  obtain ⟨n, hn⟩ := t
  cases n with
  | zero => exact rfl
  | succ n => exact (dif_pos h0).trans rfl

/-- At a later tile: over what the tile before left. -/
theorem outsAt0_B (c : Dev nD) (t : Fin cfg0.N) (h0 : ¬t.val % 64 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at tile `t` the inputs' buffers at their blocks and the
    outputs' at `outsAt0`; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
    | ⟨6, _⟩ => (outsAt0 V c t.val t.isLt).2.2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem after0_6 (c : Dev nD) (t : Fin cfg0.N) : (dat0 V c).after 6 t = (outsAt0 V c t.val t.isLt).2.2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later tile the entropy sum's buffer holds what the tile before left: its block has not moved and was
    not written back in between. -/
theorem before0_4_B (c : Dev nD) (t : Fin cfg0.N) (h0 : ¬t.val % 64 = 0) (d) :
    (dat0 V c).before 4 t d = (outsAt0 V c (t.val - 1) (Nat.lt_of_le_of_lt (Nat.sub_le _ _) t.isLt)).2.2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]
/-- The first column sum's likewise. -/
theorem before0_5_B (c : Dev nD) (t : Fin cfg0.N) (h0 : ¬t.val % 64 = 0) (d) :
    (dat0 V c).before 5 t d = (outsAt0 V c (t.val - 1) (Nat.lt_of_le_of_lt (Nat.sub_le _ _) t.isLt)).2.2.2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]
/-- The second column sum's likewise. -/
theorem before0_6_B (c : Dev nD) (t : Fin cfg0.N) (h0 : ¬t.val % 64 = 0) (d) :
    (dat0 V c).before 6 t d = (outsAt0 V c (t.val - 1) (Nat.lt_of_le_of_lt (Nat.sub_le _ _) t.isLt)).2.2.2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any tile: the inputs' memrefs hold their blocks; the tile is the first or a later one; at a later
    one the accumulators hold what the tile before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A V c t h0]
    unfold out0_A_2 out0_A_3 out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B V c t h0]
    simp only [before0_4_B V c t h0, before0_5_B V c t h0, before0_6_B V c t h0]
    unfold out0_B_2 out0_B_3 out0_B_4 out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) _ _ _).2.2.2.2.2 Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _)

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.S2Runs.lean ====
/-
  Stage 2 (the joint-histogram call, grid 4 x 4 x 4 = 64 points, point t = 16 i + 4 j + k): what its four
  whole-body runs share. A point's blocks of the four inputs as the call finds them; the body's three
  conditions (the output is zeroed at the first point only; the accumulator is zeroed where k = 0; the
  output is added to where k = 3) in closed form; where the output window is idle; the staging memrefs and
  the accumulator the body is called with at a point.
-/
import proofs.«102363_j2070174236949_1_alg».proof.Proof.Gen.Kernel.Launch
import proofs.«102363_j2070174236949_1_alg».proof.Proof.Gen.Kernel.Skeleton
import proofs.«102363_j2070174236949_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.TableIdle
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first matmul operand's staging buffer holds its block of point `t` when the body runs there, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second matmul operand's staging buffer holds its block of point `t` when the body runs there, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row marginal's staging buffer holds its block of point `t` when the body runs there, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The column marginal's staging buffer holds its block of point `t` when the body runs there, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- The output is zeroed: the point is (0, 0, 0). -/
abbrev cond1_0 (i : grid1.Coords) : Prop := k1_cond1 i = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- The accumulator is zeroed: the innermost coordinate is 0. -/
abbrev cond1_1 (i : grid1.Coords) : Prop := (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The output is added to: the innermost coordinate is 3. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the first point the output is stored (zeroed): live. -/
theorem liveAt1_4_A : ∀ t : Fin cfg1.N, cond1_0 (grid1.coords t) → cfg1.idle 4 (grid1.coords t) = false := by decide +kernel
/-- Where k = 3 the output is stored (added to): live. -/
theorem liveAt1_4_D : ∀ t : Fin cfg1.N, cond1_2 (grid1.coords t) → cfg1.idle 4 (grid1.coords t) = false := by decide +kernel
/-- Elsewhere (k = 0 past the first point; k = 1, 2) nothing is stored into the output: idle, -/
theorem idleAt1_4 : ∀ t : Fin cfg1.N, ¬cond1_0 (grid1.coords t) → ¬cond1_2 (grid1.coords t) → cfg1.idle 4 (grid1.coords t) = true := by decide +kernel
/-- and its block is not written back there (only after the last point, where k = 3). -/
theorem noFlush1_4 : ∀ t : Fin cfg1.N, ¬cond1_2 (grid1.coords t) → (cfg1.win 4).flush t = false := by decide +kernel

/-! ## The memrefs the body is called with -/

/-- The output's one staging buffer, through which its contents are stated. -/
abbrev VO1_4 : View sig .tc .vmem S1x1 .f32 := (Memref.whole cc1_stg4_0 : Memref sig .tc .vmem S1x1 .f32).view

/-- Each window's current staging memref at point `t`, as the pipeline passes it, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The accumulator: a whole scoped buffer of the kernel's own, passed beside the windows and carried between points. -/
abbrev scM1_0 : Memref sig .tc .vmem S1024x1024 .f32 := Memref.whole cc1_scratch0
/-- As a view: what it holds is stated through it. -/
abbrev VS1_0 : View sig .tc .vmem S1024x1024 .f32 := scM1_0.view

/-- The core's scoped buffers that are no staging buffer of this call, split at the accumulator: it, whole at some
    contents, and the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers, which the body never names. -/
abbrev restS1 (c : Dev nD) : sProp 𝕄 :=
  Pipeline.scopedRestBut (Ix := Unit) (Name := ℕ) (U := UR sig nD τ) (Lvl := ℕ) (Val := Elt F) spec1 c [cc1_scratch0]

/-- The invariant the launch hands the call, with the accumulator as a memref owned at some contents. -/
theorem PhiA1_eq (c : Dev nD) :
    (Pipeline.ΦA spec1 c : sProp 𝕄)
      = iprop(iprop((∃ d, owns (c : Thread nD τ) scM1_0 fullShare d) ∗ restS1 c) ∗ (∃ r, prngReg c r)) := by
  unfold Pipeline.ΦA; rw [scopedRest1_split]; simp only [scM1_0, owns_whole]; try rfl

end Cert.Kernel.Fr

end
-- ==== Proof.K.S2RunA.lean ====
/-
  Stage 2, the body at the first point (0, 0, 0): the output is zeroed, the accumulator is zeroed, and the
  first product of the two blocks is added into the accumulator. The pieces the output's buffer and the
  accumulator end with are found by running the body.
-/
import proofs.«102363_j2070174236949_1_alg».proof.Proof.K.S2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first point, on whole staging memrefs: the inputs at their blocks, the output's buffer and the
    accumulator at anything; it ends with the inputs as they were, the output's buffer and the accumulator with
    their pieces written. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) :
    Σ' (L4 : List (View.Piece (Elt F) S1x1 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.S2RunB.lean ====
/-
  Stage 2, the body at a point with k = 0 past the first: the accumulator is zeroed and the product of the
  two blocks is added into it; nothing is stored into the output, whose buffer is handed back as found.
-/
import proofs.«102363_j2070174236949_1_alg».proof.Proof.K.S2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where k = 0 past the first point, on whole staging memrefs: the inputs at their blocks, the output's
    buffer at contents handed back untouched, the accumulator at anything (it is stored whole before it is read);
    it ends with the inputs and the output's buffer as they were, the accumulator with its pieces written. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) :
    Σ' (L4 : List (View.Piece (Elt F) S1x1 .f32)), { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare xi4
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨[], ?_, fun xi4 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.S2RunC.lean ====
/-
  Stage 2, the body at a point with k = 1 or 2: the product of the two blocks is added into the accumulator,
  over what the point before left in it; nothing is stored into the output, whose buffer is handed back as
  found.
-/
import proofs.«102363_j2070174236949_1_alg».proof.Proof.K.S2RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where k = 1 or 2, on whole staging memrefs: the inputs at their blocks, the output's buffer at contents
    handed back untouched, the accumulator at what the point before left; it ends with the inputs and the output's
    buffer as they were, the accumulator with its pieces written. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) :
    Σ' (L4 : List (View.Piece (Elt F) S1x1 .f32)), { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare xi4
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨[], ?_, fun xi4 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.S2RunD.lean ====
/-
  Stage 2, the body at a point with k = 3: the product of the two blocks is added into the accumulator, over
  what the point before left in it, and the finished tile's contribution (computed from the accumulator and
  the two marginals' blocks) is added to the output, over what the output's buffer held.
-/
import proofs.«102363_j2070174236949_1_alg».proof.Proof.K.S2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where k = 3, on whole staging memrefs: the inputs at their blocks, the accumulator at what the point
    before left, the output's buffer at what it held; it ends with the inputs as they were, the output's buffer and
    the accumulator with their pieces written. -/
noncomputable def kernelRun1_D (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) :
    Σ' (L4 : List (View.Piece (Elt F) S1x1 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.S2Frame.lean ====
/-
  Stage 2 (the joint-histogram call): what the output's buffer and the accumulator hold point by point, the
  proof data of the pipeline, and the body obligation. The accumulator is the kernel's own buffer, carried
  between points: zeroed where k = 0, the product of the point's two blocks added at every point. The output
  (one number) is zeroed at the first point and added to where k = 3, from the finished accumulator and the
  two marginals; at the other points nothing is stored into it, its block does not move and is written back
  only after the last point, so its buffer keeps what the last store left.
-/
import proofs.«102363_j2070174236949_1_alg».proof.Proof.K.S2RunD

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point the stores into the output's buffer tile it. -/
theorem cover1_A_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1x1.Idx) :
    ∃ pc ∈ (kernelRun1_A c i arg3 harg3 arg4 harg4 arg5 harg5 arg6 harg6 arg7 harg7 arg8 harg8 hc0 hc1 hc2 x0 x1 x2 x3).1, y ∈ pc.1.set :=
  View.cover_of_tiledL (kernelRun1_A c i arg3 harg3 arg4 harg4 arg5 harg5 arg6 harg6 arg7 harg7 arg8 harg8 hc0 hc1 hc2 x0 x1 x2 x3).1 S1x1.size (by sl_kernel_rfl) y

/-- What the first point leaves there: its pieces read back. -/
def out1_A_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1x1 .f32 :=
  VO1_4.read (Elt F) (VO1_4.writes (Elt F) VO1_4.junk (kernelRun1_A c i arg3 harg3 arg4 harg4 arg5 harg5 arg6 harg6 arg7 harg7 arg8 harg8 hc0 hc1 hc2 x0 x1 x2 x3).1)

/-- At the first point the stores into the accumulator tile it. -/
theorem scover1_A_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 hc2 x0 x1 x2 x3).2.1, y ∈ pc.1.set :=
  View.cover_of_tiledL (kernelRun1_A c i arg3 harg3 arg4 harg4 arg5 harg5 arg6 harg6 arg7 harg7 arg8 harg8 hc0 hc1 hc2 x0 x1 x2 x3).2.1 S1024x1024.size (by sl_kernel_rfl) y

/-- What the first point leaves in the accumulator: its pieces read back. -/
def sout1_A_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 hc2 x0 x1 x2 x3).2.1)

/-- At a point with k = 0 past the first the stores into the accumulator tile it. -/
theorem scover1_B_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1024x1024.Idx) :
    ∃ pc ∈ (kernelRun1_B c i arg3 harg3 arg4 harg4 arg5 harg5 arg6 harg6 arg7 harg7 arg8 harg8 hc0 hc1 hc2 x0 x1 x2 x3).2.1, y ∈ pc.1.set :=
  View.cover_of_tiledL (kernelRun1_B c i arg3 harg3 arg4 harg4 arg5 harg5 arg6 harg6 arg7 harg7 arg8 harg8 hc0 hc1 hc2 x0 x1 x2 x3).2.1 S1024x1024.size (by sl_kernel_rfl) y

/-- What a point with k = 0 past the first leaves in the accumulator: its pieces read back. -/
def sout1_B_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 hc2 x0 x1 x2 x3).2.1)

/-- At a point with k = 1 or 2 the stores into the accumulator tile it. -/
theorem scover1_C_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) (y : S1024x1024.Idx) :
    ∃ pc ∈ (kernelRun1_C c i arg3 harg3 arg4 harg4 arg5 harg5 arg6 harg6 arg7 harg7 arg8 harg8 hc0 hc1 hc2 x0 x1 x2 x3 xs0).2.1, y ∈ pc.1.set :=
  View.cover_of_tiledL (kernelRun1_C c i arg3 harg3 arg4 harg4 arg5 harg5 arg6 harg6 arg7 harg7 arg8 harg8 hc0 hc1 hc2 x0 x1 x2 x3 xs0).2.1 S1024x1024.size (by sl_kernel_rfl) y

/-- What a point with k = 1 or 2 leaves in the accumulator: its pieces read back. -/
def sout1_C_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 hc2 x0 x1 x2 x3 xs0).2.1)

/-- At a point with k = 3 the stores into the output's buffer tile it. -/
theorem cover1_D_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) (y : S1x1.Idx) :
    ∃ pc ∈ (kernelRun1_D c i arg3 harg3 arg4 harg4 arg5 harg5 arg6 harg6 arg7 harg7 arg8 harg8 hc0 hc1 hc2 x0 x1 x2 x3 xs0 xo4).1, y ∈ pc.1.set :=
  View.cover_of_tiledL (kernelRun1_D c i arg3 harg3 arg4 harg4 arg5 harg5 arg6 harg6 arg7 harg7 arg8 harg8 hc0 hc1 hc2 x0 x1 x2 x3 xs0 xo4).1 S1x1.size (by sl_kernel_rfl) y

/-- What a point with k = 3 leaves there: its pieces read back. -/
def out1_D_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) : Vec F S1x1 .f32 :=
  VO1_4.read (Elt F) (VO1_4.writes (Elt F) VO1_4.junk (kernelRun1_D c i arg3 harg3 arg4 harg4 arg5 harg5 arg6 harg6 arg7 harg7 arg8 harg8 hc0 hc1 hc2 x0 x1 x2 x3 xs0 xo4).1)

/-- At a point with k = 3 the stores into the accumulator tile it. -/
theorem scover1_D_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) (y : S1024x1024.Idx) :
    ∃ pc ∈ (kernelRun1_D c i arg3 harg3 arg4 harg4 arg5 harg5 arg6 harg6 arg7 harg7 arg8 harg8 hc0 hc1 hc2 x0 x1 x2 x3 xs0 xo4).2.1, y ∈ pc.1.set :=
  View.cover_of_tiledL (kernelRun1_D c i arg3 harg3 arg4 harg4 arg5 harg5 arg6 harg6 arg7 harg7 arg8 harg8 hc0 hc1 hc2 x0 x1 x2 x3 xs0 xo4).2.1 S1024x1024.size (by sl_kernel_rfl) y

/-- What a point with k = 3 leaves in the accumulator: its pieces read back. -/
def sout1_D_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) : Vec F S1024x1024 .f32 :=
  VS1_0.read (Elt F) (VS1_0.writes (Elt F) VS1_0.junk (kernelRun1_D c i arg3 harg3 arg4 harg4 arg5 harg5 arg6 harg6 arg7 harg7 arg8 harg8 hc0 hc1 hc2 x0 x1 x2 x3 xs0 xo4).2.1)

/-! ## What the output's buffer and the accumulator hold after each point -/

theorem c1_of_c0 {n : ℕ} (h : n % 64 = 0) : n % 4 = 0 := by omega
theorem nc2_of_c1 {n : ℕ} (h : n % 4 = 0) : ¬n % 4 = 3 := by omega
theorem nc0_of_nc1 {n : ℕ} (h : ¬n % 4 = 0) : ¬n % 64 = 0 := by omega
theorem nc1_of_c2 {n : ℕ} (h : n % 4 = 3) : ¬n % 4 = 0 := by omega

/-- What the output's staging buffer and the accumulator hold after the body at point `n`. The output: zero after
    the first point; where k = 3, the tile's contribution added to what it held; elsewhere what the point before
    left (nothing is stored into it there). The accumulator: where k = 0 the blocks' product over zero; elsewhere
    the product added to what the point before left. -/
def outsAt1 (c : Dev nD) : (n : ℕ) → n < cfg1.N → Vec F S1x1 .f32 × Vec F S1024x1024 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod 64)) ((hcond1_1 ⟨0, hn⟩).mpr (c1_of_c0 (Nat.zero_mod 64))) (fun h => nc2_of_c1 (c1_of_c0 (Nat.zero_mod 64)) ((hcond1_2 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod 64)) ((hcond1_1 ⟨0, hn⟩).mpr (c1_of_c0 (Nat.zero_mod 64))) (fun h => nc2_of_c1 (c1_of_c0 (Nat.zero_mod 64)) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 64 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) ((hcond1_1 ⟨n + 1, hn⟩).mpr (c1_of_c0 h0)) (fun h => nc2_of_c1 (c1_of_c0 h0) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) ((hcond1_1 ⟨n + 1, hn⟩).mpr (c1_of_c0 h0)) (fun h => nc2_of_c1 (c1_of_c0 h0) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h1 : (n + 1) % 4 = 0 then
      ((outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (fun h => nc2_of_c1 h1 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h2 : (n + 1) % 4 = 3 then
      (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 (nc1_of_c2 h2) ((hcond1_0 ⟨n + 1, hn⟩).mp h)) (fun h => nc1_of_c2 h2 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2 (outsAt1 c n (Nat.lt_of_succ_lt hn)).1, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 (nc1_of_c2 h2) ((hcond1_0 ⟨n + 1, hn⟩).mp h)) (fun h => nc1_of_c2 h2 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2 (outsAt1 c n (Nat.lt_of_succ_lt hn)).1)
    else
      ((outsAt1 c n (Nat.lt_of_succ_lt hn)).1, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 h1 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At the first point. -/
theorem outsAt1_A (c : Dev nD) (t : Fin cfg1.N) (h0 : t.val % 64 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- Where k = 0 past the first point: the output as the point before left it. -/
theorem outsAt1_B (c : Dev nD) (t : Fin cfg1.N) (h0 : ¬t.val % 64 = 0) (h1 : t.val % 4 = 0) :
    outsAt1 V c t.val t.isLt = ((outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (fun h => nc2_of_c1 h1 ((hcond1_2 t).mp h)) (iblk1 V c 0 t) (iblk1 V c 1 t) (iblk1 V c 2 t) (iblk1 V c 3 t)) := by
  obtain ⟨n, hn⟩ := t
  cases n with
  | zero => exact absurd (Nat.zero_mod _) h0
  | succ n => exact (dif_neg h0).trans ((dif_pos h1).trans rfl)

/-- Where k = 1 or 2: the output as the point before left it, the accumulator over what that point left. -/
theorem outsAt1_C (c : Dev nD) (t : Fin cfg1.N) (h1 : ¬t.val % 4 = 0) (h2 : ¬t.val % 4 = 3) :
    outsAt1 V c t.val t.isLt = ((outsAt1 V c (t.val - 1) (Nat.lt_of_le_of_lt (Nat.sub_le _ _) t.isLt)).1, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 h1 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h1
  | succ n => exact (dif_neg (nc0_of_nc1 h1)).trans ((dif_neg h1).trans ((dif_neg h2).trans rfl))

/-- Where k = 3: both over what the point before left. -/
theorem outsAt1_D (c : Dev nD) (t : Fin cfg1.N) (h2 : t.val % 4 = 3) :
    outsAt1 V c t.val t.isLt = (out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2 (outsAt1 V c (t.val - 1) (Nat.lt_of_le_of_lt (Nat.sub_le _ _) t.isLt)).1, sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2 (outsAt1 V c (t.val - 1) (Nat.lt_of_le_of_lt (Nat.sub_le _ _) t.isLt)).1) := by
  obtain ⟨n, hn⟩ := t
  cases n with
  | zero => exact absurd (show (0 : ℕ) % 4 = 3 from h2) (by decide)
  | succ n => exact (dif_neg (nc0_of_nc1 (nc1_of_c2 h2))).trans ((dif_neg (nc1_of_c2 h2)).trans ((dif_pos h2).trans rfl))

/-! ## The invariant: the accumulator between points -/

/-- The call's invariant before point `n`: before the first point what the launch hands over (the accumulator at
    anything); afterwards the accumulator at what the point before left in it, the other scoped buffers unopened, and
    the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 c) ∗ (∃ r, prngReg c r)) := by
  cases n with
  | zero => exact absurd rfl hz
  | succ n => rfl

/-! ## The pipeline's proof data -/

/-- The arrays as the call finds them; after the body at point `t` the inputs' buffers at their blocks and the
    output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The output's buffer holds nothing the body stored exactly before the first point (and after the last, where it
    is written back): the schedule's table, stepped once per point. -/
theorem fresh1_4 : ∀ n, n ≤ cfg1.N → cfg1.fresh 4 n = decide (n % 64 = 0) :=
  Pipeline.Cfg.fresh_tab cfg1 4 (fun n => decide (n % 64 = 0)) rfl
    (by decide +kernel : ∀ t : Fin grid1.N, decide ((t.val + 1) % 64 = 0) = ((cfg1.win 4).flush t || (cfg1.idle 4 (grid1.coords t) && decide (t.val % 64 = 0))))

/-- At a point where nothing is stored into the output, `outsAt1` carries what the point before left. -/
theorem carry1_4 (c : Dev nD) (t : Fin cfg1.N) (hi : cfg1.idle 4 (cfg1.grid.coords t) = true) :
    (outsAt1 V c t.val t.isLt).1 = (outsAt1 V c (t.val - 1) (Nat.lt_of_le_of_lt (Nat.sub_le _ _) t.isLt)).1 := by
  have hc0 : ¬cond1_0 (grid1.coords t) := fun h => Bool.false_ne_true ((liveAt1_4_A t h).symm.trans hi)
  have hc2 : ¬cond1_2 (grid1.coords t) := fun h => Bool.false_ne_true ((liveAt1_4_D t h).symm.trans hi)
  have h0 : ¬t.val % 64 = 0 := fun h => hc0 ((hcond1_0 t).mpr h)
  have h2 : ¬t.val % 4 = 3 := fun h => hc2 ((hcond1_2 t).mpr h)
  by_cases h1 : t.val % 4 = 0
  · rw [outsAt1_B V c t h0 h1]
  · rw [outsAt1_C V c t h1 h2]

/-- Past the first point the output's buffer holds what the point before left: its block does not move, it is not
    written back in between, and where nothing is stored into it the trajectory carries it. -/
theorem before1_4_pos (c : Dev nD) (t : Fin cfg1.N) (h0 : ¬t.val % 64 = 0) (d) :
    (dat1 V c).before 4 t d = (outsAt1 V c (t.val - 1) (Nat.lt_of_le_of_lt (Nat.sub_le _ _) t.isLt)).1 := by
  rw [Dat.before_out_traj (dat1 V c) 4 rfl (fun _ _ => rfl)
      (fun t _ hi _ => by rw [after1_4, after1_4]; exact carry1_4 V c t hi) t.val t rfl d,
    fresh1_4 t.val (Nat.le_of_lt t.isLt), if_neg (by rw [decide_eq_true_iff]; exact h0), after1_4]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which of the four cases the
    point is in; past the first point the invariant hands the body the accumulator at what the point before left,
    and where k = 3 the output's buffer holds what the point before left; so that case's run applies, and the
    accumulator goes back into the invariant at this point's contents. Where nothing is stored into the output its
    buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  have hN : t.val < 64 := lt_of_lt_of_eq t.isLt (show cfg1.N = 64 from N_1)
  by_cases h0 : t.val % 64 = 0
  · have hz : t.val = 0 := by omega
    rw [show (dat1 V c).leavesExact 4 t = owns (c : Thread nD τ) (ms1_4 t) fullShare ((dat1 V c).after 4 t) from by
          unfold Dat.leavesExact; rw [liveAt1_4_A t ((hcond1_0 t).mpr h0)], after1_4]
    rw [outsAt1_A V c t h0]
    unfold out1_A_4 sout1_A_0; (try dsimp only)
    rw [PhiS1_castSucc V c t, PhiS1_zero V c _ _ hz, PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _ _ _)
  · have hz : t.val ≠ 0 := fun h => h0 (by rw [h])
    by_cases h1 : t.val % 4 = 0
    · have h2 : ¬t.val % 4 = 3 := nc2_of_c1 h1
      rw [Dat.leavesExact_idle (dat1 V c) 4 t (idleAt1_4 t (fun h => h0 ((hcond1_0 t).mp h)) (fun h => h2 ((hcond1_2 t).mp h))) (noFlush1_4 t (fun h => h2 ((hcond1_2 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) ((hcond1_1 t).mpr h1) (fun h => nc2_of_c1 h1 ((hcond1_2 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · by_cases h2 : t.val % 4 = 3
      · rw [show (dat1 V c).leavesExact 4 t = owns (c : Thread nD τ) (ms1_4 t) fullShare ((dat1 V c).after 4 t) from by
              unfold Dat.leavesExact; rw [liveAt1_4_D t ((hcond1_2 t).mpr h2)], after1_4]
        rw [outsAt1_D V c t h2]
        unfold out1_D_4 sout1_D_0; (try dsimp only)
        rw [PhiS1_castSucc V c t, PhiS1_pos V c _ _ hz]
        simp only [before1_4_pos V c t h0]
        iintro ⟨⟨⟨HS0, HR⟩, Hg⟩, Ho, ⟨%d0, H0⟩, ⟨%d1, H1⟩, ⟨%d2, H2⟩, ⟨%d3, H3⟩, ⟨%d4, H4⟩⟩
        iapply ((kernelRun1_D c (grid1.coords t) _ _ _ _ _ _ _ _ _ _ _ _ (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) _ _).2.2 Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_D_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_D_4 c _ _ _ _ _ _ _ _ _ _ _ _ _ _ _ _ _ _ _ _ _ _)
      · rw [Dat.leavesExact_idle (dat1 V c) 4 t (idleAt1_4 t (fun h => h0 ((hcond1_0 t).mp h)) (fun h => h2 ((hcond1_2 t).mp h))) (noFlush1_4 t (fun h => h2 ((hcond1_2 t).mp h)))]
        rw [outsAt1_C V c t h1 h2]
        unfold sout1_C_0; (try dsimp only)
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => nc0_of_nc1 h1 ((hcond1_0 t).mp h)) (fun h => h1 ((hcond1_1 t).mp h)) (fun h => h2 ((hcond1_2 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.KI.S1Runs.lean ====
/-
  Stage 1 (the softmax call, 64 row tiles of 128 rows): what its two whole-body runs share. A row tile's
  blocks of the two inputs as the call finds them, the one condition of the body (the accumulators are
  reset at the first tile only), and the staging memrefs the body is called with at a tile.
-/
import proofs.«102363_j2070174236949_1_alg».proof.Proof.Gen.KernelIdeal.Launch
import proofs.«102363_j2070174236949_1_alg».proof.Proof.Gen.KernelIdeal.Skeleton
import proofs.«102363_j2070174236949_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.TableIdle
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at row tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds tile `t`'s 128 rows when the body runs there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one condition: the tile is the first. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- A staging buffer of each output window, through which its contents are stated. -/
abbrev VO0_2 : View sig .tc .vmem S128x4096 .bf16 := (Memref.whole cc0_stg2_0 : Memref sig .tc .vmem S128x4096 .bf16).view
abbrev VO0_3 : View sig .tc .vmem S128x4096 .bf16 := (Memref.whole cc0_stg3_0 : Memref sig .tc .vmem S128x4096 .bf16).view
abbrev VO0_4 : View sig .tc .vmem S1x1 .f32 := (Memref.whole cc0_stg4_0 : Memref sig .tc .vmem S1x1 .f32).view
abbrev VO0_5 : View sig .tc .vmem S1x4096 .f32 := (Memref.whole cc0_stg5_0 : Memref sig .tc .vmem S1x4096 .f32).view
abbrev VO0_6 : View sig .tc .vmem S1x4096 .f32 := (Memref.whole cc0_stg6_0 : Memref sig .tc .vmem S1x4096 .f32).view

/-- Each window's current staging memref at tile `t`, as the pipeline passes it, and its wholeness. -/
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)

end Cert.KernelIdeal.Fr

end
-- ==== Proof.KI.S1RunA.lean ====
/-
  Stage 1, the body at the first row tile: the three accumulators (the entropy sum, the two column sums) are
  zeroed, then the tile's softmax rows are added into them and written out as the two bf16 blocks.
  The pieces each output's buffer ends with are found by running the body.
-/
import proofs.«102363_j2070174236949_1_alg».proof.Proof.KI.S1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first tile, on whole staging memrefs: the inputs at their blocks, every output buffer at anything;
    it ends with the inputs as they were and each output's buffer with its pieces written. -/
noncomputable def kernelRun0_A (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    Σ' (L3 : List (View.Piece (Elt F) S128x4096 .bf16)) (L4 : List (View.Piece (Elt F) S128x4096 .bf16)) (L5 : List (View.Piece (Elt F) S1x1 .f32)) (L6 : List (View.Piece (Elt F) S1x4096 .f32)), { L7 : List (View.Piece (Elt F) S1x4096 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L3)
              ∗ (∃ f, arg4.view.loc (c : Thread nD τ) ↦[arg4.view.set]{fullShare} arg4.view.writes (Elt F) f L4)
              ∗ (∃ f, arg5.view.loc (c : Thread nD τ) ↦[arg5.view.set]{fullShare} arg5.view.writes (Elt F) f L5)
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)) -∗ K ⟨⟩))
          ⊢ wp frame (wpE (defs₀ (F := F)) Variants.none c none) E (cc0__stage1_kernel i arg1 harg1 arg2 harg2 arg3 harg3 arg4 harg4 arg5 harg5 arg6 harg6 arg7 harg7) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Fr

end
-- ==== Proof.KI.S1RunB.lean ====
/-
  Stage 1, the body at a later row tile: the three accumulators hold what the tile before left; the tile's
  softmax rows are added into them and written out as the two bf16 blocks.
-/
import proofs.«102363_j2070174236949_1_alg».proof.Proof.KI.S1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a tile that is not the first, on whole staging memrefs: the inputs at their blocks, the three
    accumulators at what the tile before left (`xo5`, `xo6`, `xo7`), the two bf16 outputs at anything. -/
noncomputable def kernelRun0_B (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    Σ' (L3 : List (View.Piece (Elt F) S128x4096 .bf16)) (L4 : List (View.Piece (Elt F) S128x4096 .bf16)) (L5 : List (View.Piece (Elt F) S1x1 .f32)) (L6 : List (View.Piece (Elt F) S1x4096 .f32)), { L7 : List (View.Piece (Elt F) S1x4096 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xo5 ∗ owns (c : Thread nD τ) arg6 fullShare xo6 ∗ owns (c : Thread nD τ) arg7 fullShare xo7
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L3)
              ∗ (∃ f, arg4.view.loc (c : Thread nD τ) ↦[arg4.view.set]{fullShare} arg4.view.writes (Elt F) f L4)
              ∗ (∃ f, arg5.view.loc (c : Thread nD τ) ↦[arg5.view.set]{fullShare} arg5.view.writes (Elt F) f L5)
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)) -∗ K ⟨⟩))
          ⊢ wp frame (wpE (defs₀ (F := F)) Variants.none c none) E (cc0__stage1_kernel i arg1 harg1 arg2 harg2 arg3 harg3 arg4 harg4 arg5 harg5 arg6 harg6 arg7 harg7) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%f6, %hf6, H6⟩, ⟨%f7, %hf7, H7⟩, Hk⟩
    obtain rfl := harg1.eq_unread hf0; obtain rfl := harg2.eq_unread hf1
    obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [H6]; · iexists _; iexact H6
    iexists _; iexact H7

end Cert.KernelIdeal.Fr

end
-- ==== Proof.KI.S1Outs.lean ====
/-
  Stage 1 (the softmax call): at each of its two control cases, that the stores into each output buffer tile it,
  and what the buffer then holds: the pieces the run found, read back.
-/
import proofs.«102363_j2070174236949_1_alg».proof.Proof.KI.S1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first tile the stores into the first bf16 block's buffer tile it. -/
theorem cover0_A_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S128x4096.Idx) :
    ∃ pc ∈ (kernelRun0_A c i arg1 harg1 arg2 harg2 arg3 harg3 arg4 harg4 arg5 harg5 arg6 harg6 arg7 harg7 hc0 x0 x1).1, y ∈ pc.1.set :=
  View.cover_of_tiledL (kernelRun0_A c i arg1 harg1 arg2 harg2 arg3 harg3 arg4 harg4 arg5 harg5 arg6 harg6 arg7 harg7 hc0 x0 x1).1 S128x4096.size (by sl_kernel_rfl) y

/-- What the first tile leaves there: its pieces read back. -/
def out0_A_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S128x4096 .bf16 :=
  VO0_2.read (Elt F) (VO0_2.writes (Elt F) VO0_2.junk (kernelRun0_A c i arg1 harg1 arg2 harg2 arg3 harg3 arg4 harg4 arg5 harg5 arg6 harg6 arg7 harg7 hc0 x0 x1).1)

/-- At the first tile the stores into the second bf16 block's buffer tile it. -/
theorem cover0_A_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S128x4096.Idx) :
    ∃ pc ∈ (kernelRun0_A c i arg1 harg1 arg2 harg2 arg3 harg3 arg4 harg4 arg5 harg5 arg6 harg6 arg7 harg7 hc0 x0 x1).2.1, y ∈ pc.1.set :=
  View.cover_of_tiledL (kernelRun0_A c i arg1 harg1 arg2 harg2 arg3 harg3 arg4 harg4 arg5 harg5 arg6 harg6 arg7 harg7 hc0 x0 x1).2.1 S128x4096.size (by sl_kernel_rfl) y

/-- What the first tile leaves there: its pieces read back. -/
def out0_A_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S128x4096 .bf16 :=
  VO0_3.read (Elt F) (VO0_3.writes (Elt F) VO0_3.junk (kernelRun0_A c i arg1 harg1 arg2 harg2 arg3 harg3 arg4 harg4 arg5 harg5 arg6 harg6 arg7 harg7 hc0 x0 x1).2.1)

/-- At the first tile the stores into the entropy sum's buffer tile it. -/
theorem cover0_A_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x1.Idx) :
    ∃ pc ∈ (kernelRun0_A c i arg1 harg1 arg2 harg2 arg3 harg3 arg4 harg4 arg5 harg5 arg6 harg6 arg7 harg7 hc0 x0 x1).2.2.1, y ∈ pc.1.set :=
  View.cover_of_tiledL (kernelRun0_A c i arg1 harg1 arg2 harg2 arg3 harg3 arg4 harg4 arg5 harg5 arg6 harg6 arg7 harg7 hc0 x0 x1).2.2.1 S1x1.size (by sl_kernel_rfl) y

/-- What the first tile leaves there: its pieces read back. -/
def out0_A_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x1 .f32 :=
  VO0_4.read (Elt F) (VO0_4.writes (Elt F) VO0_4.junk (kernelRun0_A c i arg1 harg1 arg2 harg2 arg3 harg3 arg4 harg4 arg5 harg5 arg6 harg6 arg7 harg7 hc0 x0 x1).2.2.1)

/-- At the first tile the stores into the first column sum's buffer tile it. -/
theorem cover0_A_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x4096.Idx) :
    ∃ pc ∈ (kernelRun0_A c i arg1 harg1 arg2 harg2 arg3 harg3 arg4 harg4 arg5 harg5 arg6 harg6 arg7 harg7 hc0 x0 x1).2.2.2.1, y ∈ pc.1.set :=
  View.cover_of_tiledL (kernelRun0_A c i arg1 harg1 arg2 harg2 arg3 harg3 arg4 harg4 arg5 harg5 arg6 harg6 arg7 harg7 hc0 x0 x1).2.2.2.1 S1x4096.size (by sl_kernel_rfl) y

/-- What the first tile leaves there: its pieces read back. -/
def out0_A_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x4096 .f32 :=
  VO0_5.read (Elt F) (VO0_5.writes (Elt F) VO0_5.junk (kernelRun0_A c i arg1 harg1 arg2 harg2 arg3 harg3 arg4 harg4 arg5 harg5 arg6 harg6 arg7 harg7 hc0 x0 x1).2.2.2.1)

/-- At the first tile the stores into the second column sum's buffer tile it. -/
theorem cover0_A_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) (y : S1x4096.Idx) :
    ∃ pc ∈ (kernelRun0_A c i arg1 harg1 arg2 harg2 arg3 harg3 arg4 harg4 arg5 harg5 arg6 harg6 arg7 harg7 hc0 x0 x1).2.2.2.2.1, y ∈ pc.1.set :=
  View.cover_of_tiledL (kernelRun0_A c i arg1 harg1 arg2 harg2 arg3 harg3 arg4 harg4 arg5 harg5 arg6 harg6 arg7 harg7 hc0 x0 x1).2.2.2.2.1 S1x4096.size (by sl_kernel_rfl) y

/-- What the first tile leaves there: its pieces read back. -/
def out0_A_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) : Vec F S1x4096 .f32 :=
  VO0_6.read (Elt F) (VO0_6.writes (Elt F) VO0_6.junk (kernelRun0_A c i arg1 harg1 arg2 harg2 arg3 harg3 arg4 harg4 arg5 harg5 arg6 harg6 arg7 harg7 hc0 x0 x1).2.2.2.2.1)

/-- At a later tile the stores into the first bf16 block's buffer tile it. -/
theorem cover0_B_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S128x4096.Idx) :
    ∃ pc ∈ (kernelRun0_B c i arg1 harg1 arg2 harg2 arg3 harg3 arg4 harg4 arg5 harg5 arg6 harg6 arg7 harg7 hc0 x0 x1 xo5 xo6 xo7).1, y ∈ pc.1.set :=
  View.cover_of_tiledL (kernelRun0_B c i arg1 harg1 arg2 harg2 arg3 harg3 arg4 harg4 arg5 harg5 arg6 harg6 arg7 harg7 hc0 x0 x1 xo5 xo6 xo7).1 S128x4096.size (by sl_kernel_rfl) y

/-- What a later tile leaves there, over what the tile before left in the accumulators. -/
def out0_B_2 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S128x4096 .bf16 :=
  VO0_2.read (Elt F) (VO0_2.writes (Elt F) VO0_2.junk (kernelRun0_B c i arg1 harg1 arg2 harg2 arg3 harg3 arg4 harg4 arg5 harg5 arg6 harg6 arg7 harg7 hc0 x0 x1 xo5 xo6 xo7).1)

/-- At a later tile the stores into the second bf16 block's buffer tile it. -/
theorem cover0_B_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S128x4096.Idx) :
    ∃ pc ∈ (kernelRun0_B c i arg1 harg1 arg2 harg2 arg3 harg3 arg4 harg4 arg5 harg5 arg6 harg6 arg7 harg7 hc0 x0 x1 xo5 xo6 xo7).2.1, y ∈ pc.1.set :=
  View.cover_of_tiledL (kernelRun0_B c i arg1 harg1 arg2 harg2 arg3 harg3 arg4 harg4 arg5 harg5 arg6 harg6 arg7 harg7 hc0 x0 x1 xo5 xo6 xo7).2.1 S128x4096.size (by sl_kernel_rfl) y

/-- What a later tile leaves there, over what the tile before left in the accumulators. -/
def out0_B_3 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S128x4096 .bf16 :=
  VO0_3.read (Elt F) (VO0_3.writes (Elt F) VO0_3.junk (kernelRun0_B c i arg1 harg1 arg2 harg2 arg3 harg3 arg4 harg4 arg5 harg5 arg6 harg6 arg7 harg7 hc0 x0 x1 xo5 xo6 xo7).2.1)

/-- At a later tile the stores into the entropy sum's buffer tile it. -/
theorem cover0_B_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x1.Idx) :
    ∃ pc ∈ (kernelRun0_B c i arg1 harg1 arg2 harg2 arg3 harg3 arg4 harg4 arg5 harg5 arg6 harg6 arg7 harg7 hc0 x0 x1 xo5 xo6 xo7).2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.1 S1x1.size (by sl_kernel_rfl) y

/-- What a later tile leaves there, over what the tile before left in the accumulators. -/
def out0_B_4 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x1 .f32 :=
  VO0_4.read (Elt F) (VO0_4.writes (Elt F) VO0_4.junk (kernelRun0_B c i arg1 harg1 arg2 harg2 arg3 harg3 arg4 harg4 arg5 harg5 arg6 harg6 arg7 harg7 hc0 x0 x1 xo5 xo6 xo7).2.2.1)

/-- At a later tile the stores into the first column sum's buffer tile it. -/
theorem cover0_B_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x4096.Idx) :
    ∃ pc ∈ (kernelRun0_B c i arg1 harg1 arg2 harg2 arg3 harg3 arg4 harg4 arg5 harg5 arg6 harg6 arg7 harg7 hc0 x0 x1 xo5 xo6 xo7).2.2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.2.1 S1x4096.size (by sl_kernel_rfl) y

/-- What a later tile leaves there, over what the tile before left in the accumulators. -/
def out0_B_5 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x4096 .f32 :=
  VO0_5.read (Elt F) (VO0_5.writes (Elt F) VO0_5.junk (kernelRun0_B c i arg1 harg1 arg2 harg2 arg3 harg3 arg4 harg4 arg5 harg5 arg6 harg6 arg7 harg7 hc0 x0 x1 xo5 xo6 xo7).2.2.2.1)

/-- At a later tile the stores into the second column sum's buffer tile it. -/
theorem cover0_B_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) (y : S1x4096.Idx) :
    ∃ pc ∈ (kernelRun0_B c i arg1 harg1 arg2 harg2 arg3 harg3 arg4 harg4 arg5 harg5 arg6 harg6 arg7 harg7 hc0 x0 x1 xo5 xo6 xo7).2.2.2.2.1, y ∈ pc.1.set :=
  View.cover_of_tiledL (kernelRun0_B c i arg1 harg1 arg2 harg2 arg3 harg3 arg4 harg4 arg5 harg5 arg6 harg6 arg7 harg7 hc0 x0 x1 xo5 xo6 xo7).2.2.2.2.1 S1x4096.size (by sl_kernel_rfl) y

/-- What a later tile leaves there, over what the tile before left in the accumulators. -/
def out0_B_6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) : Vec F S1x4096 .f32 :=
  VO0_6.read (Elt F) (VO0_6.writes (Elt F) VO0_6.junk (kernelRun0_B c i arg1 harg1 arg2 harg2 arg3 harg3 arg4 harg4 arg5 harg5 arg6 harg6 arg7 harg7 hc0 x0 x1 xo5 xo6 xo7).2.2.2.2.1)

end Cert.KernelIdeal.Fr

end
-- ==== Proof.KI.S1Frame.lean ====
/-
  Stage 1 (the softmax call): what every buffer holds tile by tile, the proof data of the pipeline, and the
  body obligation. The two bf16 outputs are written whole at each tile from that tile's rows alone; the
  entropy sum and the two column sums are accumulators: zeroed at tile 0, and at tile t the tile's
  contribution is added to what tile t - 1 left (their blocks do not move, and are written back only after
  the last tile).
-/
import proofs.«102363_j2070174236949_1_alg».proof.Proof.KI.S1Outs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the outputs hold after each tile -/

/-- What the five output buffers hold after the body at tile `n`: the two bf16 blocks of that tile, and the
    three accumulators — from zero at tile 0, else over what tile `n - 1` left. -/
def outsAt0 (c : Dev nD) : (n : ℕ) → n < cfg0.N → Vec F S128x4096 .bf16 × Vec F S128x4096 .bf16 × Vec F S1x1 .f32 × Vec F S1x4096 .f32 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- At the first tile. -/
theorem outsAt0_A (c : Dev nD) (t : Fin cfg0.N) (h0 : t.val % 64 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t)) := by
  obtain ⟨n, hn⟩ := t
  cases n with
  | zero => exact rfl
  | succ n => exact (dif_pos h0).trans rfl

/-- At a later tile: over what the tile before left. -/
theorem outsAt0_B (c : Dev nD) (t : Fin cfg0.N) (h0 : ¬t.val % 64 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at tile `t` the inputs' buffers at their blocks and the
    outputs' at `outsAt0`; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
    | ⟨6, _⟩ => (outsAt0 V c t.val t.isLt).2.2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]
theorem after0_6 (c : Dev nD) (t : Fin cfg0.N) : (dat0 V c).after 6 t = (outsAt0 V c t.val t.isLt).2.2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later tile the entropy sum's buffer holds what the tile before left: its block has not moved and was
    not written back in between. -/
theorem before0_4_B (c : Dev nD) (t : Fin cfg0.N) (h0 : ¬t.val % 64 = 0) (d) :
    (dat0 V c).before 4 t d = (outsAt0 V c (t.val - 1) (Nat.lt_of_le_of_lt (Nat.sub_le _ _) t.isLt)).2.2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]
/-- The first column sum's likewise. -/
theorem before0_5_B (c : Dev nD) (t : Fin cfg0.N) (h0 : ¬t.val % 64 = 0) (d) :
    (dat0 V c).before 5 t d = (outsAt0 V c (t.val - 1) (Nat.lt_of_le_of_lt (Nat.sub_le _ _) t.isLt)).2.2.2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dat0]
/-- The second column sum's likewise. -/
theorem before0_6_B (c : Dev nD) (t : Fin cfg0.N) (h0 : ¬t.val % 64 = 0) (d) :
    (dat0 V c).before 6 t d = (outsAt0 V c (t.val - 1) (Nat.lt_of_le_of_lt (Nat.sub_le _ _) t.isLt)).2.2.2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4000000 in
/-- The body at any tile: the inputs' memrefs hold their blocks; the tile is the first or a later one; at a later
    one the accumulators hold what the tile before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A V c t h0]
    unfold out0_A_2 out0_A_3 out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B V c t h0]
    simp only [before0_4_B V c t h0, before0_5_B V c t h0, before0_6_B V c t h0]
    unfold out0_B_2 out0_B_3 out0_B_4 out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) _ _ _).2.2.2.2.2 Set.univ _)
    isplitl [H0]; · iexact H0
    isplitl [H1]; · iexact H1
    isplitl [H2]; · iexists _; iexact H2
    isplitl [H3]; · iexists _; iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _)

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.S2Runs.lean ====
/-
  Stage 2 (the joint-histogram call, grid 4 x 4 x 4 = 64 points, point t = 16 i + 4 j + k): what its four
  whole-body runs share. A point's blocks of the four inputs as the call finds them; the body's three
  conditions (the output is zeroed at the first point only; the accumulator is zeroed where k = 0; the
  output is added to where k = 3) in closed form; where the output window is idle; the staging memrefs and
  the accumulator the body is called with at a point.
-/
import proofs.«102363_j2070174236949_1_alg».proof.Proof.Gen.KernelIdeal.Launch
import proofs.«102363_j2070174236949_1_alg».proof.Proof.Gen.KernelIdeal.Skeleton
import proofs.«102363_j2070174236949_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.TableIdle
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first matmul operand's staging buffer holds its block of point `t` when the body runs there, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second matmul operand's staging buffer holds its block of point `t` when the body runs there, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row marginal's staging buffer holds its block of point `t` when the body runs there, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The column marginal's staging buffer holds its block of point `t` when the body runs there, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- The output is zeroed: the point is (0, 0, 0). -/
abbrev cond1_0 (i : grid1.Coords) : Prop := k1_cond1 i = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- The accumulator is zeroed: the innermost coordinate is 0. -/
abbrev cond1_1 (i : grid1.Coords) : Prop := (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The output is added to: the innermost coordinate is 3. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the first point the output is stored (zeroed): live. -/
theorem liveAt1_4_A : ∀ t : Fin cfg1.N, cond1_0 (grid1.coords t) → cfg1.idle 4 (grid1.coords t) = false := by decide +kernel
/-- Where k = 3 the output is stored (added to): live. -/
theorem liveAt1_4_D : ∀ t : Fin cfg1.N, cond1_2 (grid1.coords t) → cfg1.idle 4 (grid1.coords t) = false := by decide +kernel
/-- Elsewhere (k = 0 past the first point; k = 1, 2) nothing is stored into the output: idle, -/
theorem idleAt1_4 : ∀ t : Fin cfg1.N, ¬cond1_0 (grid1.coords t) → ¬cond1_2 (grid1.coords t) → cfg1.idle 4 (grid1.coords t) = true := by decide +kernel
/-- and its block is not written back there (only after the last point, where k = 3). -/
theorem noFlush1_4 : ∀ t : Fin cfg1.N, ¬cond1_2 (grid1.coords t) → (cfg1.win 4).flush t = false := by decide +kernel

/-! ## The memrefs the body is called with -/

/-- The output's one staging buffer, through which its contents are stated. -/
abbrev VO1_4 : View sig .tc .vmem S1x1 .f32 := (Memref.whole cc1_stg4_0 : Memref sig .tc .vmem S1x1 .f32).view

/-- Each window's current staging memref at point `t`, as the pipeline passes it, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The accumulator: a whole scoped buffer of the kernel's own, passed beside the windows and carried between points. -/
abbrev scM1_0 : Memref sig .tc .vmem S1024x1024 .f32 := Memref.whole cc1_scratch0
/-- As a view: what it holds is stated through it. -/
abbrev VS1_0 : View sig .tc .vmem S1024x1024 .f32 := scM1_0.view

/-- The core's scoped buffers that are no staging buffer of this call, split at the accumulator: it, whole at some
    contents, and the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers, which the body never names. -/
abbrev restS1 (c : Dev nD) : sProp 𝕄 :=
  Pipeline.scopedRestBut (Ix := Unit) (Name := ℕ) (U := UR sig nD τ) (Lvl := ℕ) (Val := Elt F) spec1 c [cc1_scratch0]

/-- The invariant the launch hands the call, with the accumulator as a memref owned at some contents. -/
theorem PhiA1_eq (c : Dev nD) :
    (Pipeline.ΦA spec1 c : sProp 𝕄)
      = iprop(iprop((∃ d, owns (c : Thread nD τ) scM1_0 fullShare d) ∗ restS1 c) ∗ (∃ r, prngReg c r)) := by
  unfold Pipeline.ΦA; rw [scopedRest1_split]; simp only [scM1_0, owns_whole]; try rfl

end Cert.KernelIdeal.Fr

end
-- ==== Proof.KI.S2RunA.lean ====
/-
  Stage 2, the body at the first point (0, 0, 0): the output is zeroed, the accumulator is zeroed, and the
  first product of the two blocks is added into the accumulator. The pieces the output's buffer and the
  accumulator end with are found by running the body.
-/
import proofs.«102363_j2070174236949_1_alg».proof.Proof.KI.S2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first point, on whole staging memrefs: the inputs at their blocks, the output's buffer and the
    accumulator at anything; it ends with the inputs as they were, the output's buffer and the accumulator with
    their pieces written. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) :
    Σ' (L4 : List (View.Piece (Elt F) S1x1 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.S2RunB.lean ====
/-
  Stage 2, the body at a point with k = 0 past the first: the accumulator is zeroed and the product of the
  two blocks is added into it; nothing is stored into the output, whose buffer is handed back as found.
-/
import proofs.«102363_j2070174236949_1_alg».proof.Proof.KI.S2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where k = 0 past the first point, on whole staging memrefs: the inputs at their blocks, the output's
    buffer at contents handed back untouched, the accumulator at anything (it is stored whole before it is read);
    it ends with the inputs and the output's buffer as they were, the accumulator with its pieces written. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) :
    Σ' (L4 : List (View.Piece (Elt F) S1x1 .f32)), { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare xi4
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨[], ?_, fun xi4 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.S2RunC.lean ====
/-
  Stage 2, the body at a point with k = 1 or 2: the product of the two blocks is added into the accumulator,
  over what the point before left in it; nothing is stored into the output, whose buffer is handed back as
  found.
-/
import proofs.«102363_j2070174236949_1_alg».proof.Proof.KI.S2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where k = 1 or 2, on whole staging memrefs: the inputs at their blocks, the output's buffer at contents
    handed back untouched, the accumulator at what the point before left; it ends with the inputs and the output's
    buffer as they were, the accumulator with its pieces written. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) :
    Σ' (L4 : List (View.Piece (Elt F) S1x1 .f32)), { LS0 : List (View.Piece (Elt F) S1024x1024 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare xi4
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨[], ?_, fun xi4 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.S2RunD.lean ====
/-
  Stage 2, the body at a point with k = 3: the product of the two blocks is added into the accumulator, over
  what the point before left in it, and the finished tile's contribution (computed from the accumulator and
  the two marginals' blocks) is added to the output, over what the output's buffer held.
-/
import proofs.«102363_j2070174236949_1_alg».proof.Proof.KI.S2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where k = 3, on whole staging memrefs: the inputs at their blocks, the accumulator at what the point
    before left, the output's buffer at what it held; it ends with the inputs as they were, the output's buffer and
    the accumulator with their pieces written. -/
noncomputable def kernelRun1_D (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) :
    Σ' (L4 : List (View.Piece (Elt F) S1x1 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f LS0)) -∗ K ⟨⟩))
          ⊢ wp frame (wpE (defs₀ (F := F)) Variants.none c none) E (cc1__stage2_kernel i arg3 harg3 arg4 harg4 arg5 harg5 arg6 harg6 arg7 harg7 arg8 harg8) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.S2Frame.lean ====
/-
  Stage 2 (the joint-histogram call): what the output's buffer and the accumulator hold point by point, the
  proof data of the pipeline, and the body obligation. The accumulator is the kernel's own buffer, carried
  between points: zeroed where k = 0, the product of the point's two blocks added at every point. The output
  (one number) is zeroed at the first point and added to where k = 3, from the finished accumulator and the
  two marginals; at the other points nothing is stored into it, its block does not move and is written back
  only after the last point, so its buffer keeps what the last store left.
-/
import proofs.«102363_j2070174236949_1_alg».proof.Proof.KI.S2RunD

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point the stores into the output's buffer tile it. -/
theorem cover1_A_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1x1.Idx) :
    ∃ pc ∈ (kernelRun1_A c i arg3 harg3 arg4 harg4 arg5 harg5 arg6 harg6 arg7 harg7 arg8 harg8 hc0 hc1 hc2 x0 x1 x2 x3).1, y ∈ pc.1.set :=
  View.cover_of_tiledL (kernelRun1_A c i arg3 harg3 arg4 harg4 arg5 harg5 arg6 harg6 arg7 harg7 arg8 harg8 hc0 hc1 hc2 x0 x1 x2 x3).1 S1x1.size (by sl_kernel_rfl) y

/-- What the first point leaves there: its pieces read back. -/
def out1_A_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1x1 .f32 :=
  VO1_4.read (Elt F) (VO1_4.writes (Elt F) VO1_4.junk (kernelRun1_A c i arg3 harg3 arg4 harg4 arg5 harg5 arg6 harg6 arg7 harg7 arg8 harg8 hc0 hc1 hc2 x0 x1 x2 x3).1)

/-- At the first point the stores into the accumulator tile it. -/
theorem scover1_A_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 hc2 x0 x1 x2 x3).2.1, y ∈ pc.1.set :=
  View.cover_of_tiledL (kernelRun1_A c i arg3 harg3 arg4 harg4 arg5 harg5 arg6 harg6 arg7 harg7 arg8 harg8 hc0 hc1 hc2 x0 x1 x2 x3).2.1 S1024x1024.size (by sl_kernel_rfl) y

/-- What the first point leaves in the accumulator: its pieces read back. -/
def sout1_A_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 hc2 x0 x1 x2 x3).2.1)

/-- At a point with k = 0 past the first the stores into the accumulator tile it. -/
theorem scover1_B_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) (y : S1024x1024.Idx) :
    ∃ pc ∈ (kernelRun1_B c i arg3 harg3 arg4 harg4 arg5 harg5 arg6 harg6 arg7 harg7 arg8 harg8 hc0 hc1 hc2 x0 x1 x2 x3).2.1, y ∈ pc.1.set :=
  View.cover_of_tiledL (kernelRun1_B c i arg3 harg3 arg4 harg4 arg5 harg5 arg6 harg6 arg7 harg7 arg8 harg8 hc0 hc1 hc2 x0 x1 x2 x3).2.1 S1024x1024.size (by sl_kernel_rfl) y

/-- What a point with k = 0 past the first leaves in the accumulator: its pieces read back. -/
def sout1_B_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 hc2 x0 x1 x2 x3).2.1)

/-- At a point with k = 1 or 2 the stores into the accumulator tile it. -/
theorem scover1_C_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) (y : S1024x1024.Idx) :
    ∃ pc ∈ (kernelRun1_C c i arg3 harg3 arg4 harg4 arg5 harg5 arg6 harg6 arg7 harg7 arg8 harg8 hc0 hc1 hc2 x0 x1 x2 x3 xs0).2.1, y ∈ pc.1.set :=
  View.cover_of_tiledL (kernelRun1_C c i arg3 harg3 arg4 harg4 arg5 harg5 arg6 harg6 arg7 harg7 arg8 harg8 hc0 hc1 hc2 x0 x1 x2 x3 xs0).2.1 S1024x1024.size (by sl_kernel_rfl) y

/-- What a point with k = 1 or 2 leaves in the accumulator: its pieces read back. -/
def sout1_C_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 hc2 x0 x1 x2 x3 xs0).2.1)

/-- At a point with k = 3 the stores into the output's buffer tile it. -/
theorem cover1_D_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) (y : S1x1.Idx) :
    ∃ pc ∈ (kernelRun1_D c i arg3 harg3 arg4 harg4 arg5 harg5 arg6 harg6 arg7 harg7 arg8 harg8 hc0 hc1 hc2 x0 x1 x2 x3 xs0 xo4).1, y ∈ pc.1.set :=
  View.cover_of_tiledL (kernelRun1_D c i arg3 harg3 arg4 harg4 arg5 harg5 arg6 harg6 arg7 harg7 arg8 harg8 hc0 hc1 hc2 x0 x1 x2 x3 xs0 xo4).1 S1x1.size (by sl_kernel_rfl) y

/-- What a point with k = 3 leaves there: its pieces read back. -/
def out1_D_4 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) : Vec F S1x1 .f32 :=
  VO1_4.read (Elt F) (VO1_4.writes (Elt F) VO1_4.junk (kernelRun1_D c i arg3 harg3 arg4 harg4 arg5 harg5 arg6 harg6 arg7 harg7 arg8 harg8 hc0 hc1 hc2 x0 x1 x2 x3 xs0 xo4).1)

/-- At a point with k = 3 the stores into the accumulator tile it. -/
theorem scover1_D_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) (y : S1024x1024.Idx) :
    ∃ pc ∈ (kernelRun1_D c i arg3 harg3 arg4 harg4 arg5 harg5 arg6 harg6 arg7 harg7 arg8 harg8 hc0 hc1 hc2 x0 x1 x2 x3 xs0 xo4).2.1, y ∈ pc.1.set :=
  View.cover_of_tiledL (kernelRun1_D c i arg3 harg3 arg4 harg4 arg5 harg5 arg6 harg6 arg7 harg7 arg8 harg8 hc0 hc1 hc2 x0 x1 x2 x3 xs0 xo4).2.1 S1024x1024.size (by sl_kernel_rfl) y

/-- What a point with k = 3 leaves in the accumulator: its pieces read back. -/
def sout1_D_0 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) : Vec F S1024x1024 .f32 :=
  VS1_0.read (Elt F) (VS1_0.writes (Elt F) VS1_0.junk (kernelRun1_D c i arg3 harg3 arg4 harg4 arg5 harg5 arg6 harg6 arg7 harg7 arg8 harg8 hc0 hc1 hc2 x0 x1 x2 x3 xs0 xo4).2.1)

/-! ## What the output's buffer and the accumulator hold after each point -/

theorem c1_of_c0 {n : ℕ} (h : n % 64 = 0) : n % 4 = 0 := by omega
theorem nc2_of_c1 {n : ℕ} (h : n % 4 = 0) : ¬n % 4 = 3 := by omega
theorem nc0_of_nc1 {n : ℕ} (h : ¬n % 4 = 0) : ¬n % 64 = 0 := by omega
theorem nc1_of_c2 {n : ℕ} (h : n % 4 = 3) : ¬n % 4 = 0 := by omega

/-- What the output's staging buffer and the accumulator hold after the body at point `n`. The output: zero after
    the first point; where k = 3, the tile's contribution added to what it held; elsewhere what the point before
    left (nothing is stored into it there). The accumulator: where k = 0 the blocks' product over zero; elsewhere
    the product added to what the point before left. -/
def outsAt1 (c : Dev nD) : (n : ℕ) → n < cfg1.N → Vec F S1x1 .f32 × Vec F S1024x1024 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod 64)) ((hcond1_1 ⟨0, hn⟩).mpr (c1_of_c0 (Nat.zero_mod 64))) (fun h => nc2_of_c1 (c1_of_c0 (Nat.zero_mod 64)) ((hcond1_2 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod 64)) ((hcond1_1 ⟨0, hn⟩).mpr (c1_of_c0 (Nat.zero_mod 64))) (fun h => nc2_of_c1 (c1_of_c0 (Nat.zero_mod 64)) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 64 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) ((hcond1_1 ⟨n + 1, hn⟩).mpr (c1_of_c0 h0)) (fun h => nc2_of_c1 (c1_of_c0 h0) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) ((hcond1_1 ⟨n + 1, hn⟩).mpr (c1_of_c0 h0)) (fun h => nc2_of_c1 (c1_of_c0 h0) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h1 : (n + 1) % 4 = 0 then
      ((outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (fun h => nc2_of_c1 h1 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h2 : (n + 1) % 4 = 3 then
      (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 (nc1_of_c2 h2) ((hcond1_0 ⟨n + 1, hn⟩).mp h)) (fun h => nc1_of_c2 h2 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2 (outsAt1 c n (Nat.lt_of_succ_lt hn)).1, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 (nc1_of_c2 h2) ((hcond1_0 ⟨n + 1, hn⟩).mp h)) (fun h => nc1_of_c2 h2 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2 (outsAt1 c n (Nat.lt_of_succ_lt hn)).1)
    else
      ((outsAt1 c n (Nat.lt_of_succ_lt hn)).1, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => nc0_of_nc1 h1 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At the first point. -/
theorem outsAt1_A (c : Dev nD) (t : Fin cfg1.N) (h0 : t.val % 64 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- Where k = 0 past the first point: the output as the point before left it. -/
theorem outsAt1_B (c : Dev nD) (t : Fin cfg1.N) (h0 : ¬t.val % 64 = 0) (h1 : t.val % 4 = 0) :
    outsAt1 V c t.val t.isLt = ((outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (fun h => nc2_of_c1 h1 ((hcond1_2 t).mp h)) (iblk1 V c 0 t) (iblk1 V c 1 t) (iblk1 V c 2 t) (iblk1 V c 3 t)) := by
  obtain ⟨n, hn⟩ := t
  cases n with
  | zero => exact absurd (Nat.zero_mod _) h0
  | succ n => exact (dif_neg h0).trans ((dif_pos h1).trans rfl)

/-- Where k = 1 or 2: the output as the point before left it, the accumulator over what that point left. -/
theorem outsAt1_C (c : Dev nD) (t : Fin cfg1.N) (h1 : ¬t.val % 4 = 0) (h2 : ¬t.val % 4 = 3) :
    outsAt1 V c t.val t.isLt = ((outsAt1 V c (t.val - 1) (Nat.lt_of_le_of_lt (Nat.sub_le _ _) t.isLt)).1, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 h1 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h1
  | succ n => exact (dif_neg (nc0_of_nc1 h1)).trans ((dif_neg h1).trans ((dif_neg h2).trans rfl))

/-- Where k = 3: both over what the point before left. -/
theorem outsAt1_D (c : Dev nD) (t : Fin cfg1.N) (h2 : t.val % 4 = 3) :
    outsAt1 V c t.val t.isLt = (out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2 (outsAt1 V c (t.val - 1) (Nat.lt_of_le_of_lt (Nat.sub_le _ _) t.isLt)).1, sout1_D_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2 (outsAt1 V c (t.val - 1) (Nat.lt_of_le_of_lt (Nat.sub_le _ _) t.isLt)).1) := by
  obtain ⟨n, hn⟩ := t
  cases n with
  | zero => exact absurd (show (0 : ℕ) % 4 = 3 from h2) (by decide)
  | succ n => exact (dif_neg (nc0_of_nc1 (nc1_of_c2 h2))).trans ((dif_neg (nc1_of_c2 h2)).trans ((dif_pos h2).trans rfl))

/-! ## The invariant: the accumulator between points -/

/-- The call's invariant before point `n`: before the first point what the launch hands over (the accumulator at
    anything); afterwards the accumulator at what the point before left in it, the other scoped buffers unopened, and
    the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 c) ∗ (∃ r, prngReg c r)) := by
  cases n with
  | zero => exact absurd rfl hz
  | succ n => rfl

/-! ## The pipeline's proof data -/

/-- The arrays as the call finds them; after the body at point `t` the inputs' buffers at their blocks and the
    output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The output's buffer holds nothing the body stored exactly before the first point (and after the last, where it
    is written back): the schedule's table, stepped once per point. -/
theorem fresh1_4 : ∀ n, n ≤ cfg1.N → cfg1.fresh 4 n = decide (n % 64 = 0) :=
  Pipeline.Cfg.fresh_tab cfg1 4 (fun n => decide (n % 64 = 0)) rfl
    (by decide +kernel : ∀ t : Fin grid1.N, decide ((t.val + 1) % 64 = 0) = ((cfg1.win 4).flush t || (cfg1.idle 4 (grid1.coords t) && decide (t.val % 64 = 0))))

/-- At a point where nothing is stored into the output, `outsAt1` carries what the point before left. -/
theorem carry1_4 (c : Dev nD) (t : Fin cfg1.N) (hi : cfg1.idle 4 (cfg1.grid.coords t) = true) :
    (outsAt1 V c t.val t.isLt).1 = (outsAt1 V c (t.val - 1) (Nat.lt_of_le_of_lt (Nat.sub_le _ _) t.isLt)).1 := by
  have hc0 : ¬cond1_0 (grid1.coords t) := fun h => Bool.false_ne_true ((liveAt1_4_A t h).symm.trans hi)
  have hc2 : ¬cond1_2 (grid1.coords t) := fun h => Bool.false_ne_true ((liveAt1_4_D t h).symm.trans hi)
  have h0 : ¬t.val % 64 = 0 := fun h => hc0 ((hcond1_0 t).mpr h)
  have h2 : ¬t.val % 4 = 3 := fun h => hc2 ((hcond1_2 t).mpr h)
  by_cases h1 : t.val % 4 = 0
  · rw [outsAt1_B V c t h0 h1]
  · rw [outsAt1_C V c t h1 h2]

/-- Past the first point the output's buffer holds what the point before left: its block does not move, it is not
    written back in between, and where nothing is stored into it the trajectory carries it. -/
theorem before1_4_pos (c : Dev nD) (t : Fin cfg1.N) (h0 : ¬t.val % 64 = 0) (d) :
    (dat1 V c).before 4 t d = (outsAt1 V c (t.val - 1) (Nat.lt_of_le_of_lt (Nat.sub_le _ _) t.isLt)).1 := by
  rw [Dat.before_out_traj (dat1 V c) 4 rfl (fun _ _ => rfl)
      (fun t _ hi _ => by rw [after1_4, after1_4]; exact carry1_4 V c t hi) t.val t rfl d,
    fresh1_4 t.val (Nat.le_of_lt t.isLt), if_neg (by rw [decide_eq_true_iff]; exact h0), after1_4]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which of the four cases the
    point is in; past the first point the invariant hands the body the accumulator at what the point before left,
    and where k = 3 the output's buffer holds what the point before left; so that case's run applies, and the
    accumulator goes back into the invariant at this point's contents. Where nothing is stored into the output its
    buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  have hN : t.val < 64 := lt_of_lt_of_eq t.isLt (show cfg1.N = 64 from N_1)
  by_cases h0 : t.val % 64 = 0
  · have hz : t.val = 0 := by omega
    rw [show (dat1 V c).leavesExact 4 t = owns (c : Thread nD τ) (ms1_4 t) fullShare ((dat1 V c).after 4 t) from by
          unfold Dat.leavesExact; rw [liveAt1_4_A t ((hcond1_0 t).mpr h0)], after1_4]
    rw [outsAt1_A V c t h0]
    unfold out1_A_4 sout1_A_0; (try dsimp only)
    rw [PhiS1_castSucc V c t, PhiS1_zero V c _ _ hz, PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) ((hcond1_1 t).mpr (c1_of_c0 h0)) (fun h => nc2_of_c1 (c1_of_c0 h0) ((hcond1_2 t).mp h)) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _ _ _)
  · have hz : t.val ≠ 0 := fun h => h0 (by rw [h])
    by_cases h1 : t.val % 4 = 0
    · have h2 : ¬t.val % 4 = 3 := nc2_of_c1 h1
      rw [Dat.leavesExact_idle (dat1 V c) 4 t (idleAt1_4 t (fun h => h0 ((hcond1_0 t).mp h)) (fun h => h2 ((hcond1_2 t).mp h))) (noFlush1_4 t (fun h => h2 ((hcond1_2 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) ((hcond1_1 t).mpr h1) (fun h => nc2_of_c1 h1 ((hcond1_2 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · by_cases h2 : t.val % 4 = 3
      · rw [show (dat1 V c).leavesExact 4 t = owns (c : Thread nD τ) (ms1_4 t) fullShare ((dat1 V c).after 4 t) from by
              unfold Dat.leavesExact; rw [liveAt1_4_D t ((hcond1_2 t).mpr h2)], after1_4]
        rw [outsAt1_D V c t h2]
        unfold out1_D_4 sout1_D_0; (try dsimp only)
        rw [PhiS1_castSucc V c t, PhiS1_pos V c _ _ hz]
        simp only [before1_4_pos V c t h0]
        iintro ⟨⟨⟨HS0, HR⟩, Hg⟩, Ho, ⟨%d0, H0⟩, ⟨%d1, H1⟩, ⟨%d2, H2⟩, ⟨%d3, H3⟩, ⟨%d4, H4⟩⟩
        iapply ((kernelRun1_D c (grid1.coords t) _ _ _ _ _ _ _ _ _ _ _ _ (fun h => nc0_of_nc1 (nc1_of_c2 h2) ((hcond1_0 t).mp h)) (fun h => nc1_of_c2 h2 ((hcond1_1 t).mp h)) ((hcond1_2 t).mpr h2) (iblk1 V c 0 t) (iblk1 V c 1 t) (iblk1 V c 2 t) (iblk1 V c 3 t) _ _).2.2 Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_D_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_D_4 c _ _ _ _ _ _ _ _ _ _ _ _ _ _ _ _ _ _ _ _ _ _)
      · rw [Dat.leavesExact_idle (dat1 V c) 4 t (idleAt1_4 t (fun h => h0 ((hcond1_0 t).mp h)) (fun h => h2 ((hcond1_2 t).mp h))) (noFlush1_4 t (fun h => h2 ((hcond1_2 t).mp h)))]
        rw [outsAt1_C V c t h1 h2]
        unfold sout1_C_0; (try dsimp only)
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => nc0_of_nc1 h1 ((hcond1_0 t).mp h)) (fun h => h1 ((hcond1_1 t).mp h)) (fun h => h2 ((hcond1_2 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.Spec.lean ====
/-
  The specification: the two results as functions of the two input matrices, over the extended reals.
  With p = softmax of x along each row and q = softmax of y along each row (8192 rows, 4096 columns):
    entropy  = (Σ_n  -(Σ_c p n c · log (p n c + ε))) / 8192
    marg p c = (Σ_n p n c) / 8192,      joint c d = (Σ_n p n c · q n d) / 8192
    mi       = Σ_c Σ_d joint c d · (log (joint c d + ε) - (log (marg p c + ε) + log (marg q d + ε)))
  Beside these, the same quantities in the form the tiled computation leaves them in (the entropy's terms
  negated one by one, the joint scaled by 2⁻¹³ instead of divided by 8192, the two logarithms of the
  marginals subtracted one after the other), so that each side is read against a form it meets literally.
-/
import Idealize.ShloMosaic.PureOps.Ideal
import Idealize.ShloMosaic.PureOps.Ideal.Laws
import Idealize.ShloMosaic.Lib.ValueIdx

noncomputable section

namespace Cert.Spec

open Idealize.ShloMosaic

/-- The additive constant inside every logarithm: the f32 nearest to 1e-12, the same word on both sides. -/
abbrev eps : EReal := Ideal.ofBits .f32 0x2B8CBCCC#32
/-- The row count as a float: 8192. -/
abbrev rows : EReal := Ideal.ofBits .f32 0x46000000#32
/-- Its reciprocal as the tiled computation spells it: the f32 word of 2⁻¹³. -/
abbrev invRows : EReal := Ideal.ofBits .f32 0x39000000#32

/-- A matrix of 8192 rows and 4096 columns. -/
abbrev Mat : Type := Fin 8192 → Fin 4096 → EReal

/-- An array of 8192 rows and 4096 columns read as a matrix. -/
def mat (x : (⟨2, ![8192, 4096]⟩ : Shape).Idx → EReal) : Mat := fun n c => x (ValueIdx.ix2 n c)

/-- The greatest entry of row `n`. -/
def rmax (x : Mat) (n : Fin 8192) : EReal := Finset.univ.sup fun k : Fin 4096 => x n k

/-- The unnormalised softmax entry: exp (x - row maximum). -/
def ex (x : Mat) (n : Fin 8192) (c : Fin 4096) : EReal := Ideal.exp (x n c - rmax x n)

/-- The softmax along each row. -/
def sm (x : Mat) (n : Fin 8192) (c : Fin 4096) : EReal := Ideal.div (ex x n c) (∑ k : Fin 4096, ex x n k)

/-- The sum of the per-row entropies, in the form with the sign outside each row's sum. -/
def entSum (x : Mat) : EReal := ∑ n : Fin 8192, -(∑ c : Fin 4096, sm x n c * Ideal.log (sm x n c + eps))
/-- The mean per-row entropy. -/
def ent (x : Mat) : EReal := Ideal.div (entSum x) rows

/-- The same sum with every term negated on its own: (0 - p) · log (p + ε). -/
def entSumK (x : Mat) : EReal := ∑ n : Fin 8192, ∑ c : Fin 4096, (0 - sm x n c) * Ideal.log (sm x n c + eps)

/-- The column sums of the softmax, and the marginal: their mean over the rows. -/
def colSum (x : Mat) (c : Fin 4096) : EReal := ∑ n : Fin 8192, sm x n c
def marg (x : Mat) (c : Fin 4096) : EReal := Ideal.div (colSum x c) rows
/-- The logarithm of a marginal. -/
def lmarg (x : Mat) (c : Fin 4096) : EReal := Ideal.log (marg x c + eps)

/-- The joint distribution of the two softmaxes: the mean over the rows of the products. -/
def joint (p q : Mat) (c d : Fin 4096) : EReal := Ideal.div (∑ n : Fin 8192, p n c * q n d) rows
/-- The same with the mean taken by the factor 2⁻¹³. -/
def jointK (p q : Mat) (c d : Fin 4096) : EReal := (∑ n : Fin 8192, p n c * q n d) * invRows

/-- The plug-in mutual information from a joint `J` and the two logarithms of marginals. -/
def miOf (J : Fin 4096 → Fin 4096 → EReal) (lx ly : Fin 4096 → EReal) : EReal :=
  ∑ c : Fin 4096, ∑ d : Fin 4096, J c d * (Ideal.log (J c d + eps) - (lx c + ly d))
/-- The same with the two logarithms subtracted one after the other. -/
def miOfK (J : Fin 4096 → Fin 4096 → EReal) (lx ly : Fin 4096 → EReal) : EReal :=
  ∑ c : Fin 4096, ∑ d : Fin 4096, J c d * ((Ideal.log (J c d + eps) - lx c) - ly d)

/-- The mutual information of the two inputs. -/
def mi (x y : Mat) : EReal := miOf (joint (sm x) (sm y)) (lmarg x) (lmarg y)

end Cert.Spec

end
-- ==== Proof.Ref.RefValue.lean ====
/-
  The reference's two results as the specification's functions of the two inputs, at the ideal values.
  Each stage of the reference is read at explicit coordinates: the row maximum is the supremum of the row, the
  exponentials divided by their row sum are the row softmax, and from the two softmaxes the mean row entropy, the joint
  distribution, the two marginals and the plug-in mutual information are read one stage after the other.
-/
import proofs.«102363_j2070174236949_1_alg».proof.Proof.Spec
import proofs.«102363_j2070174236949_1_alg».proof.Proof.Ref.Read
import Idealize.ShloMosaic.PureOps.Reduce
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## Three general facts -/

/-- The word of -∞ is the least extended real. -/
theorem ofBits_neg_inf : Ideal.ofBits .f32 0xFF800000#32 = (⊥ : EReal) := by
  simp [Ideal.ofBits, Ideal.ieee]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The host's maximum over the columns, from -∞, at row `n`: the supremum of the row. -/
theorem rowMax_eq_sup (x : (⟨2, ![8192, 4096]⟩ : Shape).Idx → EReal)
    (h' : (⟨2, ![8192, 4096]⟩ : Shape).ReducesTo [1] (⟨1, ![8192]⟩ : Shape)) (hu : 0 < (⟨0, ![]⟩ : Shape).numel) (n : Fin 8192) :
    Host.reduce (FloatOps.maximumf (F := Ideal) (φ := .f32)) x (constant (⟨0, ![]⟩ : Shape) .f32 0xFF800000#32) h' hu (ix1 n)
      = Finset.univ.sup fun k : Fin 4096 => x (ix2 n k) := by
  have h : (⟨2, ![8192, 4096]⟩ : Shape).Reduces [1] (⟨1, ![8192]⟩ : Shape) := by decide
  rw [Host.reduce_eq_fold_single (FloatOps.maximumf (F := Ideal) (φ := .f32)) x _ h' h hu]
  have hf : (x ∘ h.lift (ix1 n)) = fun k : Fin 4096 => x (ix2 n k) :=
    funext fun k => congrArg x (by funext c; apply Fin.ext; fin_cases c <;> rfl)
  refine (congrArg (fun f => Finset.fold max (Ideal.ofBits .f32 0xFF800000#32) f (Finset.univ : Finset (Fin 4096))) hf).trans ?_
  rw [ofBits_neg_inf]
  rfl

variable (x0 x1 : (⟨S8192x4096, .f32⟩ : BufTy).Contents (Elt Ideal))

/-! ## The index maps of the layout operations, at explicit coordinates -/

theorem idx_row_v4 (n : Fin 8192) (c : Fin 4096) : idx_main_v3 (idx_main_v4 (ix2 n c)) = ix1 n := by
  funext a; match a with | ⟨0, _⟩ => rfl
theorem idx_row_v9 (n : Fin 8192) (c : Fin 4096) : idx_main_v8 (idx_main_v9 (ix2 n c)) = ix1 n := by
  funext a; match a with | ⟨0, _⟩ => rfl
theorem idx_row_v15 (n : Fin 8192) (c : Fin 4096) : idx_main_v14 (idx_main_v15 (ix2 n c)) = ix1 n := by
  funext a; match a with | ⟨0, _⟩ => rfl
theorem idx_row_v20 (n : Fin 8192) (c : Fin 4096) : idx_main_v19 (idx_main_v20 (ix2 n c)) = ix1 n := by
  funext a; match a with | ⟨0, _⟩ => rfl
theorem idx_col_v7 (n : Fin 8192) (k : Fin 4096) : idx_main_v7 (ix1 n) k = ix2 n k := by
  funext a; match a with | ⟨0, _⟩ => rfl | ⟨1, _⟩ => rfl
theorem idx_col_v18 (n : Fin 8192) (k : Fin 4096) : idx_main_v18 (ix1 n) k = ix2 n k := by
  funext a; match a with | ⟨0, _⟩ => rfl | ⟨1, _⟩ => rfl
theorem idx_col_v26 (n : Fin 8192) (k : Fin 4096) : idx_main_v26 (ix1 n) k = ix2 n k := by
  funext a; match a with | ⟨0, _⟩ => rfl | ⟨1, _⟩ => rfl
theorem lidx_v30 (c d : Fin 4096) (k : Fin 8192) : lidx_main_v30 (ix2 c d) k = ix2 k c := by
  funext a; match a with | ⟨0, _⟩ => rfl | ⟨1, _⟩ => rfl
theorem ridx_v30 (c d : Fin 4096) (k : Fin 8192) : ridx_main_v30 (ix2 c d) k = ix2 k d := by
  funext a; match a with | ⟨0, _⟩ => rfl | ⟨1, _⟩ => rfl
theorem idx_v33 (c : Fin 4096) (k : Fin 8192) : idx_main_v33 (ix1 c) k = ix2 k c := by
  funext a; match a with | ⟨0, _⟩ => rfl | ⟨1, _⟩ => rfl
theorem idx_v36 (c : Fin 4096) (k : Fin 8192) : idx_main_v36 (ix1 c) k = ix2 k c := by
  funext a; match a with | ⟨0, _⟩ => rfl | ⟨1, _⟩ => rfl
theorem idx_v50 (c d : Fin 4096) : idx_main_v45 (idx_main_v50 (ix2 c d)) = ix1 c := by
  funext a; match a with | ⟨0, _⟩ => rfl
theorem idx_v51 (c d : Fin 4096) : idx_main_v49 (idx_main_v51 (ix2 c d)) = ix1 d := by
  funext a; match a with | ⟨0, _⟩ => rfl

/-! ## The row softmax of the first input -/

/-- The reference's row maximum (joined once more with -∞) is the supremum of the row. -/
theorem v2_eq (n : Fin 8192) : val_main_v2 (F := Ideal) x0 (ix1 n) = Spec.rmax (Spec.mat x0) n := by
  rw [val_main_v2_apply, val_main_v1_apply, val_main_cst_0_apply]
  unfold val_main_v0 val_main_cst
  rw [rowMax_eq_sup, Ideal.maximumf_def, Ideal.ofBits_def, ofBits_neg_inf]
  exact max_eq_right bot_le

theorem v6_eq (n : Fin 8192) (c : Fin 4096) : val_main_v6 (F := Ideal) x0 (ix2 n c) = Spec.ex (Spec.mat x0) n c := by
  rw [val_main_v6_apply, val_main_v5_apply, val_main_v4_apply, val_main_v3_apply, idx_row_v4, v2_eq]
  rfl

theorem v7_eq (n : Fin 8192) : val_main_v7 (F := Ideal) x0 (ix1 n) = ∑ k : Fin 4096, Spec.ex (Spec.mat x0) n k := by
  rw [val_main_v7_apply, val_main_cst_1_apply, Ideal.ofBits_def, Ideal.ofBits_zero_f32, zero_add]
  exact Finset.sum_congr rfl fun k _ => by rw [idx_col_v7, v6_eq]

theorem v10_eq (n : Fin 8192) (c : Fin 4096) : val_main_v10 (F := Ideal) x0 (ix2 n c) = Spec.sm (Spec.mat x0) n c := by
  rw [val_main_v10_apply, val_main_v9_apply, val_main_v8_apply, idx_row_v9, v7_eq, v6_eq]
  rfl

/-! ## The row softmax of the second input: the same operations under other names -/

theorem v13_eq (n : Fin 8192) : val_main_v13 (F := Ideal) x1 (ix1 n) = Spec.rmax (Spec.mat x1) n := by
  rw [val_main_v13_apply, val_main_v12_apply, val_main_cst_3_apply]
  unfold val_main_v11 val_main_cst_2
  rw [rowMax_eq_sup, Ideal.maximumf_def, Ideal.ofBits_def, ofBits_neg_inf]
  exact max_eq_right bot_le

theorem v17_eq (n : Fin 8192) (c : Fin 4096) : val_main_v17 (F := Ideal) x1 (ix2 n c) = Spec.ex (Spec.mat x1) n c := by
  rw [val_main_v17_apply, val_main_v16_apply, val_main_v15_apply, val_main_v14_apply, idx_row_v15, v13_eq]
  rfl

theorem v18_eq (n : Fin 8192) : val_main_v18 (F := Ideal) x1 (ix1 n) = ∑ k : Fin 4096, Spec.ex (Spec.mat x1) n k := by
  rw [val_main_v18_apply, val_main_cst_4_apply, Ideal.ofBits_def, Ideal.ofBits_zero_f32, zero_add]
  exact Finset.sum_congr rfl fun k _ => by rw [idx_col_v18, v17_eq]

theorem v21_eq (n : Fin 8192) (c : Fin 4096) : val_main_v21 (F := Ideal) x1 (ix2 n c) = Spec.sm (Spec.mat x1) n c := by
  rw [val_main_v21_apply, val_main_v20_apply, val_main_v19_apply, idx_row_v20, v18_eq, v17_eq]
  rfl

/-! ## The mean row entropy -/

theorem v25_eq (n : Fin 8192) (c : Fin 4096) :
    val_main_v25 (F := Ideal) x0 (ix2 n c) = Spec.sm (Spec.mat x0) n c * Ideal.log (Spec.sm (Spec.mat x0) n c + Spec.eps) := by
  rw [val_main_v25_apply, val_main_v24_apply, val_main_v23_apply, val_main_v22_apply, val_main_cst_5_apply, v10_eq]
  rfl

theorem v27_eq (n : Fin 8192) :
    val_main_v27 (F := Ideal) x0 (ix1 n) = -(∑ c : Fin 4096, Spec.sm (Spec.mat x0) n c * Ideal.log (Spec.sm (Spec.mat x0) n c + Spec.eps)) := by
  rw [val_main_v27_apply, val_main_v26_apply, val_main_cst_6_apply, Ideal.ofBits_def, Ideal.ofBits_zero_f32, zero_add]
  exact congrArg Neg.neg (Finset.sum_congr rfl fun k _ => by rw [idx_col_v26, v25_eq])

/-- The reference's first result is the specification's mean row entropy. -/
theorem ref_ent (i : S_.Idx) : val_main_v29 (F := Ideal) x0 i = Spec.ent (Spec.mat x0) := by
  rw [val_main_v29_apply, val_main_v28_apply, val_main_cst_7_apply, val_main_cst_8_apply, Ideal.ofBits_def, Ideal.ofBits_def,
    Ideal.ofBits_zero_f32, zero_add, sum_idx1 (n := 8192)]
  exact congrArg (Ideal.div · Spec.rows) (Finset.sum_congr rfl fun n _ => v27_eq x0 n)

/-! ## The joint distribution and the marginals -/

theorem v32_eq (c d : Fin 4096) :
    val_main_v32 (F := Ideal) x0 x1 (ix2 c d) = Spec.joint (Spec.sm (Spec.mat x0)) (Spec.sm (Spec.mat x1)) c d := by
  rw [val_main_v32_apply, val_main_v31_apply, val_main_cst_9_apply, val_main_v30_apply, Ideal.ofBits_def]
  exact congrArg (Ideal.div · Spec.rows) (Finset.sum_congr rfl fun k _ => by rw [lidx_v30, ridx_v30, v10_eq, v21_eq])

theorem v35_eq (c : Fin 4096) : val_main_v35 (F := Ideal) x0 (ix1 c) = Spec.marg (Spec.mat x0) c := by
  rw [val_main_v35_apply, val_main_v34_apply, val_main_cst_11_apply, val_main_v33_apply, val_main_cst_10_apply, Ideal.ofBits_def,
    Ideal.ofBits_def, Ideal.ofBits_zero_f32, zero_add]
  exact congrArg (Ideal.div · Spec.rows) (Finset.sum_congr rfl fun k _ => by rw [idx_v33, v10_eq])

theorem v38_eq (c : Fin 4096) : val_main_v38 (F := Ideal) x1 (ix1 c) = Spec.marg (Spec.mat x1) c := by
  rw [val_main_v38_apply, val_main_v37_apply, val_main_cst_13_apply, val_main_v36_apply, val_main_cst_12_apply, Ideal.ofBits_def,
    Ideal.ofBits_def, Ideal.ofBits_zero_f32, zero_add]
  exact congrArg (Ideal.div · Spec.rows) (Finset.sum_congr rfl fun k _ => by rw [idx_v36, v21_eq])

theorem v44_eq (c : Fin 4096) : val_main_v44 (F := Ideal) x0 (ix1 c) = Spec.lmarg (Spec.mat x0) c := by
  rw [val_main_v44_apply, val_main_v43_apply, val_main_v42_apply, val_main_cst_15_apply, v35_eq]
  rfl

theorem v48_eq (c : Fin 4096) : val_main_v48 (F := Ideal) x1 (ix1 c) = Spec.lmarg (Spec.mat x1) c := by
  rw [val_main_v48_apply, val_main_v47_apply, val_main_v46_apply, val_main_cst_16_apply, v38_eq]
  rfl

/-! ## The mutual information -/

theorem v54_eq (c d : Fin 4096) :
    val_main_v54 (F := Ideal) x0 x1 (ix2 c d)
      = Spec.joint (Spec.sm (Spec.mat x0)) (Spec.sm (Spec.mat x1)) c d
          * (Ideal.log (Spec.joint (Spec.sm (Spec.mat x0)) (Spec.sm (Spec.mat x1)) c d + Spec.eps)
              - (Spec.lmarg (Spec.mat x0) c + Spec.lmarg (Spec.mat x1) d)) := by
  rw [val_main_v54_apply, val_main_v53_apply, val_main_v52_apply, val_main_v51_apply, val_main_v50_apply, val_main_v49_apply,
    val_main_v45_apply, val_main_v41_apply, val_main_v40_apply, val_main_v39_apply, val_main_cst_14_apply, v32_eq, idx_v50, idx_v51,
    v44_eq, v48_eq]
  rfl

/-- The reference's second result is the specification's mutual information. -/
theorem ref_mi (i : S_.Idx) : val_main_v55 (F := Ideal) x0 x1 i = Spec.mi (Spec.mat x0) (Spec.mat x1) := by
  rw [val_main_v55_apply, val_main_cst_17_apply, Ideal.ofBits_def, Ideal.ofBits_zero_f32, zero_add, sum_idx2]
  exact Finset.sum_congr rfl fun c _ => Finset.sum_congr rfl fun d _ => v54_eq x0 x1 c d

/-- The reference's output: the two results, each as a one-entry vector, joined. -/
theorem ref_out : val_main_v58 (F := Ideal) x0 x1
    = concatenate S2 0 [⟨S1, broadcastInDim S1 ![] bcast_S_S1 (val_main_v29 (F := Ideal) x0)⟩,
        ⟨S1, broadcastInDim S1 ![] bcast_S_S1 (val_main_v55 (F := Ideal) x0 x1)⟩] concatenates_S1_S1_S2_d0 := rfl

end Cert.ReferenceIdeal.RefValue

end
-- ==== Proof.Val.Host.lean ====
/-
  The kernel program's two host stretches read as functions of the buffers they find.
  The first divides the entropy sum by the row count and turns each column sum into the logarithm of
  its mean plus ε (as a column and as a row); the second sets the two scalar results side by side.
-/
import proofs.«102363_j2070174236949_1_alg».proof.Proof.Gen.KernelIdeal.Regions
import proofs.«102363_j2070174236949_1_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-! ### The reshapes read at an index -/

/-- A [1, 1] array cast to a scalar reads the operand's one entry. -/
theorem cast_11_scalar {α : Type} (x : S1x1.Idx → α) (h : S1x1.ShapeCasts S_) (j : S_.Idx) :
    shapeCast S_ x h j = x (ix2 (0 : Fin 1) (0 : Fin 1)) :=
  shapeCast_apply x h j _ (by
    have h1 : (S_.rowMajor j).val < 1 := (S_.rowMajor j).isLt
    rw [Shape.rowMajor_val_two]
    show 0 * 1 + 0 = _
    omega)

/-- A [4096] array cast to [4096, 1] reads, at (i, u), the operand at i. -/
theorem cast_a_a1 {α : Type} (x : S4096.Idx → α) (h : S4096.ShapeCasts S4096x1) (i : S4096x1.Idx) :
    shapeCast S4096x1 x h i = x (ix1 (i 0)) :=
  shapeCast_apply x h i _ (by
    have h1 : (i 1).val < 1 := (i 1).isLt
    rw [Shape.rowMajor_val_two, Shape.rowMajor_val_one]
    show (i 0).val = (i 0).val * 1 + (i 1).val
    omega)

/-- A [4096] array cast to [1, 4096] reads, at (u, i), the operand at i. -/
theorem cast_a_1a {α : Type} (x : S4096.Idx → α) (h : S4096.ShapeCasts S1x4096) (i : S1x4096.Idx) :
    shapeCast S1x4096 x h i = x (ix1 (i 1)) :=
  shapeCast_apply x h i _ (by
    have h1 : (i 0).val < 1 := (i 0).isLt
    rw [Shape.rowMajor_val_two, Shape.rowMajor_val_one]
    show (i 1).val = (i 0).val * 4096 + (i 1).val
    omega)

/-- A [1, 4096] array cast to [4096] reads, at i, the operand at (0, i). -/
theorem cast_1a_a {α : Type} (x : S1x4096.Idx → α) (h : S1x4096.ShapeCasts S4096) (j : S4096.Idx) :
    shapeCast S4096 x h j = x (ix2 (0 : Fin 1) (j 0)) :=
  shapeCast_apply x h j _ (by
    rw [Shape.rowMajor_val_two, Shape.rowMajor_val_one]
    show 0 * 4096 + (j 0).val = (j 0).val
    omega)

/-! ### The first host stretch -/

/-- The logarithm of the mean plus ε, entry by entry: the stretch's three elementwise operations on a column sum. -/
def meanLog (x : FVec Ideal S4096 .f32) : FVec Ideal S4096 .f32 :=
  Host.log (addf (Host.divf x (broadcastInDim S4096 ![] bcast_S_S4096 (constant (F := Ideal) S_ .f32 0x46000000#32)))
    (broadcastInDim S4096 ![] bcast_S_S4096 (constant (F := Ideal) S_ .f32 0x2B8CBCCC#32)))

theorem meanLog_apply (x : FVec Ideal S4096 .f32) (j : S4096.Idx) :
    meanLog x j = Ideal.log (Ideal.div (x j) Cert.Spec.rows + Cert.Spec.eps) := rfl

theorem host1_v2 (W : Valuation τ sig (Elt Ideal)) :
    StableHlo.after (hostOps1 (F := Ideal)) W (Proc.devRef .tc main_v2)
      = fun _ => Ideal.div (W (Proc.devRef .tc main_v0_2) (ix2 0 0)) Cert.Spec.rows := by
  after_results
  funext j
  show Ideal.div (shapeCast S_ (W (Proc.devRef .tc main_v0_2)) shapeCasts_S1x1_S_ j) Cert.Spec.rows = _
  rw [cast_11_scalar]

theorem host1_v12 (W : Valuation τ sig (Elt Ideal)) (i : S4096x1.Idx) :
    StableHlo.after (hostOps1 (F := Ideal)) W (Proc.devRef .tc main_v12) i
      = Ideal.log (Ideal.div (W (Proc.devRef .tc main_v0_3) (ix2 0 (i 0))) Cert.Spec.rows + Cert.Spec.eps) := by
  after_results
  show shapeCast S4096x1 (meanLog (shapeCast S4096 (W (Proc.devRef .tc main_v0_3)) shapeCasts_S1x4096_S4096))
    shapeCasts_S4096_S4096x1 i = _
  rw [cast_a_a1, meanLog_apply, cast_1a_a]

theorem host1_v16 (W : Valuation τ sig (Elt Ideal)) (i : S1x4096.Idx) :
    StableHlo.after (hostOps1 (F := Ideal)) W (Proc.devRef .tc main_v16) i
      = Ideal.log (Ideal.div (W (Proc.devRef .tc main_v0_4) (ix2 0 (i 1))) Cert.Spec.rows + Cert.Spec.eps) := by
  after_results
  show shapeCast S1x4096 (meanLog (shapeCast S4096 (W (Proc.devRef .tc main_v0_4)) shapeCasts_S1x4096_S4096))
    shapeCasts_S4096_S1x4096 i = _
  rw [cast_a_1a, meanLog_apply, cast_1a_a]

theorem host1_keep (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h

/-! ### The second host stretch -/

/-- The two scalar results set side by side in a vector of two. -/
def tail2 (a b : (⟨S_, .f32⟩ : BufTy).Contents (Elt Ideal)) : (⟨S2, .f32⟩ : BufTy).Contents (Elt Ideal) :=
  concatenate S2 0 [⟨S1, broadcastInDim S1 ![] bcast_S_S1 a⟩, ⟨S1, broadcastInDim S1 ![] bcast_S_S1 b⟩]
    concatenates_S1_S1_S2_d0

theorem host2_v21 (W : Valuation τ sig (Elt Ideal)) :
    StableHlo.after (hostOps2 (F := Ideal)) W (Proc.devRef .tc main_v21)
      = tail2 (W (Proc.devRef .tc main_v2)) (fun _ => W (Proc.devRef .tc main_v17) (ix2 0 0)) := by
  after_results
  have e : (fun j => shapeCast S_ (W (Proc.devRef .tc main_v17)) shapeCasts_S1x1_S_ j)
      = fun _ => W (Proc.devRef .tc main_v17) (ix2 (0 : Fin 1) (0 : Fin 1)) :=
    funext fun j => cast_11_scalar _ _ j
  show tail2 (W (Proc.devRef .tc main_v2)) (fun j => shapeCast S_ (W (Proc.devRef .tc main_v17)) shapeCasts_S1x1_S_ j) = _
  rw [e]

theorem host2_keep (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 _ hostOps2_writes h

end Cert.KernelIdeal.Val

end
-- ==== Proof.Val.S1Pieces.lean ====
/-
  Stage 1 (the softmax call): what each output buffer holds after the body, at each of its two control cases,
  as the arithmetic of the body's stores: the buffer's last covering store, its operands the whole input blocks
  (and, for an accumulator, what the buffer held before: the zero just stored at the first tile, the previous
  tile's value afterwards).
-/
import proofs.«102363_j2070174236949_1_alg».proof.Proof.KI.S1Outs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every store of the body starts at the origin of its buffer. -/
theorem hz0 : (![0, 0] : Fin 2 → Nat) = fun _ => 0 := funext fun a => by fin_cases a <;> rfl

/-! ## The first tile: the accumulators are zeroed, then updated from the zero read back -/

/-- The first bf16 block is the first input's row softmax, narrowed. -/
theorem out0_A_2_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    out0_A_2 c i arg1 harg1 arg2 harg2 arg3 harg3 arg4 harg4 arg5 harg5 arg6 harg6 arg7 harg7 hc0 x0 x1 = k0_pay3 (k0_pay8 x0) := by
  unfold out0_A_2
  rw [View.read_writes_eq_canon _ _ _ (cover0_A_2 c i arg1 harg1 arg2 harg2 arg3 harg3 arg4 harg4 arg5 harg5 arg6 harg6 arg7 harg7 hc0 x0 x1)]
  unfold kernelRun0_A
  dsimp only
  sl_unfold_words
  rw [View.canon_unit_zero hz0]
  simp only [View.readAt_eq_ld, harg1.read_unread, View.ld_unit_zero (S := S128x4096) hz0]

/-- The second bf16 block is the second input's row softmax, narrowed. -/
theorem out0_A_3_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    out0_A_3 c i arg1 harg1 arg2 harg2 arg3 harg3 arg4 harg4 arg5 harg5 arg6 harg6 arg7 harg7 hc0 x0 x1 = k0_pay4 (k0_pay9 x1) := by
  unfold out0_A_3
  rw [View.read_writes_eq_canon _ _ _ (cover0_A_3 c i arg1 harg1 arg2 harg2 arg3 harg3 arg4 harg4 arg5 harg5 arg6 harg6 arg7 harg7 hc0 x0 x1)]
  unfold kernelRun0_A
  dsimp only
  sl_unfold_words
  rw [View.canon_unit_zero hz0]
  simp only [View.readAt_eq_ld, harg2.read_unread, View.ld_unit_zero (S := S128x4096) hz0]

/-- The entropy sum is the tile's term added to the zero just stored. -/
theorem out0_A_4_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    out0_A_4 c i arg1 harg1 arg2 harg2 arg3 harg3 arg4 harg4 arg5 harg5 arg6 harg6 arg7 harg7 hc0 x0 x1 = k0_pay10 x0 (k0_pay5 (F := F)) := by
  unfold out0_A_4
  rw [View.read_writes_eq_canon _ _ _ (cover0_A_4 c i arg1 harg1 arg2 harg2 arg3 harg3 arg4 harg4 arg5 harg5 arg6 harg6 arg7 harg7 hc0 x0 x1)]
  unfold kernelRun0_A
  dsimp only
  sl_unfold_words
  rw [View.canon_cons_unit_zero (S := S1x1) hz0, View.readCov_unit_zero (S := S1x1) _ hz0]
  simp only [View.readAt_eq_ld, harg1.read_unread, View.ld_unit_zero (S := S128x4096) hz0]

/-- The first column sum is the tile's column sums added to the zero just stored. -/
theorem out0_A_5_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    out0_A_5 c i arg1 harg1 arg2 harg2 arg3 harg3 arg4 harg4 arg5 harg5 arg6 harg6 arg7 harg7 hc0 x0 x1 = k0_pay1 (k0_pay8 x0) (k0_pay6 (F := F)) := by
  unfold out0_A_5
  rw [View.read_writes_eq_canon _ _ _ (cover0_A_5 c i arg1 harg1 arg2 harg2 arg3 harg3 arg4 harg4 arg5 harg5 arg6 harg6 arg7 harg7 hc0 x0 x1)]
  unfold kernelRun0_A
  dsimp only
  sl_unfold_words
  rw [View.canon_cons_unit_zero (S := S1x4096) hz0, View.readCov_unit_zero (S := S1x4096) _ hz0]
  simp only [View.readAt_eq_ld, harg1.read_unread, View.ld_unit_zero (S := S128x4096) hz0]

/-- The second column sum likewise, from the second input. -/
theorem out0_A_6_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : cond0_0 i)
    (x0 : Vec F S128x4096 .f32) (x1 : Vec F S128x4096 .f32) :
    out0_A_6 c i arg1 harg1 arg2 harg2 arg3 harg3 arg4 harg4 arg5 harg5 arg6 harg6 arg7 harg7 hc0 x0 x1 = k0_pay2 (k0_pay9 x1) (k0_pay7 (F := F)) := by
  unfold out0_A_6
  rw [View.read_writes_eq_canon _ _ _ (cover0_A_6 c i arg1 harg1 arg2 harg2 arg3 harg3 arg4 harg4 arg5 harg5 arg6 harg6 arg7 harg7 hc0 x0 x1)]
  unfold kernelRun0_A
  dsimp only
  sl_unfold_words
  rw [View.canon_cons_unit_zero (S := S1x4096) hz0, View.readCov_unit_zero (S := S1x4096) _ hz0]
  simp only [View.readAt_eq_ld, harg2.read_unread, View.ld_unit_zero (S := S128x4096) hz0]

/-! ## A later tile: the accumulators are updated from what the tile before left -/

/-- The first bf16 block is the first input's row softmax, narrowed. -/
theorem out0_B_2_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    out0_B_2 c i arg1 harg1 arg2 harg2 arg3 harg3 arg4 harg4 arg5 harg5 arg6 harg6 arg7 harg7 hc0 x0 x1 xo5 xo6 xo7 = k0_pay3 (k0_pay8 x0) := by
  unfold out0_B_2
  rw [View.read_writes_eq_canon _ _ _ (cover0_B_2 c i arg1 harg1 arg2 harg2 arg3 harg3 arg4 harg4 arg5 harg5 arg6 harg6 arg7 harg7 hc0 x0 x1 xo5 xo6 xo7)]
  unfold kernelRun0_B
  dsimp only
  sl_unfold_words
  rw [View.canon_unit_zero hz0]
  simp only [View.readAt_eq_ld, harg1.read_unread, View.ld_unit_zero (S := S128x4096) hz0]

/-- The second bf16 block is the second input's row softmax, narrowed. -/
theorem out0_B_3_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    out0_B_3 c i arg1 harg1 arg2 harg2 arg3 harg3 arg4 harg4 arg5 harg5 arg6 harg6 arg7 harg7 hc0 x0 x1 xo5 xo6 xo7 = k0_pay4 (k0_pay9 x1) := by
  unfold out0_B_3
  rw [View.read_writes_eq_canon _ _ _ (cover0_B_3 c i arg1 harg1 arg2 harg2 arg3 harg3 arg4 harg4 arg5 harg5 arg6 harg6 arg7 harg7 hc0 x0 x1 xo5 xo6 xo7)]
  unfold kernelRun0_B
  dsimp only
  sl_unfold_words
  rw [View.canon_unit_zero hz0]
  simp only [View.readAt_eq_ld, harg2.read_unread, View.ld_unit_zero (S := S128x4096) hz0]

/-- The entropy sum is the tile's term added to what was there. -/
theorem out0_B_4_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    out0_B_4 c i arg1 harg1 arg2 harg2 arg3 harg3 arg4 harg4 arg5 harg5 arg6 harg6 arg7 harg7 hc0 x0 x1 xo5 xo6 xo7 = k0_pay10 x0 xo5 := by
  unfold out0_B_4
  rw [View.read_writes_eq_canon _ _ _ (cover0_B_4 c i arg1 harg1 arg2 harg2 arg3 harg3 arg4 harg4 arg5 harg5 arg6 harg6 arg7 harg7 hc0 x0 x1 xo5 xo6 xo7)]
  unfold kernelRun0_B
  dsimp only
  sl_unfold_words
  rw [View.canon_unit_zero hz0]
  simp only [View.readAt_eq_ld, harg1.read_unread, harg5.read_unread, View.ld_unit_zero (S := S128x4096) hz0, View.ld_unit_zero (S := S1x1) hz0]

/-- The first column sum is the tile's column sums added to what was there. -/
theorem out0_B_5_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    out0_B_5 c i arg1 harg1 arg2 harg2 arg3 harg3 arg4 harg4 arg5 harg5 arg6 harg6 arg7 harg7 hc0 x0 x1 xo5 xo6 xo7 = k0_pay1 (k0_pay8 x0) xo6 := by
  unfold out0_B_5
  rw [View.read_writes_eq_canon _ _ _ (cover0_B_5 c i arg1 harg1 arg2 harg2 arg3 harg3 arg4 harg4 arg5 harg5 arg6 harg6 arg7 harg7 hc0 x0 x1 xo5 xo6 xo7)]
  unfold kernelRun0_B
  dsimp only
  sl_unfold_words
  rw [View.canon_unit_zero hz0]
  simp only [View.readAt_eq_ld, harg1.read_unread, harg6.read_unread, View.ld_unit_zero (S := S128x4096) hz0, View.ld_unit_zero (S := S1x4096) hz0]

/-- The second column sum likewise, from the second input. -/
theorem out0_B_6_eq (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i)
    (x0 : Vec F S128x4096 .f32) (x1 : Vec F S128x4096 .f32) (xo5 : Vec F S1x1 .f32) (xo6 : Vec F S1x4096 .f32) (xo7 : Vec F S1x4096 .f32) :
    out0_B_6 c i arg1 harg1 arg2 harg2 arg3 harg3 arg4 harg4 arg5 harg5 arg6 harg6 arg7 harg7 hc0 x0 x1 xo5 xo6 xo7 = k0_pay2 (k0_pay9 x1) xo7 := by
  unfold out0_B_6
  rw [View.read_writes_eq_canon _ _ _ (cover0_B_6 c i arg1 harg1 arg2 harg2 arg3 harg3 arg4 harg4 arg5 harg5 arg6 harg6 arg7 harg7 hc0 x0 x1 xo5 xo6 xo7)]
  unfold kernelRun0_B
  dsimp only
  sl_unfold_words
  rw [View.canon_unit_zero hz0]
  simp only [View.readAt_eq_ld, harg2.read_unread, harg7.read_unread, View.ld_unit_zero (S := S128x4096) hz0, View.ld_unit_zero (S := S1x4096) hz0]

end Cert.KernelIdeal.Fr

end
-- ==== Proof.Val.Payloads0.lean ====
/-
  The values the two kernel bodies store, read at one index, at the ideal instance — first part: the stores of
  zero, the two format changes (the identity on extended reals), the two column-sum accumulators of the first
  call, and the accumulated product of the second call (both blocks contracted over their rows).
  Also the one-axis sums of a matrix read at coordinates, which the second part uses again.
-/
import proofs.«102363_j2070174236949_1_alg».proof.Proof.Gen.KernelIdeal.Skeleton
import proofs.«102363_j2070174236949_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## One-axis reductions of a matrix, read at coordinates -/

/-- Over column `c`, the source index with row `r` inserted on axis 0 is `(r, c)`. -/
theorem lift_axis0 {a b : ℕ} (h : (⟨2, ![a, b]⟩ : Shape).Reduces [0] ⟨1, ![b]⟩) (c : Fin b) (r : Fin a) :
    h.lift (ix1 c) r = ix2 r c := by
  funext d
  match d with
  | ⟨0, _⟩ => exact Fin.ext rfl
  | ⟨1, _⟩ => exact Fin.ext rfl

/-- Over row `r`, the source index with column `c` inserted on axis 1 is `(r, c)`. -/
theorem lift_axis1 {a b : ℕ} (h : (⟨2, ![a, b]⟩ : Shape).Reduces [1] ⟨1, ![a]⟩) (r : Fin a) (c : Fin b) :
    h.lift (ix1 r) c = ix2 r c := by
  funext d
  match d with
  | ⟨0, _⟩ => exact Fin.ext rfl
  | ⟨1, _⟩ => exact Fin.ext rfl

/-- A column sum: the sum over axis 0 of an `[a, b]` matrix, read at column `c`. -/
theorem sum_axis0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ r : Fin a, src (ix2 r c) :=
  (Ideal.multiReduction_add_single src _ h hφ hacc (ix1 c)).trans
    (Finset.sum_congr rfl fun r _ => congrArg src (lift_axis0 h c r))

/-- A row sum: the sum over axis 1 of an `[a, b]` matrix, read at row `r`. -/
theorem sum_axis1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src _ h hφ hacc (ix1 r)).trans
    (Finset.sum_congr rfl fun c _ => congrArg src (lift_axis1 h r c))

/-! ## The first call: the stores of zero and the two format changes -/

theorem pay5_apply (i : S1x1.Idx) : k0_pay5 (F := Ideal) i = 0 := Ideal.ofBits_zero_f32
theorem pay6_apply (i : S1x4096.Idx) : k0_pay6 (F := Ideal) i = 0 := Ideal.ofBits_zero_f32
theorem pay7_apply (i : S1x4096.Idx) : k0_pay7 (F := Ideal) i = 0 := Ideal.ofBits_zero_f32

theorem pay3_apply (p : FVec Ideal S128x4096 .f32) (i : S128x4096.Idx) : k0_pay3 (F := Ideal) p i = p i := rfl
theorem pay4_apply (p : FVec Ideal S128x4096 .f32) (i : S128x4096.Idx) : k0_pay4 (F := Ideal) p i = p i := rfl

/-! ## The first call: the two column-sum accumulators -/

theorem pay1_apply (p : FVec Ideal S128x4096 .f32) (acc : Vec Ideal S1x4096 .f32) (c : Fin 4096) :
    k0_pay1 (F := Ideal) p acc (ix2 0 c) = acc (ix2 0 c) + ∑ r : Fin 128, p (ix2 r c) := by
  unfold k0_pay1
  rw [addf_apply, shapeCast_self, shapeCast_a_1a_apply]
  exact congrArg (acc (ix2 0 c) + ·) (sum_axis0_apply p _ _ _ c)

theorem pay2_apply (p : FVec Ideal S128x4096 .f32) (acc : Vec Ideal S1x4096 .f32) (c : Fin 4096) :
    k0_pay2 (F := Ideal) p acc (ix2 0 c) = acc (ix2 0 c) + ∑ r : Fin 128, p (ix2 r c) := by
  unfold k0_pay2
  rw [addf_apply, shapeCast_self, shapeCast_a_1a_apply]
  exact congrArg (acc (ix2 0 c) + ·) (sum_axis0_apply p _ _ _ c)

/-! ## The second call: the stores of zero -/

theorem pay1'_apply (i : S1x1.Idx) : k1_pay1 (F := Ideal) i = 0 := Ideal.ofBits_zero_f32
theorem pay2'_apply (i : S1024x1024.Idx) : k1_pay2 (F := Ideal) i = 0 := by
  unfold k1_pay2
  rw [shapeCast_self]
  exact Ideal.ofBits_zero_f32

/-! ## The second call: the accumulated product

The dot contracts axis 0 of both operands: the left operand is read at `(k, ci)`, the right at `(k, di)`. -/

theorem lhs_dot_0 (i : S1024x1024.Idx) (q : dot_S2048x1024_S2048x1024_S1024x1024_0_0_1_1_n_n.contr.Idx) :
    (dot_S2048x1024_S2048x1024_S1024x1024_0_0_1_1_n_n.lhsIdx i q 0).val = (q ⟨0, by decide⟩).val :=
  dot_S2048x1024_S2048x1024_S1024x1024_0_0_1_1_n_n.lhsIdx_val_of_single rfl i q
theorem lhs_dot_1 (i : S1024x1024.Idx) (q : dot_S2048x1024_S2048x1024_S1024x1024_0_0_1_1_n_n.contr.Idx) :
    (dot_S2048x1024_S2048x1024_S1024x1024_0_0_1_1_n_n.lhsIdx i q 1).val = (i 0).val := by
  unfold DotDims.lhsIdx
  rw [dif_neg (show ¬(1 : Fin S2048x1024.rank) ∈ dot_S2048x1024_S2048x1024_S1024x1024_0_0_1_1_n_n.lhsBatch by decide), dif_pos (show (1 : Fin S2048x1024.rank) ∈ dot_S2048x1024_S2048x1024_S1024x1024_0_0_1_1_n_n.lhsNonContracting by decide)]
  rfl
theorem rhs_dot_0 (i : S1024x1024.Idx) (q : dot_S2048x1024_S2048x1024_S1024x1024_0_0_1_1_n_n.contr.Idx) :
    (dot_S2048x1024_S2048x1024_S1024x1024_0_0_1_1_n_n.rhsIdx i q 0).val = (q ⟨0, by decide⟩).val :=
  dot_S2048x1024_S2048x1024_S1024x1024_0_0_1_1_n_n.rhsIdx_val_of_single rfl i q
theorem rhs_dot_1 (i : S1024x1024.Idx) (q : dot_S2048x1024_S2048x1024_S1024x1024_0_0_1_1_n_n.contr.Idx) :
    (dot_S2048x1024_S2048x1024_S1024x1024_0_0_1_1_n_n.rhsIdx i q 1).val = (i 1).val := by
  unfold DotDims.rhsIdx
  rw [dif_neg (show ¬(1 : Fin S2048x1024.rank) ∈ dot_S2048x1024_S2048x1024_S1024x1024_0_0_1_1_n_n.rhsBatch by decide), dif_pos (show (1 : Fin S2048x1024.rank) ∈ dot_S2048x1024_S2048x1024_S1024x1024_0_0_1_1_n_n.rhsNonContracting by decide)]
  rfl

/-- The product of the two blocks, contracted over their 2048 rows, read at `(ci, di)`. -/
theorem matmul_zero_apply (a b : FVec Ideal S2048x1024 .bf16) (ci di : Fin 1024) :
    matmul dot_S2048x1024_S2048x1024_S1024x1024_0_0_1_1_n_n none a b (constant (F := Ideal) S1024x1024 .f32 0x00000000#32) (ix2 ci di)
      = ∑ r : Fin 2048, a (ix2 r ci) * b (ix2 r di) := by
  simp only [matmul]
  rw [Ideal.matmul_constant_zero_apply, ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 ci di) ((contrEquiv1 dot_S2048x1024_S2048x1024_S1024x1024_0_0_1_1_n_n 2048 rfl rfl).symm k) = ix2 k ci := funext fun ax => Fin.ext (by
    match ax with
    | ⟨0, _⟩ => exact (lhs_dot_0 _ _).trans hk
    | ⟨1, _⟩ => exact lhs_dot_1 _ _)
  have er : dot_S2048x1024_S2048x1024_S1024x1024_0_0_1_1_n_n.rhsIdx (ix2 ci di) ((contrEquiv1 dot_S2048x1024_S2048x1024_S1024x1024_0_0_1_1_n_n 2048 rfl rfl).symm k) = ix2 k di := funext fun ax => Fin.ext (by
    match ax with
    | ⟨0, _⟩ => exact (rhs_dot_0 _ _).trans hk
    | ⟨1, _⟩ => exact rhs_dot_1 _ _)
  rw [el, er]

theorem pay3'_apply (a b : Vec Ideal S2048x1024 .bf16) (acc : Vec Ideal S1024x1024 .f32) (ci di : Fin 1024) :
    k1_pay3 (F := Ideal) a b acc (ix2 ci di) = acc (ix2 ci di) + ∑ r : Fin 2048, a (ix2 r ci) * b (ix2 r di) := by
  unfold k1_pay3
  rw [shapeCast_self, shapeCast_self, shapeCast_self, addf_apply]
  exact congrArg (acc (ix2 ci di) + ·) (matmul_zero_apply a b ci di)

end Cert.KernelIdeal.Val

end
-- ==== Proof.Val.Payloads1.lean ====
/-
  The values the two kernel bodies store, read at one index, at the ideal instance — second part: the row
  softmax of a block (a row maximum and a row sum kept as columns and spread back over the row), the entropy
  accumulator of the first call, and the mutual-information accumulator of the second call (two nested lane
  sums, kept as the sum over rows of the sum over columns).
-/
import proofs.«102363_j2070174236949_1_alg».proof.Proof.Gen.KernelIdeal.Skeleton
import proofs.«102363_j2070174236949_1_alg».proof.Proof.Spec
import proofs.«102363_j2070174236949_1_alg».proof.Proof.Val.Payloads0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The keepdims column forms, and the row maximum -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row maximum: the maximum over axis 1 of an `[a, b]` matrix from `-∞`, read at row `r`, is the supremum of the row. -/
theorem max_axis1_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = Finset.univ.sup fun c : Fin b => src (ix2 r c) := by
  refine (Ideal.multiReduction_maximumf_single src _ h hφ hacc (ix1 r)).trans ?_
  have hb : FloatOps.ofBits (F := Ideal) .f32 0xFF800000#32 = (⊥ : EReal) := by
    show Ideal.ofBits .f32 0xFF800000#32 = ⊥
    simp [Ideal.ofBits, Ideal.ieee]
  have hf : (src ∘ h.lift (ix1 r)) = fun c : Fin b => src (ix2 r c) :=
    funext fun c => congrArg src (lift_axis1 h r c)
  rw [hb, hf]
  rfl

/-- An exponential and a logarithm read at an index. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-! ## The first call: the row softmax of a block -/

/-- The row softmax of a `128 × 4096` block: exp (x - row maximum) over the row's sum of these. -/
def smB (x : Vec Ideal S128x4096 .f32) (r : Fin 128) (c : Fin 4096) : EReal :=
  Ideal.div (Ideal.exp (x (ix2 r c) - Finset.univ.sup fun k : Fin 4096 => x (ix2 r k)))
    (∑ k' : Fin 4096, Ideal.exp (x (ix2 r k') - Finset.univ.sup fun k : Fin 4096 => x (ix2 r k)))

/-- The row maximum spread back over the row. -/
theorem rowmax_bcast_apply (x : Vec Ideal S128x4096 .f32) (r : Fin 128) (c : Fin 4096) :
    broadcastTo S128x4096 (shapeCast S128x1 (multiReduction (F := Ideal) .maximumf [1] S128 x 0xFF800000#32
        reduces_S128x4096_S128 (.inl rfl) rfl) shapeCasts_S128_S128x1) broadcasts_S128x1_S128x4096 (ix2 r c)
      = Finset.univ.sup fun k : Fin 4096 => x (ix2 r k) := by
  rw [broadcastTo_a1_ab_apply, shapeCast_a_a1_apply]
  exact max_axis1_apply x _ _ _ r

/-- A row sum spread back over the row. -/
theorem rowsum_bcast_apply (e : FVec Ideal S128x4096 .f32) (r : Fin 128) (c : Fin 4096) :
    broadcastTo S128x4096 (shapeCast S128x1 (multiReduction (F := Ideal) .add [1] S128 e 0x00000000#32
        reduces_S128x4096_S128 (.inl rfl) rfl) shapeCasts_S128_S128x1) broadcasts_S128x1_S128x4096 (ix2 r c)
      = ∑ k : Fin 4096, e (ix2 r k) := by
  rw [broadcastTo_a1_ab_apply, shapeCast_a_a1_apply]
  exact sum_axis1_apply e _ _ _ r

theorem pay8_apply (x : Vec Ideal S128x4096 .f32) (r : Fin 128) (c : Fin 4096) :
    k0_pay8 (F := Ideal) x (ix2 r c) = smB x r c := by
  unfold k0_pay8 smB
  rw [divf_apply, rowsum_bcast_apply, exp_apply, subf_apply, rowmax_bcast_apply]
  refine congrArg (Ideal.div _) (Finset.sum_congr rfl fun k _ => ?_)
  rw [exp_apply, subf_apply, rowmax_bcast_apply]

/-- The two softmax bodies are the same text. -/
theorem pay9_eq (x : Vec Ideal S128x4096 .f32) : k0_pay9 (F := Ideal) x = k0_pay8 (F := Ideal) x := rfl

/-! ## The first call: the entropy accumulator -/

theorem pay10_apply (x : Vec Ideal S128x4096 .f32) (acc : Vec Ideal S1x1 .f32) :
    k0_pay10 (F := Ideal) x acc (ix2 0 0)
      = acc (ix2 0 0) + ∑ r : Fin 128, ∑ c : Fin 4096, (0 - smB x r c) * Ideal.log (smB x r c + Cert.Spec.eps) := by
  unfold k0_pay10
  rw [addf_apply, shapeCast_self, shapeCast_a_1a_apply]
  refine congrArg (acc (ix2 0 0) + ·) ?_
  refine (sum_axis0_apply _ _ _ _ (0 : Fin 1)).trans (Finset.sum_congr rfl fun r _ => ?_)
  rw [shapeCast_a_a1_apply]
  refine (sum_axis1_apply _ _ _ _ r).trans (Finset.sum_congr rfl fun c _ => ?_)
  rw [mulf_apply, subf_apply, log_apply, addf_apply, broadcast_apply, broadcast_apply, pay8_apply]
  show (Ideal.ofBits .f32 0x00000000#32 - smB x r c) * Ideal.log (smB x r c + Ideal.ofBits .f32 0x2B8CBCCC#32) = _
  rw [Ideal.ofBits_zero_f32]

/-! ## The second call: the mutual-information accumulator -/

theorem pay4'_apply (S : Vec Ideal S1024x1024 .f32) (lx : Vec Ideal S1024x1 .f32) (ly : Vec Ideal S1x1024 .f32)
    (o : Vec Ideal S1x1 .f32) :
    k1_pay4 (F := Ideal) S lx ly o (ix2 0 0)
      = o (ix2 0 0) + ∑ ci : Fin 1024, ∑ di : Fin 1024, (S (ix2 ci di) * Cert.Spec.invRows)
          * ((Ideal.log (S (ix2 ci di) * Cert.Spec.invRows + Cert.Spec.eps) - lx (ix2 ci 0)) - ly (ix2 0 di)) := by
  unfold k1_pay4
  rw [addf_apply, shapeCast_self, shapeCast_a_1a_apply]
  refine congrArg (o (ix2 0 0) + ·) ?_
  refine (sum_axis0_apply _ _ _ _ (0 : Fin 1)).trans (Finset.sum_congr rfl fun ci _ => ?_)
  rw [shapeCast_a_a1_apply]
  refine (sum_axis1_apply _ _ _ _ ci).trans (Finset.sum_congr rfl fun di _ => ?_)
  rw [mulf_apply, subf_apply, subf_apply, log_apply, addf_apply, mulf_apply, broadcast_apply, broadcast_apply,
    shapeCast_self, shapeCast_self, broadcastTo_a1_ab_apply, broadcastTo_1b_ab_apply]
  rfl

end Cert.KernelIdeal.Val

end
-- ==== Proof.Math.lean ====
/-
  The mathematics over the extended reals that joins the two forms of the results.
  Every input entry is a real number; then every softmax entry is a positive real, every sum met is a real,
  and the laws that fail at the infinities (the sign through a sum, subtracting two terms one after the
  other against subtracting their sum) hold. The mean by the factor 2⁻¹³ and the mean by division by 8192
  agree on all extended reals. Beside these, the two regroupings of a finite sum that the tiled sums use.
-/
import proofs.«102363_j2070174236949_1_alg».proof.Proof.Spec
import Mathlib.Data.EReal.Basic
import Mathlib.Data.EReal.Operations
import Mathlib.Data.EReal.Inv
import Mathlib.Analysis.SpecialFunctions.Log.Basic
import Mathlib.Analysis.SpecialFunctions.Exp
import Mathlib.Algebra.BigOperators.Fin
import Mathlib.Algebra.BigOperators.Group.Finset.Basic
import Mathlib.Algebra.Order.BigOperators.Group.Finset
import Mathlib.Logic.Equiv.Fin.Basic

noncomputable section

namespace Cert.Spec

open Idealize.ShloMosaic
open scoped BigOperators

/-- Every entry of the matrix is a real number. -/
def IsReal (x : Mat) : Prop := ∀ n c, ∃ r : ℝ, x n c = (r : EReal)

/-! ### The three constants -/

/-- The word of ε denotes a positive real. -/
theorem eps_eq : ∃ e : ℝ, 0 < e ∧ eps = (e : EReal) := by
  refine ⟨9223372 * (2 ^ 63)⁻¹, by positivity, ?_⟩
  simp [Ideal.ofBits, Ideal.ieee, -EReal.coe_mul]

/-- The word of the row count denotes 8192. -/
theorem rows_eq : rows = ((8192 : ℝ) : EReal) := by
  simp [Ideal.ofBits, Ideal.ieee, -EReal.coe_mul]; norm_num

/-- The word of the reciprocal denotes 1 / 8192. -/
theorem invRows_eq : invRows = ((1 / 8192 : ℝ) : EReal) := by
  simp [Ideal.ofBits, Ideal.ieee, -EReal.coe_mul]; norm_num

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sign passes through a finite sum of real numbers. -/
theorem sum_neg_of_real {ι : Type*} (s : Finset ι) (f : ι → EReal) (hf : ∀ i ∈ s, ∃ r : ℝ, f i = (r : EReal)) :
    ∑ i ∈ s, -(f i) = -(∑ i ∈ s, f i) := by
  classical
  induction s using Finset.induction_on with
  | empty => simp
  | insert a s ha ih =>
    obtain ⟨r, hr⟩ := hf a (Finset.mem_insert_self a s)
    rw [Finset.sum_insert ha, Finset.sum_insert ha, ih (fun i hi => hf i (Finset.mem_insert_of_mem hi)), hr,
      EReal.neg_add (Or.inl (EReal.coe_ne_bot r)) (Or.inl (EReal.coe_ne_top r)), sub_eq_add_neg]

/-- Subtracting two real numbers one after the other is subtracting their sum, from any extended real. -/
theorem sub_sub_real (z : EReal) (a b : ℝ) : (z - (a : EReal)) - (b : EReal) = z - ((a : EReal) + (b : EReal)) := by
  rw [sub_eq_add_neg, sub_eq_add_neg, sub_eq_add_neg, add_assoc,
    EReal.neg_add (Or.inl (EReal.coe_ne_bot a)) (Or.inl (EReal.coe_ne_top a)), sub_eq_add_neg]

/-- The quotient of two real numbers, the divisor not zero, is the real quotient. -/
theorem div_real (a s : ℝ) (hs : s ≠ 0) : Ideal.div (a : EReal) (s : EReal) = ((a / s : ℝ) : EReal) := by
  rw [Ideal.div_coe hs, ← EReal.coe_mul, mul_one_div]

/-- The logarithm of a positive real number is the real logarithm. -/
theorem log_real (r : ℝ) (hr : 0 < r) : Ideal.log (r : EReal) = ((Real.log r : ℝ) : EReal) := by
  rw [Ideal.log_coe, if_neg (not_le.mpr hr)]

/-! ### The softmax of a real matrix -/

/-- The greatest entry of a row of reals is a real. -/
theorem rmax_real (x : Mat) (hx : IsReal x) (n : Fin 8192) : ∃ m : ℝ, rmax x n = (m : EReal) := by
  obtain ⟨k, -, hk⟩ := Finset.exists_mem_eq_sup (Finset.univ : Finset (Fin 4096)) ⟨0, Finset.mem_univ _⟩
    (fun k => x n k)
  obtain ⟨r, hr⟩ := hx n k
  exact ⟨r, by rw [rmax, hk, hr]⟩

/-- The unnormalised softmax entry is a positive real. -/
theorem ex_real (x : Mat) (hx : IsReal x) (n : Fin 8192) (c : Fin 4096) :
    ∃ r : ℝ, 0 < r ∧ ex x n c = (r : EReal) := by
  obtain ⟨m, hm⟩ := rmax_real x hx n
  obtain ⟨r, hr⟩ := hx n c
  exact ⟨Real.exp (r - m), Real.exp_pos _, by rw [ex, hm, hr, ← EReal.coe_sub, Ideal.exp_coe]⟩

/-- A sum over a nonempty finite type of positive reals is a positive real. -/
theorem sum_pos_real {ι : Type*} [Fintype ι] [Nonempty ι] (f : ι → EReal)
    (hf : ∀ i, ∃ r : ℝ, 0 < r ∧ f i = (r : EReal)) : ∃ s : ℝ, 0 < s ∧ ∑ i, f i = (s : EReal) := by
  choose g hg0 hg using hf
  refine ⟨∑ i, g i, Finset.sum_pos (fun i _ => hg0 i) Finset.univ_nonempty, ?_⟩
  rw [coe_sum]; exact Finset.sum_congr rfl (fun i _ => hg i)

/-- Every softmax entry of a real matrix is a positive real. -/
theorem sm_real (x : Mat) (hx : IsReal x) (n : Fin 8192) (c : Fin 4096) :
    ∃ r : ℝ, 0 < r ∧ sm x n c = (r : EReal) := by
  obtain ⟨a, ha0, ha⟩ := ex_real x hx n c
  obtain ⟨s, hs0, hs⟩ := sum_pos_real (fun k : Fin 4096 => ex x n k) (fun k => ex_real x hx n k)
  exact ⟨a / s, div_pos ha0 hs0, by rw [sm, ha, hs, div_real a s hs0.ne']⟩

/-- Each entropy term p · log (p + ε) of a real matrix is a real. -/
theorem entTerm_real (x : Mat) (hx : IsReal x) (n : Fin 8192) (c : Fin 4096) :
    ∃ t : ℝ, sm x n c * Ideal.log (sm x n c + eps) = (t : EReal) := by
  obtain ⟨r, hr0, hr⟩ := sm_real x hx n c
  obtain ⟨e, he0, he⟩ := eps_eq
  exact ⟨r * Real.log (r + e), by
    rw [hr, he, ← EReal.coe_add, log_real _ (add_pos hr0 he0), ← EReal.coe_mul]⟩

/-- The entropy sum with every term negated on its own is the one with the sign outside each row's sum. -/
theorem entSumK_eq (x : Mat) (hx : IsReal x) : entSumK x = entSum x := by
  unfold entSumK entSum
  refine Finset.sum_congr rfl (fun n _ => ?_)
  rw [← sum_neg_of_real _ _ (fun c _ => entTerm_real x hx n c)]
  refine Finset.sum_congr rfl (fun c _ => ?_)
  rw [zero_sub, EReal.neg_mul]

/-! ### The two means -/

/-- The mean by the factor 2⁻¹³ is the mean by division by 8192, on all extended reals. -/
theorem jointK_eq (p q : Mat) : jointK p q = joint p q := by
  funext c d
  rw [jointK, joint, rows_eq, invRows_eq, Ideal.div_coe (by norm_num : (8192 : ℝ) ≠ 0)]

/-! ### The marginals and the mutual information -/

/-- The logarithm of a marginal of a real matrix is a real. -/
theorem lmarg_real (x : Mat) (hx : IsReal x) (c : Fin 4096) : ∃ r : ℝ, lmarg x c = (r : EReal) := by
  obtain ⟨s, hs0, hs⟩ := sum_pos_real (fun n : Fin 8192 => sm x n c) (fun n => sm_real x hx n c)
  obtain ⟨e, he0, he⟩ := eps_eq
  refine ⟨Real.log (s / 8192 + e), ?_⟩
  rw [lmarg, marg, colSum, hs, rows_eq, div_real s 8192 (by norm_num), he, ← EReal.coe_add,
    log_real _ (add_pos (div_pos hs0 (by norm_num)) he0)]

/-- Subtracting the two logarithms one after the other is subtracting their sum, the logarithms being real. -/
theorem miOfK_eq (J : Fin 4096 → Fin 4096 → EReal) (lx ly : Fin 4096 → EReal)
    (hlx : ∀ c, ∃ r : ℝ, lx c = (r : EReal)) (hly : ∀ d, ∃ r : ℝ, ly d = (r : EReal)) :
    miOfK J lx ly = miOf J lx ly := by
  unfold miOfK miOf
  refine Finset.sum_congr rfl (fun c _ => Finset.sum_congr rfl (fun d _ => ?_))
  obtain ⟨a, ha⟩ := hlx c
  obtain ⟨b, hb⟩ := hly d
  rw [ha, hb, sub_sub_real]

/-- The two results in the form the tiled computation leaves them in are the specification's. -/
theorem result_eq (x y : Mat) (hx : IsReal x) (hy : IsReal y) :
    Ideal.div (entSumK x) rows = ent x ∧
      miOfK (jointK (sm x) (sm y)) (lmarg x) (lmarg y) = mi x y := by
  refine ⟨by rw [entSumK_eq x hx, ent], ?_⟩
  rw [jointK_eq, miOfK_eq _ _ _ (lmarg_real x hx) (lmarg_real y hy), mi]

/-! ### Regrouping finite sums -/

/-- The index b · i + j of tile i, place j, lies below a · b. -/
theorem tile_lt {a b n : ℕ} (h : a * b = n) (i : Fin a) (j : Fin b) : b * i.val + j.val < n := by
  have hi : i.val + 1 ≤ a := i.isLt
  have hj : j.val < b := j.isLt
  calc b * i.val + j.val < b * i.val + b := by omega
    _ = b * (i.val + 1) := by ring
    _ ≤ b * a := Nat.mul_le_mul_left b hi
    _ = n := by rw [Nat.mul_comm, h]

/-- A sum over n = a · b indices is the sum over a tiles of the sums over the b places of each tile. -/
theorem sum_tiles (a b n : ℕ) (h : a * b = n) {M : Type*} [AddCommMonoid M] (f : Fin n → M) :
    ∑ k : Fin n, f k = ∑ i : Fin a, ∑ j : Fin b, f ⟨b * i.val + j.val, tile_lt h i j⟩ := by
  subst h
  rw [← Equiv.sum_comp finProdFinEquiv f, Fintype.sum_prod_type]
  refine Finset.sum_congr rfl (fun i _ => Finset.sum_congr rfl (fun j _ => ?_))
  exact congrArg f (Fin.ext (by simp [finProdFinEquiv, Nat.add_comm]))

/-- An accumulation that starts at z + p 0 and adds p (k+1) at step k+1 holds, after n steps,
    z plus the sum of p 0 … p n. -/
theorem foldl_add_eq_sum_range {M : Type*} [AddCommMonoid M] (z : M) (p acc : ℕ → M) (n : ℕ)
    (h0 : acc 0 = z + p 0) (hs : ∀ k, k < n → acc (k + 1) = acc k + p (k + 1)) :
    acc n = z + ∑ k ∈ Finset.range (n + 1), p k := by
  have key : ∀ m, m ≤ n → acc m = z + ∑ k ∈ Finset.range (m + 1), p k := by
    intro m
    induction m with
    | zero => intro _; rw [h0, Finset.sum_range_one]
    | succ m ih =>
      intro hm
      rw [hs m (by omega), ih (by omega), Finset.sum_range_succ _ (m + 1), add_assoc]
  exact key n le_rfl

/-- The same, the sum written over Fin (n + 1). -/
theorem foldl_add_eq_sum {M : Type*} [AddCommMonoid M] (z : M) (p acc : ℕ → M) (n : ℕ)
    (h0 : acc 0 = z + p 0) (hs : ∀ k, k < n → acc (k + 1) = acc k + p (k + 1)) :
    acc n = z + ∑ k : Fin (n + 1), p k.val := by
  rw [foldl_add_eq_sum_range z p acc n h0 hs, Fin.sum_univ_eq_sum_range]

end Cert.Spec

end
-- ==== Proof.Val.S1Math.lean ====
/-
  The accumulations of the two calls joined to the specification's sums.
  A row tile's softmax is the whole matrix's softmax on the tile's rows (the softmax of a row reads that row
  only). An accumulator that starts at zero and adds one tile's sum per step holds, after the last step, the
  sum over all indices: the 64 row tiles of the first call (the entropy sum, each column sum), the 4
  contraction blocks of the second call (one entry of the matrix product), and its 16 output tiles (the
  mutual-information sum). All of it is regrouping of finite sums in a commutative monoid.
-/
import proofs.«102363_j2070174236949_1_alg».proof.Proof.Val.Payloads1
import proofs.«102363_j2070174236949_1_alg».proof.Proof.Spec
import proofs.«102363_j2070174236949_1_alg».proof.Proof.Math

noncomputable section

namespace Cert.KernelIdeal.Val

open Cert.KernelIdeal Cert.KernelIdeal.Gen Idealize.ShloMosaic Idealize.ShloMosaic.ValueIdx
open Cert.Spec (sum_tiles tile_lt foldl_add_eq_sum)
open scoped BigOperators

/-! ### Accumulating tile by tile -/

/-- An accumulation over contributions indexed by Fin (N + 1): after step N it holds the start plus all of them. -/
theorem acc_fin {M : Type*} [AddCommMonoid M] (N : ℕ) (p : Fin (N + 1) → M) (acc : ℕ → M) (z : M)
    (h0 : acc 0 = z + p ⟨0, Nat.succ_pos N⟩)
    (hs : ∀ t (h : t + 1 < N + 1), acc (t + 1) = acc t + p ⟨t + 1, h⟩) :
    acc N = z + ∑ t : Fin (N + 1), p t := by
  have e := foldl_add_eq_sum z (fun k => if h : k < N + 1 then p ⟨k, h⟩ else 0) acc N
    (by rw [h0, dif_pos (Nat.succ_pos N)])
    (fun k hk => by rw [hs k (by omega), dif_pos (show k + 1 < N + 1 by omega)])
  rw [e]
  exact congrArg (z + ·) (Finset.sum_congr rfl fun t _ => by rw [dif_pos t.isLt])

/-- An accumulator that starts at zero and at step k adds the sum over tile k of b indices holds, after the
    last of a + 1 tiles, the sum over all n = (a + 1) · b indices. -/
theorem acc_tiles {M : Type*} [AddCommMonoid M] (a b n : ℕ) (h : (a + 1) * b = n) (f : Fin n → M) (acc : ℕ → M)
    (h0 : acc 0 = 0 + ∑ j : Fin b, f ⟨b * 0 + j.val, tile_lt h ⟨0, Nat.succ_pos a⟩ j⟩)
    (hs : ∀ k (hk : k + 1 < a + 1),
      acc (k + 1) = acc k + ∑ j : Fin b, f ⟨b * (k + 1) + j.val, tile_lt h ⟨k + 1, hk⟩ j⟩) :
    acc a = ∑ k : Fin n, f k := by
  rw [sum_tiles (a + 1) b n h f,
    ← zero_add (∑ i : Fin (a + 1), ∑ j : Fin b, f ⟨b * i.val + j.val, tile_lt h i j⟩)]
  exact acc_fin a (fun i => ∑ j : Fin b, f ⟨b * i.val + j.val, tile_lt h i j⟩) acc 0 h0 hs

/-- The 16 output tiles q = 4 · i + j of 1024 × 1024 of a 4096 × 4096 array: an accumulator that starts at
    zero and adds one tile's double sum per step holds, after the last, the double sum over the array. -/
theorem acc_tiles2 {M : Type*} [AddCommMonoid M] (g : Fin 4096 → Fin 4096 → M) (acc : ℕ → M)
    (h0 : acc 0 = 0 + ∑ ci : Fin 1024, ∑ di : Fin 1024,
      g ⟨1024 * (0 / 4) + ci.val, by omega⟩ ⟨1024 * (0 % 4) + di.val, by omega⟩)
    (hs : ∀ q (h : q + 1 < 16), acc (q + 1) = acc q + ∑ ci : Fin 1024, ∑ di : Fin 1024,
      g ⟨1024 * ((q + 1) / 4) + ci.val, by omega⟩ ⟨1024 * ((q + 1) % 4) + di.val, by omega⟩) :
    acc 15 = ∑ c : Fin 4096, ∑ d : Fin 4096, g c d := by
  rw [acc_fin 15 (fun q : Fin 16 => ∑ ci : Fin 1024, ∑ di : Fin 1024,
      g ⟨1024 * (q.val / 4) + ci.val, by omega⟩ ⟨1024 * (q.val % 4) + di.val, by omega⟩) acc 0 h0 hs,
    zero_add, sum_tiles 4 4 16 rfl, sum_tiles 4 1024 4096 rfl (fun c => ∑ d : Fin 4096, g c d)]
  refine Finset.sum_congr rfl fun i _ => ?_
  have e : ∀ ci : Fin 1024, ∑ d : Fin 4096, g ⟨1024 * i.val + ci.val, tile_lt rfl i ci⟩ d
      = ∑ j : Fin 4, ∑ di : Fin 1024, g ⟨1024 * i.val + ci.val, tile_lt rfl i ci⟩
          ⟨1024 * j.val + di.val, tile_lt rfl j di⟩ :=
    fun ci => sum_tiles 4 1024 4096 rfl _
  rw [Finset.sum_congr rfl fun ci _ => e ci, Finset.sum_comm]
  refine Finset.sum_congr rfl fun ci _ => Finset.sum_congr rfl fun j _ => Finset.sum_congr rfl fun di _ => ?_
  have hi : i.val < 4 := i.isLt
  have hj : j.val < 4 := j.isLt
  congr 1 <;> exact Fin.ext (by dsimp only; omega)

/-! ### The first call -/

/-- The softmax of a row tile is the whole matrix's softmax on the tile's rows. -/
theorem smB_tile (X : (⟨2, ![8192, 4096]⟩ : Shape).Idx → EReal) (t : Fin 64) (xb : Vec Ideal S128x4096 .f32)
    (hxb : ∀ (r : Fin 128) (k : Fin 4096), xb (ix2 r k) = X (ix2 ⟨128 * t.val + r.val, by omega⟩ k))
    (r : Fin 128) (c : Fin 4096) :
    smB xb r c = Cert.Spec.sm (Cert.Spec.mat X) ⟨128 * t.val + r.val, by omega⟩ c := by
  unfold smB Cert.Spec.sm Cert.Spec.ex Cert.Spec.rmax Cert.Spec.mat
  simp only [hxb]

/-- One term of the entropy sum, negated on its own: (0 - p) · log (p + ε) at row n, column c. -/
def entTerm (X : (⟨2, ![8192, 4096]⟩ : Shape).Idx → EReal) (n : Fin 8192) (c : Fin 4096) : EReal :=
  (0 - Cert.Spec.sm (Cert.Spec.mat X) n c) * Ideal.log (Cert.Spec.sm (Cert.Spec.mat X) n c + Cert.Spec.eps)

/-- A row tile's contribution to the entropy sum, from its block. -/
theorem entTile_of_block (X : (⟨2, ![8192, 4096]⟩ : Shape).Idx → EReal) (t : Fin 64) (xb : Vec Ideal S128x4096 .f32)
    (hxb : ∀ (r : Fin 128) (k : Fin 4096), xb (ix2 r k) = X (ix2 ⟨128 * t.val + r.val, by omega⟩ k)) :
    ∑ r : Fin 128, ∑ c : Fin 4096, (0 - smB xb r c) * Ideal.log (smB xb r c + Cert.Spec.eps)
      = ∑ r : Fin 128, ∑ c : Fin 4096, entTerm X ⟨128 * t.val + r.val, by omega⟩ c := by
  simp only [smB_tile X t xb hxb, entTerm]

/-- A row tile's contribution to a column sum, from its block. -/
theorem colTile_of_block (X : (⟨2, ![8192, 4096]⟩ : Shape).Idx → EReal) (t : Fin 64) (xb : Vec Ideal S128x4096 .f32)
    (hxb : ∀ (r : Fin 128) (k : Fin 4096), xb (ix2 r k) = X (ix2 ⟨128 * t.val + r.val, by omega⟩ k)) (c : Fin 4096) :
    ∑ r : Fin 128, smB xb r c = ∑ r : Fin 128, Cert.Spec.sm (Cert.Spec.mat X) ⟨128 * t.val + r.val, by omega⟩ c := by
  simp only [smB_tile X t xb hxb]

/-- The entropy accumulator after the last of the 64 row tiles holds the entropy sum. -/
theorem ent_acc (X : (⟨2, ![8192, 4096]⟩ : Shape).Idx → EReal) (E : ℕ → EReal)
    (h0 : E 0 = 0 + ∑ r : Fin 128, ∑ c : Fin 4096, entTerm X ⟨128 * 0 + r.val, by omega⟩ c)
    (hs : ∀ t (h : t + 1 < 64),
      E (t + 1) = E t + ∑ r : Fin 128, ∑ c : Fin 4096, entTerm X ⟨128 * (t + 1) + r.val, by omega⟩ c) :
    E 63 = Cert.Spec.entSumK (Cert.Spec.mat X) :=
  acc_tiles 63 128 8192 rfl (fun n => ∑ c : Fin 4096, entTerm X n c) E h0 hs

/-- A column-sum accumulator after the last of the 64 row tiles holds the column sum. -/
theorem col_acc (X : (⟨2, ![8192, 4096]⟩ : Shape).Idx → EReal) (c : Fin 4096) (A : ℕ → EReal)
    (h0 : A 0 = 0 + ∑ r : Fin 128, Cert.Spec.sm (Cert.Spec.mat X) ⟨128 * 0 + r.val, by omega⟩ c)
    (hs : ∀ t (h : t + 1 < 64),
      A (t + 1) = A t + ∑ r : Fin 128, Cert.Spec.sm (Cert.Spec.mat X) ⟨128 * (t + 1) + r.val, by omega⟩ c) :
    A 63 = Cert.Spec.colSum (Cert.Spec.mat X) c :=
  acc_tiles 63 128 8192 rfl (fun n => Cert.Spec.sm (Cert.Spec.mat X) n c) A h0 hs

/-! ### The second call -/

/-- One entry of the product accumulated over the 4 contraction blocks of 2048 rows is the sum over all 8192 rows. -/
theorem mm_acc (a b : (⟨2, ![8192, 4096]⟩ : Shape).Idx → EReal) (i j : Fin 4) (ci di : Fin 1024) (S : ℕ → EReal)
    (h0 : S 0 = 0 + ∑ r : Fin 2048,
      a (ix2 ⟨2048 * 0 + r.val, by omega⟩ ⟨1024 * i.val + ci.val, by omega⟩)
        * b (ix2 ⟨2048 * 0 + r.val, by omega⟩ ⟨1024 * j.val + di.val, by omega⟩))
    (hs : ∀ k (h : k + 1 < 4), S (k + 1) = S k + ∑ r : Fin 2048,
      a (ix2 ⟨2048 * (k + 1) + r.val, by omega⟩ ⟨1024 * i.val + ci.val, by omega⟩)
        * b (ix2 ⟨2048 * (k + 1) + r.val, by omega⟩ ⟨1024 * j.val + di.val, by omega⟩)) :
    S 3 = ∑ n : Fin 8192, a (ix2 n ⟨1024 * i.val + ci.val, by omega⟩) * b (ix2 n ⟨1024 * j.val + di.val, by omega⟩) :=
  acc_tiles 3 2048 8192 rfl
    (fun n => a (ix2 n ⟨1024 * i.val + ci.val, by omega⟩) * b (ix2 n ⟨1024 * j.val + di.val, by omega⟩)) S h0 hs

/-- One term of the mutual-information sum with the two logarithms subtracted one after the other. -/
def miTerm (J : Fin 4096 → Fin 4096 → EReal) (lx ly : Fin 4096 → EReal) (c d : Fin 4096) : EReal :=
  J c d * ((Ideal.log (J c d + Cert.Spec.eps) - lx c) - ly d)

/-- The mutual-information accumulator after the last of the 16 output tiles holds the whole double sum. -/
theorem mi_acc (J : Fin 4096 → Fin 4096 → EReal) (lx ly : Fin 4096 → EReal) (M : ℕ → EReal)
    (h0 : M 0 = 0 + ∑ ci : Fin 1024, ∑ di : Fin 1024,
      miTerm J lx ly ⟨1024 * (0 / 4) + ci.val, by omega⟩ ⟨1024 * (0 % 4) + di.val, by omega⟩)
    (hs : ∀ q (h : q + 1 < 16), M (q + 1) = M q + ∑ ci : Fin 1024, ∑ di : Fin 1024,
      miTerm J lx ly ⟨1024 * ((q + 1) / 4) + ci.val, by omega⟩ ⟨1024 * ((q + 1) % 4) + di.val, by omega⟩) :
    M 15 = Cert.Spec.miOfK J lx ly :=
  acc_tiles2 (miTerm J lx ly) M h0 hs

end Cert.KernelIdeal.Val

end
-- ==== Proof.Val.S1Blocks.lean ====
/-
  Stage 1 (the softmax call): a row tile's block of each input, read at an entry: row r of tile t is row
  128 t + r of the matrix.
-/
import proofs.«102363_j2070174236949_1_alg».proof.Proof.KI.S1Runs
import Idealize.ShloMosaic.Lib.ValueIdx
import Idealize.ShloMosaic.Lib.Pipeline.Value

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

variable {F : FTy → Type} [FloatOps F]
variable (V : (c : Dev nD) → (b : Ref sig .tc) → Buf (Elt F) ((c : Thread nD τ).loc b))

/-- Row `r` of tile `t` is a row of the matrix. -/
theorem tile_row_lt (t : Fin cfg0.N) (r : Fin 128) : 128 * t.val + r.val < 8192 := by
  have hN : t.val < 64 := lt_of_lt_of_eq t.isLt (show cfg0.N = 64 from N_0)
  have := r.isLt
  omega

/-- The two inputs' block maps: tile `t` reads block `(t, 0)` of each. -/
theorem idx_in0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first input's block at tile `t`, at `(r, k)`, is the first input at `(128 t + r, k)`. -/
theorem block0_read (c : Dev nD) (t : Fin cfg0.N) (r : Fin 128) (k : Fin 4096) :
    (iblk0 V c 0 t : Vec F S128x4096 .f32) (ix2 r k)
      = (V c main_arg0 : Vec F S8192x4096 .f32) (ix2 ⟨128 * t.val + r.val, tile_row_lt t r⟩ k) := by
  obtain ⟨e0, e1, -, -⟩ := idx_in0 t
  show V c main_arg0 (((cfg0.win 0).blk t).view.emb (ix2 r k)) = _
  refine congrArg (V c main_arg0) (funext fun a => Fin.ext ?_)
  match a with
  | ⟨0, _⟩ => show win0_0.index t (0 : Fin 2) * 128 + 1 * r.val = 128 * t.val + r.val; omega
  | ⟨1, _⟩ => show win0_0.index t (1 : Fin 2) * 4096 + 1 * k.val = k.val; omega

/-- The second input's block likewise. -/
theorem block1_read (c : Dev nD) (t : Fin cfg0.N) (r : Fin 128) (k : Fin 4096) :
    (iblk0 V c 1 t : Vec F S128x4096 .f32) (ix2 r k)
      = (V c main_arg1 : Vec F S8192x4096 .f32) (ix2 ⟨128 * t.val + r.val, tile_row_lt t r⟩ k) := by
  obtain ⟨-, -, e0, e1⟩ := idx_in0 t
  show V c main_arg1 (((cfg0.win 1).blk t).view.emb (ix2 r k)) = _
  refine congrArg (V c main_arg1) (funext fun a => Fin.ext ?_)
  match a with
  | ⟨0, _⟩ => show win0_1.index t (0 : Fin 2) * 128 + 1 * r.val = 128 * t.val + r.val; omega
  | ⟨1, _⟩ => show win0_1.index t (1 : Fin 2) * 4096 + 1 * k.val = k.val; omega

end Cert.KernelIdeal.Val

end
-- ==== Proof.Val.S1ArraysP.lean ====
/-
  Stage 1 (the softmax call): the two bf16 result arrays in closed form. Row tile t leaves in each of the two
  bf16 blocks the row softmax of its 128 rows of the matching input; the softmax of a row reads that row only,
  so the block is the whole matrix's softmax on rows 128·t … 128·t + 127. Every tile writes its block back,
  and row n lies in the block of tile n / 128: the 64 blocks cover the array, which therefore ends holding the
  row softmax of the whole input, entry by entry.
-/
import proofs.«102363_j2070174236949_1_alg».proof.Proof.KI.S1Frame
import proofs.«102363_j2070174236949_1_alg».proof.Proof.Val.S1Pieces
import proofs.«102363_j2070174236949_1_alg».proof.Proof.Val.Payloads1
import proofs.«102363_j2070174236949_1_alg».proof.Proof.Val.S1Math
import proofs.«102363_j2070174236949_1_alg».proof.Proof.Val.S1Blocks
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

namespace S1P

/-! ## Where a tile's blocks sit -/

/-- The index maps of the two bf16 outputs, over the grid: tile t writes block (t, 0). -/
theorem idx_out0 : ∀ t : Fin cfg0.N, win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- There are 64 tiles. -/
theorem tile_lt64 (t : Fin cfg0.N) : t.val < 64 := lt_of_lt_of_eq t.isLt (show cfg0.N = 64 from N_0)

/-! ## What a tile leaves in the two bf16 blocks -/

/-- After tile t the first bf16 block holds the narrowed row softmax of the tile's block of the first input,
    at the first tile and at a later one alike. -/
theorem outs2_eq (t : Fin cfg0.N) :
    (outsAt0 V c t.val t.isLt).1 = k0_pay3 (k0_pay8 (iblk0 V c 0 t)) := by
  by_cases h0 : t.val % 64 = 0
  · rw [outsAt0_A V c t h0]
    dsimp only
    exact out0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t)
  · rw [outsAt0_B V c t h0]
    dsimp only
    exact out0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le t.val 1) t.isLt)).2.2.1 (outsAt0 V c (t.val - 1) (Nat.lt_of_le_of_lt (Nat.sub_le t.val 1) t.isLt)).2.2.2.1 (outsAt0 V c (t.val - 1) (Nat.lt_of_le_of_lt (Nat.sub_le t.val 1) t.isLt)).2.2.2.2

/-- After tile t the second bf16 block holds the same of the second input. -/
theorem outs3_eq (t : Fin cfg0.N) :
    (outsAt0 V c t.val t.isLt).2.1 = k0_pay4 (k0_pay9 (iblk0 V c 1 t)) := by
  by_cases h0 : t.val % 64 = 0
  · rw [outsAt0_A V c t h0]
    dsimp only
    exact out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t)
  · rw [outsAt0_B V c t h0]
    dsimp only
    exact out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (outsAt0 V c (t.val - 1) (Nat.lt_of_le_of_lt (Nat.sub_le t.val 1) t.isLt)).2.2.1 (outsAt0 V c (t.val - 1) (Nat.lt_of_le_of_lt (Nat.sub_le t.val 1) t.isLt)).2.2.2.1 (outsAt0 V c (t.val - 1) (Nat.lt_of_le_of_lt (Nat.sub_le t.val 1) t.isLt)).2.2.2.2

/-- Entry (r, k) of the first bf16 block after tile t is the whole input's row softmax at row 128·t + r. -/
theorem blk2_val (t : Fin cfg0.N) (r : Fin 128) (k : Fin 4096) :
    k0_pay3 (F := Ideal) (k0_pay8 (iblk0 V c 0 t)) (ix2 r k)
      = Cert.Spec.sm (Cert.Spec.mat (V c main_arg0)) ⟨128 * t.val + r.val, tile_row_lt t r⟩ k :=
  (pay3_apply (k0_pay8 (iblk0 V c 0 t)) (ix2 r k)).trans
    ((pay8_apply (iblk0 V c 0 t) r k).trans
      (smB_tile (V c main_arg0) ⟨t.val, tile_lt64 t⟩ (iblk0 V c 0 t) (fun r' k' => block0_read V c t r' k') r k))

/-- Entry (r, k) of the second bf16 block after tile t likewise, of the second input. -/
theorem blk3_val (t : Fin cfg0.N) (r : Fin 128) (k : Fin 4096) :
    k0_pay4 (F := Ideal) (k0_pay9 (iblk0 V c 1 t)) (ix2 r k)
      = Cert.Spec.sm (Cert.Spec.mat (V c main_arg1)) ⟨128 * t.val + r.val, tile_row_lt t r⟩ k :=
  (pay4_apply (k0_pay9 (iblk0 V c 1 t)) (ix2 r k)).trans
    ((congrFun (pay9_eq (iblk0 V c 1 t)) (ix2 r k)).trans
      ((pay8_apply (iblk0 V c 1 t) r k).trans
        (smB_tile (V c main_arg1) ⟨t.val, tile_lt64 t⟩ (iblk0 V c 1 t) (fun r' k' => block1_read V c t r' k') r k)))

/-! ## The write-backs and the arrays -/

/-- The row softmax of the first input as contents of the first bf16 result array. -/
abbrev Gpx : Buf (Elt Ideal) ((cfg0.win 2).arr.view.loc (c.tc : Thread nD τ)) :=
  fun i => Cert.Spec.sm (Cert.Spec.mat (V c main_arg0)) (i 0) (i 1)

/-- The row softmax of the second input as contents of the second bf16 result array. -/
abbrev Gpy : Buf (Elt Ideal) ((cfg0.win 3).arr.view.loc (c.tc : Thread nD τ)) :=
  fun i => Cert.Spec.sm (Cert.Spec.mat (V c main_arg1)) (i 0) (i 1)

/-- What tile t writes back into the first bf16 array is its block of the row softmax of the first input. -/
theorem flushed2_eq (t : Fin cfg0.N) :
    (dat0 V c).flushed 2 t = ((cfg0.win 2).blk t).view.read (Elt Ideal) (Gpx V c) := by
  show (cfg0.win 2).cut (grid0.coords t) ((dat0 V c).after 2 t) = _
  rw [after0_2, outs2_eq]
  obtain ⟨e0, e1, -, -⟩ := idx_out0 t
  funext j
  obtain ⟨r, k, rfl⟩ : ∃ (r : Fin 128) (k : Fin 4096), j = ix2 r k := ⟨j 0, j 1, eq_ix2 j⟩
  have h0 : ((((cfg0.win 2).blk t).view.emb (ix2 r k)) 0 : Fin 8192) = ⟨128 * t.val + r.val, tile_row_lt t r⟩ :=
    Fin.ext (by show win0_2.index t (0 : Fin 2) * 128 + 1 * r.val = 128 * t.val + r.val; omega)
  have h1 : ((((cfg0.win 2).blk t).view.emb (ix2 r k)) 1 : Fin 4096) = k :=
    Fin.ext (by show win0_2.index t (1 : Fin 2) * 4096 + 1 * k.val = k.val; omega)
  exact (blk2_val V c t r k).trans (congrArg₂ (Cert.Spec.sm (Cert.Spec.mat (V c main_arg0))) h0.symm h1.symm)

/-- What tile t writes back into the second bf16 array likewise. -/
theorem flushed3_eq (t : Fin cfg0.N) :
    (dat0 V c).flushed 3 t = ((cfg0.win 3).blk t).view.read (Elt Ideal) (Gpy V c) := by
  show (cfg0.win 3).cut (grid0.coords t) ((dat0 V c).after 3 t) = _
  rw [after0_3, outs3_eq]
  obtain ⟨-, -, e0, e1⟩ := idx_out0 t
  funext j
  obtain ⟨r, k, rfl⟩ : ∃ (r : Fin 128) (k : Fin 4096), j = ix2 r k := ⟨j 0, j 1, eq_ix2 j⟩
  have h0 : ((((cfg0.win 3).blk t).view.emb (ix2 r k)) 0 : Fin 8192) = ⟨128 * t.val + r.val, tile_row_lt t r⟩ :=
    Fin.ext (by show win0_3.index t (0 : Fin 2) * 128 + 1 * r.val = 128 * t.val + r.val; omega)
  have h1 : ((((cfg0.win 3).blk t).view.emb (ix2 r k)) 1 : Fin 4096) = k :=
    Fin.ext (by show win0_3.index t (1 : Fin 2) * 4096 + 1 * k.val = k.val; omega)
  exact (blk3_val V c t r k).trans (congrArg₂ (Cert.Spec.sm (Cert.Spec.mat (V c main_arg1))) h0.symm h1.symm)

/-- An entry of the first bf16 array is in tile t's block iff each coordinate is in the block's range. -/
theorem mem_blk2 (t : Fin cfg0.N) (i : S8192x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0_0).slice (win0_2.rect t)).set ↔ _
  rw [View.set_slice_whole, Rect.mem_set_unit]
  exact Iff.rfl

/-- The same for the second bf16 array. -/
theorem mem_blk3 (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_1).slice (win0_3.rect t)).set ↔ _
  rw [View.set_slice_whole, Rect.mem_set_unit]
  exact Iff.rfl

/-- Row n of the first bf16 array lies in the block of tile n / 128, which is written back. -/
theorem cover2 (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  refine ⟨⟨(i 0).val / 128, by rw [hN]; omega⟩, flush0_2 _, ?_⟩
  rw [mem_blk2]
  obtain ⟨e0, e1, -, -⟩ := idx_out0 ⟨(i 0).val / 128, by rw [hN]; omega⟩
  intro a
  match a with
  | ⟨0, _⟩ =>
    show win0_2.index ⟨(i 0).val / 128, _⟩ (0 : Fin 2) * 128 ≤ (i 0).val ∧ (i 0).val < win0_2.index ⟨(i 0).val / 128, _⟩ (0 : Fin 2) * 128 + 128
    rw [e0]; dsimp only; omega
  | ⟨1, _⟩ =>
    show win0_2.index ⟨(i 0).val / 128, _⟩ (1 : Fin 2) * 4096 ≤ (i 1).val ∧ (i 1).val < win0_2.index ⟨(i 0).val / 128, _⟩ (1 : Fin 2) * 4096 + 4096
    rw [e1]; omega

/-- The same for the second bf16 array. -/
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  refine ⟨⟨(i 0).val / 128, by rw [hN]; omega⟩, flush0_3 _, ?_⟩
  rw [mem_blk3]
  obtain ⟨-, -, e0, e1⟩ := idx_out0 ⟨(i 0).val / 128, by rw [hN]; omega⟩
  intro a
  match a with
  | ⟨0, _⟩ =>
    show win0_3.index ⟨(i 0).val / 128, _⟩ (0 : Fin 2) * 128 ≤ (i 0).val ∧ (i 0).val < win0_3.index ⟨(i 0).val / 128, _⟩ (0 : Fin 2) * 128 + 128
    rw [e0]; dsimp only; omega
  | ⟨1, _⟩ =>
    show win0_3.index ⟨(i 0).val / 128, _⟩ (1 : Fin 2) * 4096 ≤ (i 1).val ∧ (i 1).val < win0_3.index ⟨(i 0).val / 128, _⟩ (1 : Fin 2) * 4096 + 4096
    rw [e1]; omega

end S1P

/-- The first bf16 result array ends holding the row softmax of the first input. -/
theorem s1_px : (dat0 V c).arrAt 2 cfg0.N = fun i => Cert.Spec.sm (Cert.Spec.mat (V c main_arg0)) (i 0) (i 1) :=
  (dat0 V c).arrAt_eq_of_cover 2 (S1P.Gpx V c) (fun t _ => S1P.flushed2_eq V c t) S1P.cover2

/-- The second bf16 result array ends holding the row softmax of the second input. -/
theorem s1_py : (dat0 V c).arrAt 3 cfg0.N = fun i => Cert.Spec.sm (Cert.Spec.mat (V c main_arg1)) (i 0) (i 1) :=
  (dat0 V c).arrAt_eq_of_cover 3 (S1P.Gpy V c) (fun t _ => S1P.flushed3_eq V c t) S1P.cover3

end Cert.KernelIdeal.Val

end
-- ==== Proof.Val.S1ArraysA.lean ====
/-
  Stage 1 (the softmax call): what its three accumulator outputs end holding. The entropy sum's array is the
  specification's entropy sum of the first input (its terms negated one by one); the two column-sum arrays are
  the column sums of the two inputs' softmaxes. Each accumulator starts from zero at tile 0, gains one row
  tile's contribution per tile (a tile's softmax is the matrix's softmax on the tile's rows), and is written
  back once, after tile 63, over its whole array.
-/
import proofs.«102363_j2070174236949_1_alg».proof.Proof.KI.S1Frame
import proofs.«102363_j2070174236949_1_alg».proof.Proof.Val.S1Pieces
import proofs.«102363_j2070174236949_1_alg».proof.Proof.Val.Payloads1
import proofs.«102363_j2070174236949_1_alg».proof.Proof.Val.S1Math
import proofs.«102363_j2070174236949_1_alg».proof.Proof.Val.S1Blocks
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The two inputs as the call finds them, and their blocks at a tile. -/
abbrev xarr0 (c : Dev nD) : (⟨2, ![8192, 4096]⟩ : Shape).Idx → EReal := V c main_arg0
abbrev xarr1 (c : Dev nD) : (⟨2, ![8192, 4096]⟩ : Shape).Idx → EReal := V c main_arg1
abbrev xblk0 (c : Dev nD) (t : Fin cfg0.N) : Vec Ideal S128x4096 .f32 := iblk0 V c 0 t
abbrev xblk1 (c : Dev nD) (t : Fin cfg0.N) : Vec Ideal S128x4096 .f32 := iblk0 V c 1 t

/-- The call has 64 tiles. -/
theorem lt_N {n : ℕ} (h : n < 64) : n < cfg0.N := lt_of_lt_of_eq h (show (64 : ℕ) = cfg0.N from N_0.symm)
theorem lt_64 {n : ℕ} (h : n < cfg0.N) : n < 64 := lt_of_lt_of_eq h (show cfg0.N = 64 from N_0)

/-! ## The accumulators tile by tile, as the body's arithmetic -/

/-- After tile 0 the entropy sum's buffer holds the tile's term added to zero. -/
theorem acc4_zero (c : Dev nD) (h : 0 < cfg0.N) :
    (outsAt0 V c 0 h).2.2.1 = k0_pay10 (xblk0 V c ⟨0, h⟩) (k0_pay5 (F := Ideal)) := by
  rw [outsAt0_A V c ⟨0, h⟩ rfl]
  dsimp only
  exact out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩)

/-- After a later tile it holds the tile's term added to what the tile before left. -/
theorem acc4_succ (c : Dev nD) (n : ℕ) (h : n + 1 < cfg0.N) :
    (outsAt0 V c (n + 1) h).2.2.1 = k0_pay10 (xblk0 V c ⟨n + 1, h⟩) (outsAt0 V c n (Nat.lt_of_succ_lt h)).2.2.1 := by
  have hB : ¬(⟨n + 1, h⟩ : Fin cfg0.N).val % 64 = 0 := by have := lt_64 h; dsimp only; omega
  rw [outsAt0_B V c ⟨n + 1, h⟩ hB]
  dsimp only
  exact out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).2.2.1 (outsAt0 V c n (Nat.lt_of_succ_lt h)).2.2.2.1 (outsAt0 V c n (Nat.lt_of_succ_lt h)).2.2.2.2

/-- After tile 0 the first column sum's buffer holds the tile's column sums added to zero. -/
theorem acc5_zero (c : Dev nD) (h : 0 < cfg0.N) :
    (outsAt0 V c 0 h).2.2.2.1 = k0_pay1 (k0_pay8 (xblk0 V c ⟨0, h⟩)) (k0_pay6 (F := Ideal)) := by
  rw [outsAt0_A V c ⟨0, h⟩ rfl]
  dsimp only
  exact out0_A_5_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩)

/-- After a later tile it holds the tile's column sums added to what the tile before left. -/
theorem acc5_succ (c : Dev nD) (n : ℕ) (h : n + 1 < cfg0.N) :
    (outsAt0 V c (n + 1) h).2.2.2.1 = k0_pay1 (k0_pay8 (xblk0 V c ⟨n + 1, h⟩)) (outsAt0 V c n (Nat.lt_of_succ_lt h)).2.2.2.1 := by
  have hB : ¬(⟨n + 1, h⟩ : Fin cfg0.N).val % 64 = 0 := by have := lt_64 h; dsimp only; omega
  rw [outsAt0_B V c ⟨n + 1, h⟩ hB]
  dsimp only
  exact out0_B_5_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).2.2.1 (outsAt0 V c n (Nat.lt_of_succ_lt h)).2.2.2.1 (outsAt0 V c n (Nat.lt_of_succ_lt h)).2.2.2.2

/-- After tile 0 the second column sum's buffer holds the tile's column sums added to zero. -/
theorem acc6_zero (c : Dev nD) (h : 0 < cfg0.N) :
    (outsAt0 V c 0 h).2.2.2.2 = k0_pay2 (k0_pay9 (xblk1 V c ⟨0, h⟩)) (k0_pay7 (F := Ideal)) := by
  rw [outsAt0_A V c ⟨0, h⟩ rfl]
  dsimp only
  exact out0_A_6_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩)

/-- After a later tile it holds the tile's column sums added to what the tile before left. -/
theorem acc6_succ (c : Dev nD) (n : ℕ) (h : n + 1 < cfg0.N) :
    (outsAt0 V c (n + 1) h).2.2.2.2 = k0_pay2 (k0_pay9 (xblk1 V c ⟨n + 1, h⟩)) (outsAt0 V c n (Nat.lt_of_succ_lt h)).2.2.2.2 := by
  have hB : ¬(⟨n + 1, h⟩ : Fin cfg0.N).val % 64 = 0 := by have := lt_64 h; dsimp only; omega
  rw [outsAt0_B V c ⟨n + 1, h⟩ hB]
  dsimp only
  exact out0_B_6_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).2.2.1 (outsAt0 V c n (Nat.lt_of_succ_lt h)).2.2.2.1 (outsAt0 V c n (Nat.lt_of_succ_lt h)).2.2.2.2

/-! ## The accumulators read at an entry: each tile adds its rows' terms -/

theorem ent_zero (c : Dev nD) (h : 0 < cfg0.N) :
    (outsAt0 V c 0 h).2.2.1 (ix2 0 0)
      = 0 + ∑ r : Fin 128, ∑ k : Fin 4096, entTerm (xarr0 V c) ⟨128 * 0 + r.val, by omega⟩ k := by
  rw [acc4_zero V c h]
  refine (pay10_apply (xblk0 V c ⟨0, h⟩) (k0_pay5 (F := Ideal))).trans ?_
  rw [pay5_apply]
  exact congrArg (0 + ·) (entTile_of_block (xarr0 V c) ⟨0, by omega⟩ (xblk0 V c ⟨0, h⟩)
    (fun r k => block0_read V c ⟨0, h⟩ r k))

theorem ent_succ (c : Dev nD) (n : ℕ) (h : n + 1 < cfg0.N) :
    (outsAt0 V c (n + 1) h).2.2.1 (ix2 0 0)
      = (outsAt0 V c n (Nat.lt_of_succ_lt h)).2.2.1 (ix2 0 0)
        + ∑ r : Fin 128, ∑ k : Fin 4096, entTerm (xarr0 V c) ⟨128 * (n + 1) + r.val, by have := lt_64 h; omega⟩ k := by
  rw [acc4_succ V c n h]
  refine (pay10_apply (xblk0 V c ⟨n + 1, h⟩) (outsAt0 V c n (Nat.lt_of_succ_lt h)).2.2.1).trans ?_
  exact congrArg ((outsAt0 V c n (Nat.lt_of_succ_lt h)).2.2.1 (ix2 0 0) + ·) (entTile_of_block (xarr0 V c) ⟨n + 1, lt_64 h⟩ (xblk0 V c ⟨n + 1, h⟩)
    (fun r k => block0_read V c ⟨n + 1, h⟩ r k))

/-- A tile's softmax column sums, from the softmax payload of its block. -/
theorem colTile0 (c : Dev nD) (n : ℕ) (h : n < cfg0.N) (k : Fin 4096) :
    ∑ r : Fin 128, k0_pay8 (F := Ideal) (xblk0 V c ⟨n, h⟩) (ix2 r k)
      = ∑ r : Fin 128, Cert.Spec.sm (Cert.Spec.mat (xarr0 V c)) ⟨128 * n + r.val, by have := lt_64 h; omega⟩ k :=
  (Finset.sum_congr rfl fun r _ => pay8_apply (xblk0 V c ⟨n, h⟩) r k).trans
    (colTile_of_block (xarr0 V c) ⟨n, lt_64 h⟩ (xblk0 V c ⟨n, h⟩) (fun r k' => block0_read V c ⟨n, h⟩ r k') k)

theorem colTile1 (c : Dev nD) (n : ℕ) (h : n < cfg0.N) (k : Fin 4096) :
    ∑ r : Fin 128, k0_pay9 (F := Ideal) (xblk1 V c ⟨n, h⟩) (ix2 r k)
      = ∑ r : Fin 128, Cert.Spec.sm (Cert.Spec.mat (xarr1 V c)) ⟨128 * n + r.val, by have := lt_64 h; omega⟩ k :=
  (Finset.sum_congr rfl fun r _ => (congrFun (pay9_eq (xblk1 V c ⟨n, h⟩)) (ix2 r k)).trans (pay8_apply (xblk1 V c ⟨n, h⟩) r k)).trans
    (colTile_of_block (xarr1 V c) ⟨n, lt_64 h⟩ (xblk1 V c ⟨n, h⟩) (fun r k' => block1_read V c ⟨n, h⟩ r k') k)

theorem col0_zero (c : Dev nD) (h : 0 < cfg0.N) (k : Fin 4096) :
    (outsAt0 V c 0 h).2.2.2.1 (ix2 0 k)
      = 0 + ∑ r : Fin 128, Cert.Spec.sm (Cert.Spec.mat (xarr0 V c)) ⟨128 * 0 + r.val, by omega⟩ k := by
  rw [acc5_zero V c h]
  refine (pay1_apply (k0_pay8 (xblk0 V c ⟨0, h⟩)) (k0_pay6 (F := Ideal)) k).trans ?_
  rw [pay6_apply]
  exact congrArg (0 + ·) (colTile0 V c 0 h k)

theorem col0_succ (c : Dev nD) (n : ℕ) (h : n + 1 < cfg0.N) (k : Fin 4096) :
    (outsAt0 V c (n + 1) h).2.2.2.1 (ix2 0 k)
      = (outsAt0 V c n (Nat.lt_of_succ_lt h)).2.2.2.1 (ix2 0 k)
        + ∑ r : Fin 128, Cert.Spec.sm (Cert.Spec.mat (xarr0 V c)) ⟨128 * (n + 1) + r.val, by have := lt_64 h; omega⟩ k := by
  rw [acc5_succ V c n h]
  refine (pay1_apply (k0_pay8 (xblk0 V c ⟨n + 1, h⟩)) (outsAt0 V c n (Nat.lt_of_succ_lt h)).2.2.2.1 k).trans ?_
  exact congrArg ((outsAt0 V c n (Nat.lt_of_succ_lt h)).2.2.2.1 (ix2 0 k) + ·) (colTile0 V c (n + 1) h k)

theorem col1_zero (c : Dev nD) (h : 0 < cfg0.N) (k : Fin 4096) :
    (outsAt0 V c 0 h).2.2.2.2 (ix2 0 k)
      = 0 + ∑ r : Fin 128, Cert.Spec.sm (Cert.Spec.mat (xarr1 V c)) ⟨128 * 0 + r.val, by omega⟩ k := by
  rw [acc6_zero V c h]
  refine (pay2_apply (k0_pay9 (xblk1 V c ⟨0, h⟩)) (k0_pay7 (F := Ideal)) k).trans ?_
  rw [pay7_apply]
  exact congrArg (0 + ·) (colTile1 V c 0 h k)

theorem col1_succ (c : Dev nD) (n : ℕ) (h : n + 1 < cfg0.N) (k : Fin 4096) :
    (outsAt0 V c (n + 1) h).2.2.2.2 (ix2 0 k)
      = (outsAt0 V c n (Nat.lt_of_succ_lt h)).2.2.2.2 (ix2 0 k)
        + ∑ r : Fin 128, Cert.Spec.sm (Cert.Spec.mat (xarr1 V c)) ⟨128 * (n + 1) + r.val, by have := lt_64 h; omega⟩ k := by
  rw [acc6_succ V c n h]
  refine (pay2_apply (k0_pay9 (xblk1 V c ⟨n + 1, h⟩)) (outsAt0 V c n (Nat.lt_of_succ_lt h)).2.2.2.2 k).trans ?_
  exact congrArg ((outsAt0 V c n (Nat.lt_of_succ_lt h)).2.2.2.2 (ix2 0 k) + ·) (colTile1 V c (n + 1) h k)

/-! ## After the last tile -/

/-- The entropy accumulator as a sequence over the tiles. -/
def entSeq (c : Dev nD) (n : ℕ) : EReal := if h : n < cfg0.N then (outsAt0 V c n h).2.2.1 (ix2 0 0) else 0
/-- A column-sum accumulator's entry as a sequence over the tiles. -/
def colSeq0 (c : Dev nD) (k : Fin 4096) (n : ℕ) : EReal := if h : n < cfg0.N then (outsAt0 V c n h).2.2.2.1 (ix2 0 k) else 0
def colSeq1 (c : Dev nD) (k : Fin 4096) (n : ℕ) : EReal := if h : n < cfg0.N then (outsAt0 V c n h).2.2.2.2 (ix2 0 k) else 0

theorem ent_last (c : Dev nD) (h : 63 < cfg0.N) :
    (outsAt0 V c 63 h).2.2.1 (ix2 0 0) = Cert.Spec.entSumK (Cert.Spec.mat (xarr0 V c)) := by
  have e := ent_acc (xarr0 V c) (entSeq V c)
    (by unfold entSeq; rw [dif_pos (lt_N (by decide))]; exact ent_zero V c _)
    (fun t ht => by
      unfold entSeq
      rw [dif_pos (lt_N ht), dif_pos (lt_N (Nat.lt_of_succ_lt ht))]
      exact ent_succ V c t (lt_N ht))
  unfold entSeq at e
  rwa [dif_pos h] at e

theorem col0_last (c : Dev nD) (h : 63 < cfg0.N) (k : Fin 4096) :
    (outsAt0 V c 63 h).2.2.2.1 (ix2 0 k) = Cert.Spec.colSum (Cert.Spec.mat (xarr0 V c)) k := by
  have e := col_acc (xarr0 V c) k (colSeq0 V c k)
    (by unfold colSeq0; rw [dif_pos (lt_N (by decide))]; exact col0_zero V c _ k)
    (fun t ht => by
      unfold colSeq0
      rw [dif_pos (lt_N ht), dif_pos (lt_N (Nat.lt_of_succ_lt ht))]
      exact col0_succ V c t (lt_N ht) k)
  unfold colSeq0 at e
  rwa [dif_pos h] at e

theorem col1_last (c : Dev nD) (h : 63 < cfg0.N) (k : Fin 4096) :
    (outsAt0 V c 63 h).2.2.2.2 (ix2 0 k) = Cert.Spec.colSum (Cert.Spec.mat (xarr1 V c)) k := by
  have e := col_acc (xarr1 V c) k (colSeq1 V c k)
    (by unfold colSeq1; rw [dif_pos (lt_N (by decide))]; exact col1_zero V c _ k)
    (fun t ht => by
      unfold colSeq1
      rw [dif_pos (lt_N ht), dif_pos (lt_N (Nat.lt_of_succ_lt ht))]
      exact col1_succ V c t (lt_N ht) k)
  unfold colSeq1 at e
  rwa [dif_pos h] at e

/-! ## The one write-back, after tile 63, covers each array -/

/-- The last tile. -/
abbrev tL : Fin cfg0.N := ⟨63, lt_N (by decide)⟩

/-- The accumulators' blocks do not move. -/
theorem idx_acc : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The one index of a 1 × 1 array, and an index of a 1 × 4096 array by its column. -/
theorem idx11 (y : S1x1.Idx) : y = ix2 (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
theorem idx1n (y : S1x4096.Idx) : y = ix2 (0 : Fin 1) (y 1) := by
  funext a
  match a with
  | ⟨0, _⟩ => exact Fin.ext (by have h : (y 0).val < 1 := (y 0).isLt; show (y 0).val = 0; omega)
  | ⟨1, _⟩ => rfl

/-- What the accumulators' buffers hold after tile 63, entry by entry. -/
theorem ent_entry (c : Dev nD) (t : Fin cfg0.N) (h63 : t.val = 63) (y : S1x1.Idx) :
    (outsAt0 V c t.val t.isLt).2.2.1 y = Cert.Spec.entSumK (Cert.Spec.mat (xarr0 V c)) := by
  have key : ∀ (n : ℕ) (hn : n < cfg0.N), n = 63 →
      (outsAt0 V c n hn).2.2.1 y = Cert.Spec.entSumK (Cert.Spec.mat (xarr0 V c)) := by
    intro n hn e
    subst e
    rw [idx11 y]
    exact ent_last V c hn
  exact key t.val t.isLt h63
theorem col0_entry (c : Dev nD) (t : Fin cfg0.N) (h63 : t.val = 63) (k : Fin 4096) :
    (outsAt0 V c t.val t.isLt).2.2.2.1 (ix2 0 k) = Cert.Spec.colSum (Cert.Spec.mat (xarr0 V c)) k := by
  have key : ∀ (n : ℕ) (hn : n < cfg0.N), n = 63 →
      (outsAt0 V c n hn).2.2.2.1 (ix2 0 k) = Cert.Spec.colSum (Cert.Spec.mat (xarr0 V c)) k := by
    intro n hn e
    subst e
    exact col0_last V c hn k
  exact key t.val t.isLt h63
theorem col1_entry (c : Dev nD) (t : Fin cfg0.N) (h63 : t.val = 63) (k : Fin 4096) :
    (outsAt0 V c t.val t.isLt).2.2.2.2 (ix2 0 k) = Cert.Spec.colSum (Cert.Spec.mat (xarr1 V c)) k := by
  have key : ∀ (n : ℕ) (hn : n < cfg0.N), n = 63 →
      (outsAt0 V c n hn).2.2.2.2 (ix2 0 k) = Cert.Spec.colSum (Cert.Spec.mat (xarr1 V c)) k := by
    intro n hn e
    subst e
    exact col1_last V c hn k
  exact key t.val t.isLt h63

/-- What the last tile writes back is the block (the whole) of the final value. -/
theorem flushed4_eq (c : Dev nD) (t : Fin cfg0.N) (hf : (cfg0.win 4).flush t = true) :
    (dat0 V c).flushed 4 t = ((cfg0.win 4).blk t).view.read (Elt Ideal)
      (fun _ : S1x1.Idx => Cert.Spec.entSumK (Cert.Spec.mat (xarr0 V c))) := by
  have h63 : t.val = 63 := by have := (flush0_4 t).mp hf; have := lt_64 t.isLt; omega
  show (cfg0.win 4).cut (grid0.coords t) ((dat0 V c).after 4 t) = _
  rw [after0_4]
  funext j
  rw [View.read_apply]
  exact ent_entry V c t h63 ((cfg0.win 4).xinj (grid0.coords t) j)

theorem flushed5_eq (c : Dev nD) (t : Fin cfg0.N) (hf : (cfg0.win 5).flush t = true) :
    (dat0 V c).flushed 5 t = ((cfg0.win 5).blk t).view.read (Elt Ideal)
      (fun i : S1x4096.Idx => Cert.Spec.colSum (Cert.Spec.mat (xarr0 V c)) (i 1)) := by
  have h63 : t.val = 63 := by have := (flush0_5 t).mp hf; have := lt_64 t.isLt; omega
  have e := idx_acc t
  show (cfg0.win 5).cut (grid0.coords t) ((dat0 V c).after 5 t) = _
  rw [after0_5]
  funext j
  show (outsAt0 V c t.val t.isLt).2.2.2.1 ((cfg0.win 5).xinj (grid0.coords t) j)
    = (fun i : S1x4096.Idx => Cert.Spec.colSum (Cert.Spec.mat (xarr0 V c)) (i 1)) (((cfg0.win 5).blk t).view.emb j)
  rw [idx1n ((cfg0.win 5).xinj (grid0.coords t) j)]
  refine (col0_entry V c t h63 _).trans ?_
  refine congrArg (Cert.Spec.colSum (Cert.Spec.mat (xarr0 V c))) (Fin.ext ?_)
  show (j 1).val = win0_5.index t (1 : Fin 2) * 4096 + 1 * (j 1).val
  omega

theorem flushed6_eq (c : Dev nD) (t : Fin cfg0.N) (hf : (cfg0.win 6).flush t = true) :
    (dat0 V c).flushed 6 t = ((cfg0.win 6).blk t).view.read (Elt Ideal)
      (fun i : S1x4096.Idx => Cert.Spec.colSum (Cert.Spec.mat (xarr1 V c)) (i 1)) := by
  have h63 : t.val = 63 := by have := (flush0_6 t).mp hf; have := lt_64 t.isLt; omega
  have e := idx_acc t
  show (cfg0.win 6).cut (grid0.coords t) ((dat0 V c).after 6 t) = _
  rw [after0_6]
  funext j
  show (outsAt0 V c t.val t.isLt).2.2.2.2 ((cfg0.win 6).xinj (grid0.coords t) j)
    = (fun i : S1x4096.Idx => Cert.Spec.colSum (Cert.Spec.mat (xarr1 V c)) (i 1)) (((cfg0.win 6).blk t).view.emb j)
  rw [idx1n ((cfg0.win 6).xinj (grid0.coords t) j)]
  refine (col1_entry V c t h63 _).trans ?_
  refine congrArg (Cert.Spec.colSum (Cert.Spec.mat (xarr1 V c))) (Fin.ext ?_)
  show (j 1).val = win0_6.index t (1 : Fin 2) * 4096 + 1 * (j 1).val
  omega

/-- An entry of the array is in tile `t`'s block iff each coordinate is in the block's range on its axis. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v0_2).slice (win0_4.rect t)).set ↔ _
  rw [View.set_slice_whole, Rect.mem_set_unit]
  exact Iff.rfl

/-- The last tile's block is the whole array. -/
theorem cover4 (i : S1x1.Idx) : ∃ t : Fin cfg0.N, (cfg0.win 4).flush t = true ∧ i ∈ ((cfg0.win 4).blk t).view.set := by
  refine ⟨tL, (flush0_4 tL).mpr rfl, ?_⟩
  rw [mem_blk4]
  intro a
  have e := idx_acc tL
  have h0 : (i 0).val < 1 := (i 0).isLt
  have h1 : (i 1).val < 1 := (i 1).isLt
  match a with
  | ⟨0, _⟩ =>
    show win0_4.index tL (0 : Fin 2) * 1 ≤ (i 0).val ∧ (i 0).val < win0_4.index tL (0 : Fin 2) * 1 + 1
    omega
  | ⟨1, _⟩ =>
    show win0_4.index tL (1 : Fin 2) * 1 ≤ (i 1).val ∧ (i 1).val < win0_4.index tL (1 : Fin 2) * 1 + 1
    omega

/-- An entry of the array is in tile `t`'s block iff each coordinate is in the block's range on its axis. -/
theorem mem_blk5 (t : Fin cfg0.N) (i : S1x4096.Idx) :
    i ∈ ((cfg0.win 5).blk t).view.set ↔ ∀ a : Fin 2, win0_5.index t a * S1x4096.size a ≤ (i a).val ∧ (i a).val < win0_5.index t a * S1x4096.size a + S1x4096.size a := by
  show i ∈ ((View.whole main_v0_3).slice (win0_5.rect t)).set ↔ _
  rw [View.set_slice_whole, Rect.mem_set_unit]
  exact Iff.rfl

/-- The last tile's block is the whole array. -/
theorem cover5 (i : S1x4096.Idx) : ∃ t : Fin cfg0.N, (cfg0.win 5).flush t = true ∧ i ∈ ((cfg0.win 5).blk t).view.set := by
  refine ⟨tL, (flush0_5 tL).mpr rfl, ?_⟩
  rw [mem_blk5]
  intro a
  have e := idx_acc tL
  have h0 : (i 0).val < 1 := (i 0).isLt
  have h1 : (i 1).val < 4096 := (i 1).isLt
  match a with
  | ⟨0, _⟩ =>
    show win0_5.index tL (0 : Fin 2) * 1 ≤ (i 0).val ∧ (i 0).val < win0_5.index tL (0 : Fin 2) * 1 + 1
    omega
  | ⟨1, _⟩ =>
    show win0_5.index tL (1 : Fin 2) * 4096 ≤ (i 1).val ∧ (i 1).val < win0_5.index tL (1 : Fin 2) * 4096 + 4096
    omega

/-- An entry of the array is in tile `t`'s block iff each coordinate is in the block's range on its axis. -/
theorem mem_blk6 (t : Fin cfg0.N) (i : S1x4096.Idx) :
    i ∈ ((cfg0.win 6).blk t).view.set ↔ ∀ a : Fin 2, win0_6.index t a * S1x4096.size a ≤ (i a).val ∧ (i a).val < win0_6.index t a * S1x4096.size a + S1x4096.size a := by
  show i ∈ ((View.whole main_v0_4).slice (win0_6.rect t)).set ↔ _
  rw [View.set_slice_whole, Rect.mem_set_unit]
  exact Iff.rfl

/-- The last tile's block is the whole array. -/
theorem cover6 (i : S1x4096.Idx) : ∃ t : Fin cfg0.N, (cfg0.win 6).flush t = true ∧ i ∈ ((cfg0.win 6).blk t).view.set := by
  refine ⟨tL, (flush0_6 tL).mpr rfl, ?_⟩
  rw [mem_blk6]
  intro a
  have e := idx_acc tL
  have h0 : (i 0).val < 1 := (i 0).isLt
  have h1 : (i 1).val < 4096 := (i 1).isLt
  match a with
  | ⟨0, _⟩ =>
    show win0_6.index tL (0 : Fin 2) * 1 ≤ (i 0).val ∧ (i 0).val < win0_6.index tL (0 : Fin 2) * 1 + 1
    omega
  | ⟨1, _⟩ =>
    show win0_6.index tL (1 : Fin 2) * 4096 ≤ (i 1).val ∧ (i 1).val < win0_6.index tL (1 : Fin 2) * 4096 + 4096
    omega

/-- The entropy sum's array ends holding the entropy sum of the first input. -/
theorem s1_ent (c : Dev nD) :
    (dat0 V c).arrAt 4 cfg0.N = fun _ => Cert.Spec.entSumK (Cert.Spec.mat (V c main_arg0)) :=
  (dat0 V c).arrAt_eq_of_cover 4 _ (flushed4_eq V c) cover4

/-- The first column-sum array ends holding the column sums of the first input's softmax. -/
theorem s1_mx (c : Dev nD) :
    (dat0 V c).arrAt 5 cfg0.N = fun i => Cert.Spec.colSum (Cert.Spec.mat (V c main_arg0)) (i 1) :=
  (dat0 V c).arrAt_eq_of_cover 5 _ (flushed5_eq V c) cover5

/-- The second column-sum array ends holding the column sums of the second input's softmax. -/
theorem s1_my (c : Dev nD) :
    (dat0 V c).arrAt 6 cfg0.N = fun i => Cert.Spec.colSum (Cert.Spec.mat (V c main_arg1)) (i 1) :=
  (dat0 V c).arrAt_eq_of_cover 6 _ (flushed6_eq V c) cover6

end Cert.KernelIdeal.Val

end
-- ==== Proof.Val.S2Pieces.lean ====
/-
  The second call's body, case by case: what the run found in the output's buffer and in the accumulator is
  the skeleton's payload of the blocks the point reads. A single covering store leaves its payload; where the
  accumulator is zeroed and then updated, the later store covers and its payload read the zero back; where
  the output is stored after the accumulator's update, its payload read the accumulator as just updated.
-/
import proofs.«102363_j2070174236949_1_alg».proof.Proof.KI.S2Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- At the first point the output's buffer is left holding the zero. -/
theorem out1_A_4_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) :
    out1_A_4 c i arg3 harg3 arg4 harg4 arg5 harg5 arg6 harg6 arg7 harg7 arg8 harg8 hc0 hc1 hc2 x0 x1 x2 x3 = k1_pay1 (F := F) := by
  unfold out1_A_4
  rw [View.read_writes_eq_canon _ _ _ (cover1_A_4 c i arg3 harg3 arg4 harg4 arg5 harg5 arg6 harg6 arg7 harg7 arg8 harg8 hc0 hc1 hc2 x0 x1 x2 x3)]
  unfold kernelRun1_A
  dsimp only
  sl_unfold_words
  rw [View.canon_unit_zero hz2]

/-- At the first point the accumulator is left holding the zero plus the product of the point's two blocks:
    it is zeroed, read back, and the product added. -/
theorem sout1_A_0_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : cond1_0 i) (hc1 : cond1_1 i) (hc2 : ¬cond1_2 i)
    (x0 : Vec F S2048x1024 .bf16) (x1 : Vec F S2048x1024 .bf16) (x2 : Vec F S1024x1 .f32) (x3 : Vec F S1x1024 .f32) :
    sout1_A_0 c i arg3 harg3 arg4 harg4 arg5 harg5 arg6 harg6 arg7 harg7 arg8 harg8 hc0 hc1 hc2 x0 x1 x2 x3 = k1_pay3 x0 x1 (k1_pay2 (F := F)) := by
  unfold sout1_A_0
  rw [View.read_writes_eq_canon _ _ _ (scover1_A_0 c i arg3 harg3 arg4 harg4 arg5 harg5 arg6 harg6 arg7 harg7 arg8 harg8 hc0 hc1 hc2 x0 x1 x2 x3)]
  unfold kernelRun1_A
  dsimp only
  sl_unfold_words
  rw [View.canon_cons_unit_zero (S := S1024x1024) hz2]
  simp only [View.readAt_eq_ld, harg3.read_unread, harg4.read_unread, View.ld_unit_zero (S := S2048x1024) hz2,
    View.readCov_unit_zero (S := S1024x1024) _ hz2]

/-- At a point with k = 0 past the first the accumulator is left the same way: zeroed, read back, the product added. -/
theorem sout1_B_0_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : cond1_1 i) (hc2 : ¬cond1_2 i)
    (x0 : Vec F S2048x1024 .bf16) (x1 : Vec F S2048x1024 .bf16) (x2 : Vec F S1024x1 .f32) (x3 : Vec F S1x1024 .f32) :
    sout1_B_0 c i arg3 harg3 arg4 harg4 arg5 harg5 arg6 harg6 arg7 harg7 arg8 harg8 hc0 hc1 hc2 x0 x1 x2 x3 = k1_pay3 x0 x1 (k1_pay2 (F := F)) := by
  unfold sout1_B_0
  rw [View.read_writes_eq_canon _ _ _ (scover1_B_0 c i arg3 harg3 arg4 harg4 arg5 harg5 arg6 harg6 arg7 harg7 arg8 harg8 hc0 hc1 hc2 x0 x1 x2 x3)]
  unfold kernelRun1_B
  dsimp only
  sl_unfold_words
  rw [View.canon_cons_unit_zero (S := S1024x1024) hz2]
  simp only [View.readAt_eq_ld, harg3.read_unread, harg4.read_unread, View.ld_unit_zero (S := S2048x1024) hz2,
    View.readCov_unit_zero (S := S1024x1024) _ hz2]

/-- At a point with k = 1 or 2 the accumulator is left holding what it held plus the product of the point's two blocks. -/
theorem sout1_C_0_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : ¬cond1_2 i)
    (x0 : Vec F S2048x1024 .bf16) (x1 : Vec F S2048x1024 .bf16) (x2 : Vec F S1024x1 .f32) (x3 : Vec F S1x1024 .f32) (xs0 : Vec F S1024x1024 .f32) :
    sout1_C_0 c i arg3 harg3 arg4 harg4 arg5 harg5 arg6 harg6 arg7 harg7 arg8 harg8 hc0 hc1 hc2 x0 x1 x2 x3 xs0 = k1_pay3 x0 x1 xs0 := by
  unfold sout1_C_0
  rw [View.read_writes_eq_canon _ _ _ (scover1_C_0 c i arg3 harg3 arg4 harg4 arg5 harg5 arg6 harg6 arg7 harg7 arg8 harg8 hc0 hc1 hc2 x0 x1 x2 x3 xs0)]
  unfold kernelRun1_C
  dsimp only
  sl_unfold_words
  rw [View.canon_unit_zero hz2]
  simp only [View.readAt_eq_ld, harg3.read_unread, harg4.read_unread, harg8.read_unread,
    View.ld_unit_zero (S := S2048x1024) hz2, View.ld_unit_zero (S := S1024x1024) hz2]

/-- At a point with k = 3 the accumulator is left the same way. -/
theorem sout1_D_0_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) :
    sout1_D_0 c i arg3 harg3 arg4 harg4 arg5 harg5 arg6 harg6 arg7 harg7 arg8 harg8 hc0 hc1 hc2 x0 x1 x2 x3 xs0 xo4 = k1_pay3 x0 x1 xs0 := by
  unfold sout1_D_0
  rw [View.read_writes_eq_canon _ _ _ (scover1_D_0 c i arg3 harg3 arg4 harg4 arg5 harg5 arg6 harg6 arg7 harg7 arg8 harg8 hc0 hc1 hc2 x0 x1 x2 x3 xs0 xo4)]
  unfold kernelRun1_D
  dsimp only
  sl_unfold_words
  rw [View.canon_unit_zero hz2]
  simp only [View.readAt_eq_ld, harg3.read_unread, harg4.read_unread, harg8.read_unread,
    View.ld_unit_zero (S := S2048x1024) hz2, View.ld_unit_zero (S := S1024x1024) hz2]

/-- At a point with k = 3 the output's buffer is left holding what it held plus the tile's contribution,
    computed from the accumulator as just updated. -/
theorem out1_D_4_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (hc0 : ¬cond1_0 i) (hc1 : ¬cond1_1 i) (hc2 : cond1_2 i)
    (x0 : Vec F S2048x1024 .bf16) (x1 : Vec F S2048x1024 .bf16) (x2 : Vec F S1024x1 .f32) (x3 : Vec F S1x1024 .f32) (xs0 : Vec F S1024x1024 .f32) (xo4 : Vec F S1x1 .f32) :
    out1_D_4 c i arg3 harg3 arg4 harg4 arg5 harg5 arg6 harg6 arg7 harg7 arg8 harg8 hc0 hc1 hc2 x0 x1 x2 x3 xs0 xo4 = k1_pay4 (k1_pay3 x0 x1 xs0) x2 x3 xo4 := by
  unfold out1_D_4
  rw [View.read_writes_eq_canon _ _ _ (cover1_D_4 c i arg3 harg3 arg4 harg4 arg5 harg5 arg6 harg6 arg7 harg7 arg8 harg8 hc0 hc1 hc2 x0 x1 x2 x3 xs0 xo4)]
  unfold kernelRun1_D
  dsimp only
  sl_unfold_words
  rw [View.canon_unit_zero hz2]
  simp only [View.readAt_eq_ld, harg3.read_unread, harg4.read_unread, harg5.read_unread, harg6.read_unread,
    harg7.read_unread, harg8.read_unread, View.ld_unit_zero (S := S2048x1024) hz2,
    View.ld_unit_zero (S := S1024x1024) hz2, View.ld_unit_zero (S := S1024x1) hz2,
    View.ld_unit_zero (S := S1x1024) hz2, View.ld_unit_zero (S := S1x1) hz2,
    View.readCov_unit_zero (S := S1024x1024) _ hz2]

end Cert.KernelIdeal.Fr

end
-- ==== Proof.Val.S2Blocks.lean ====
/-
  Stage 2 (the joint-histogram call): each input window's block at a point, read at an entry. The grid is
  4 × 4 × 4 over (i, j, k), point t = 16 i + 4 j + k: the two matmul operands' blocks are rows
  2048 k … 2048 k + 2047 and columns 1024 i … (first) or 1024 j … (second) of the two softmax arrays; the two
  marginal logarithms' blocks are entries 1024 i … of the column and 1024 j … of the row.
-/
import proofs.«102363_j2070174236949_1_alg».proof.Proof.KI.S2Runs
import Idealize.ShloMosaic.Lib.ValueIdx
import Idealize.ShloMosaic.Lib.Pipeline.Value

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

variable {F : FTy → Type} [FloatOps F]
variable (V : (c : Dev nD) → (b : Ref sig .tc) → Buf (Elt F) ((c : Thread nD τ).loc b))

/-- The grid of the second call has 64 points. -/
theorem point1_lt (t : Fin cfg1.N) : t.val < 64 := lt_of_lt_of_eq t.isLt (show cfg1.N = 64 from N_1)

/-- Row r of contraction block k = t mod 4 is a row of the arrays. -/
theorem tile2_row_lt (t : Fin cfg1.N) (r : Fin 2048) : 2048 * (t.val % 4) + r.val < 8192 := by
  have := r.isLt
  omega

/-- Column ci of output tile row i = t / 16 is a column of the arrays. -/
theorem tile2_i_lt (t : Fin cfg1.N) (ci : Fin 1024) : 1024 * (t.val / 16) + ci.val < 4096 := by
  have := point1_lt t
  have := ci.isLt
  omega

/-- Column di of output tile column j = t / 4 mod 4 is a column of the arrays. -/
theorem tile2_j_lt (t : Fin cfg1.N) (di : Fin 1024) : 1024 * (t.val / 4 % 4) + di.val < 4096 := by
  have := di.isLt
  omega

/-- The four input windows' block maps at point t = 16 i + 4 j + k: (k, i), (k, j), (i, 0), (0, j). -/
theorem idx_in1 : ∀ t : Fin cfg1.N,
    win1_0.index t (0 : Fin 2) = t.val % 4 ∧ win1_0.index t (1 : Fin 2) = t.val / 16
    ∧ win1_1.index t (0 : Fin 2) = t.val % 4 ∧ win1_1.index t (1 : Fin 2) = t.val / 4 % 4
    ∧ win1_2.index t (0 : Fin 2) = t.val / 16 ∧ win1_2.index t (1 : Fin 2) = 0
    ∧ win1_3.index t (0 : Fin 2) = 0 ∧ win1_3.index t (1 : Fin 2) = t.val / 4 % 4 :=
  (by decide +kernel : ∀ t : Fin grid1.N, _)

/-- The first operand's block at point t, at (r, ci), is the first array at (2048 k + r, 1024 i + ci). -/
theorem block0'_read (c : Dev nD) (t : Fin cfg1.N) (r : Fin 2048) (ci : Fin 1024) :
    (iblk1 V c 0 t : Vec F S2048x1024 .bf16) (ix2 r ci)
      = (V c main_v0_0 : Vec F S8192x4096 .bf16)
          (ix2 ⟨2048 * (t.val % 4) + r.val, tile2_row_lt t r⟩ ⟨1024 * (t.val / 16) + ci.val, tile2_i_lt t ci⟩) := by
  obtain ⟨e0, e1, -, -, -, -, -, -⟩ := idx_in1 t
  show V c main_v0_0 (((cfg1.win 0).blk t).view.emb (ix2 r ci)) = _
  refine congrArg (V c main_v0_0) (funext fun a => Fin.ext ?_)
  match a with
  | ⟨0, _⟩ => show win1_0.index t (0 : Fin 2) * 2048 + 1 * r.val = 2048 * (t.val % 4) + r.val; omega
  | ⟨1, _⟩ => show win1_0.index t (1 : Fin 2) * 1024 + 1 * ci.val = 1024 * (t.val / 16) + ci.val; omega

/-- The second operand's block at point t, at (r, di), is the second array at (2048 k + r, 1024 j + di). -/
theorem block1'_read (c : Dev nD) (t : Fin cfg1.N) (r : Fin 2048) (di : Fin 1024) :
    (iblk1 V c 1 t : Vec F S2048x1024 .bf16) (ix2 r di)
      = (V c main_v0_1 : Vec F S8192x4096 .bf16)
          (ix2 ⟨2048 * (t.val % 4) + r.val, tile2_row_lt t r⟩ ⟨1024 * (t.val / 4 % 4) + di.val, tile2_j_lt t di⟩) := by
  obtain ⟨-, -, e0, e1, -, -, -, -⟩ := idx_in1 t
  show V c main_v0_1 (((cfg1.win 1).blk t).view.emb (ix2 r di)) = _
  refine congrArg (V c main_v0_1) (funext fun a => Fin.ext ?_)
  match a with
  | ⟨0, _⟩ => show win1_1.index t (0 : Fin 2) * 2048 + 1 * r.val = 2048 * (t.val % 4) + r.val; omega
  | ⟨1, _⟩ => show win1_1.index t (1 : Fin 2) * 1024 + 1 * di.val = 1024 * (t.val / 4 % 4) + di.val; omega

/-- The first marginal logarithm's block at point t, at ci, is the column's entry 1024 i + ci. -/
theorem block2'_read (c : Dev nD) (t : Fin cfg1.N) (ci : Fin 1024) :
    (iblk1 V c 2 t : Vec F S1024x1 .f32) (ix2 ci (0 : Fin 1))
      = (V c main_v12 : Vec F S4096x1 .f32) (ix2 ⟨1024 * (t.val / 16) + ci.val, tile2_i_lt t ci⟩ (0 : Fin 1)) := by
  obtain ⟨-, -, -, -, e0, e1, -, -⟩ := idx_in1 t
  show V c main_v12 (((cfg1.win 2).blk t).view.emb (ix2 ci (0 : Fin 1))) = _
  refine congrArg (V c main_v12) (funext fun a => Fin.ext ?_)
  match a with
  | ⟨0, _⟩ => show win1_2.index t (0 : Fin 2) * 1024 + 1 * ci.val = 1024 * (t.val / 16) + ci.val; omega
  | ⟨1, _⟩ => show win1_2.index t (1 : Fin 2) * 1 + 1 * (0 : Fin 1).val = (0 : Fin 1).val; omega

/-- The second marginal logarithm's block at point t, at di, is the row's entry 1024 j + di. -/
theorem block3'_read (c : Dev nD) (t : Fin cfg1.N) (di : Fin 1024) :
    (iblk1 V c 3 t : Vec F S1x1024 .f32) (ix2 (0 : Fin 1) di)
      = (V c main_v16 : Vec F S1x4096 .f32) (ix2 (0 : Fin 1) ⟨1024 * (t.val / 4 % 4) + di.val, tile2_j_lt t di⟩) := by
  obtain ⟨-, -, -, -, -, -, e0, e1⟩ := idx_in1 t
  show V c main_v16 (((cfg1.win 3).blk t).view.emb (ix2 (0 : Fin 1) di)) = _
  refine congrArg (V c main_v16) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 1024 + 1 * di.val = 1024 * (t.val / 4 % 4) + di.val; omega

end Cert.KernelIdeal.Val

end
-- ==== Proof.Val.S2Arrays.lean ====
/-
  Stage 2 (the joint-histogram call): its one result, a single number, in closed form. The grid is 4 × 4 × 4
  over (i, j, k), point t = 16 i + 4 j + k. The accumulator (a 1024 × 1024 tile) restarts from zero where k = 0
  and gains, at every point, the product of the point's two blocks contracted over their 2048 rows: after k = 3
  it holds the full contraction over the 8192 rows, on output tile (i, j). The output starts at zero, is carried
  where k ≠ 3 and gains, where k = 3, the tile's terms J · ((log (J + ε) − lx) − ly) with J the accumulator
  scaled by 2⁻¹³: after the last point it is the double sum over all 4096 × 4096 entries. It is written back
  once, after the last point, and its one block is the whole array.
-/
import proofs.«102363_j2070174236949_1_alg».proof.Proof.KI.S2Frame
import proofs.«102363_j2070174236949_1_alg».proof.Proof.Val.S2Pieces
import proofs.«102363_j2070174236949_1_alg».proof.Proof.Val.S2Blocks
import proofs.«102363_j2070174236949_1_alg».proof.Proof.Val.Payloads1
import proofs.«102363_j2070174236949_1_alg».proof.Proof.Val.S1Math
import Idealize.ShloMosaic.Lib.Pipeline.Value

set_option maxRecDepth 16384

noncomputable section

namespace Cert.KernelIdeal.Val.S2A

open Cert.KernelIdeal Cert.KernelIdeal.Gen Cert.KernelIdeal.Fr Idealize.ShloMosaic Idealize.ShloMosaic.ValueIdx
open Idealize.ShloMosaic.TcCoe
open Idealize.ShloMosaic.Pipeline (Dat)
open scoped BigOperators

/-! ## Where a point's blocks sit in the arrays -/

/-- Row r of the contraction block of point n (its innermost coordinate n % 4) is row 2048 (n % 4) + r. -/
def rowAt (n : ℕ) (r : Fin 2048) : Fin 8192 := ⟨2048 * (n % 4) + r.val, by omega⟩
/-- Column ci of the first operand's block at point n (its outermost coordinate n / 16) is column 1024 (n / 16) + ci. -/
def colI (n : ℕ) (ci : Fin 1024) : Fin 4096 := ⟨1024 * (n / 16 % 4) + ci.val, by omega⟩
/-- Column di of the second operand's block at point n (its middle coordinate n / 4 % 4) is column 1024 (n / 4 % 4) + di. -/
def colJ (n : ℕ) (di : Fin 1024) : Fin 4096 := ⟨1024 * (n / 4 % 4) + di.val, by omega⟩

theorem rowAt_val (n : ℕ) (r : Fin 2048) : (rowAt n r).val = 2048 * (n % 4) + r.val := rfl
theorem colI_val (n : ℕ) (ci : Fin 1024) : (colI n ci).val = 1024 * (n / 16 % 4) + ci.val := rfl
theorem colJ_val (n : ℕ) (di : Fin 1024) : (colJ n di).val = 1024 * (n / 4 % 4) + di.val := rfl

/-- A product of two entries, one of each array, moved along equal coordinates. -/
theorem pq_congr (P Q : (⟨2, ![8192, 4096]⟩ : Shape).Idx → EReal) {R R' : Fin 8192} {C C' D D' : Fin 4096}
    (hR : R.val = R'.val) (hC : C.val = C'.val) (hD : D.val = D'.val) :
    P (ix2 R C) * Q (ix2 R D) = P (ix2 R' C') * Q (ix2 R' D') := by
  rw [show R = R' from Fin.ext hR, show C = C' from Fin.ext hC, show D = D' from Fin.ext hD]

/-! ## The two accumulations, abstractly -/

/-- An accumulator s (one number per entry of a 1024 × 1024 tile) that restarts from zero where n % 4 = 0 and adds the
    point's partial product at every point, and a number o that starts at zero, is carried where n % 4 ≠ 3 and
    gains the tile's mutual-information terms where n % 4 = 3: after the last of the 64 points o is the whole
    double sum. -/
theorem mi_of_steps (P Q : (⟨2, ![8192, 4096]⟩ : Shape).Idx → EReal) (lx ly : Fin 4096 → EReal)
    (s : ℕ → Fin 1024 → Fin 1024 → EReal) (o : ℕ → EReal)
    (hs0 : ∀ n, n < 64 → n % 4 = 0 → ∀ ci di, s n ci di
      = 0 + ∑ r : Fin 2048, P (ix2 (rowAt n r) (colI n ci)) * Q (ix2 (rowAt n r) (colJ n di)))
    (hs1 : ∀ n, n + 1 < 64 → (n + 1) % 4 ≠ 0 → ∀ ci di, s (n + 1) ci di
      = s n ci di + ∑ r : Fin 2048, P (ix2 (rowAt (n + 1) r) (colI (n + 1) ci)) * Q (ix2 (rowAt (n + 1) r) (colJ (n + 1) di)))
    (ho0 : o 0 = 0)
    (hoc : ∀ n, n + 1 < 64 → (n + 1) % 4 ≠ 3 → o (n + 1) = o n)
    (hoa : ∀ n, n + 1 < 64 → (n + 1) % 4 = 3 → o (n + 1) = o n + ∑ ci : Fin 1024, ∑ di : Fin 1024,
      (s (n + 1) ci di * Cert.Spec.invRows)
        * ((Ideal.log (s (n + 1) ci di * Cert.Spec.invRows + Cert.Spec.eps) - lx (colI (n + 1) ci)) - ly (colJ (n + 1) di))) :
    o 63 = Cert.Spec.miOfK (Cert.Spec.jointK (Cert.Spec.mat P) (Cert.Spec.mat Q)) lx ly := by
  -- the accumulator after the last contraction block of tile q is the full contraction
  have hS : ∀ q, q < 16 → ∀ ci di, s (4 * q + 3) ci di
      = ∑ n : Fin 8192, P (ix2 n (colI (4 * q + 3) ci)) * Q (ix2 n (colJ (4 * q + 3) di)) := by
    intro q hq ci di
    refine (mm_acc P Q ⟨q / 4, by omega⟩ ⟨q % 4, by omega⟩ ci di (fun k => s (4 * q + k) ci di) ?_ ?_).trans
      (Finset.sum_congr rfl fun n _ => pq_congr P Q rfl ?_ ?_)
    · refine (hs0 (4 * q + 0) (by omega) (by omega) ci di).trans (congrArg (0 + ·) (Finset.sum_congr rfl fun r _ => pq_congr P Q ?_ ?_ ?_))
      · simp only [rowAt_val]; omega
      · simp only [colI_val]; omega
      · simp only [colJ_val]; omega
    · intro k hk
      refine (hs1 (4 * q + k) (by omega) (by omega) ci di).trans (congrArg (s (4 * q + k) ci di + ·) (Finset.sum_congr rfl fun r _ => pq_congr P Q ?_ ?_ ?_))
      · simp only [rowAt_val]; omega
      · simp only [colI_val]; omega
      · simp only [colJ_val]; omega
    · simp only [colI_val]; omega
    · simp only [colJ_val]; omega
  -- so the tile's terms are the specification's terms on the tile
  have hT : ∀ q (hq : q < 16), (∑ ci : Fin 1024, ∑ di : Fin 1024,
      (s (4 * q + 3) ci di * Cert.Spec.invRows)
        * ((Ideal.log (s (4 * q + 3) ci di * Cert.Spec.invRows + Cert.Spec.eps) - lx (colI (4 * q + 3) ci)) - ly (colJ (4 * q + 3) di)))
      = ∑ ci : Fin 1024, ∑ di : Fin 1024, miTerm (Cert.Spec.jointK (Cert.Spec.mat P) (Cert.Spec.mat Q)) lx ly
          ⟨1024 * (q / 4) + ci.val, by omega⟩ ⟨1024 * (q % 4) + di.val, by omega⟩ := by
    intro q hq
    refine Finset.sum_congr rfl fun ci _ => Finset.sum_congr rfl fun di _ => ?_
    rw [hS q hq ci di,
      show colI (4 * q + 3) ci = ⟨1024 * (q / 4) + ci.val, by omega⟩ from Fin.ext (by simp only [colI_val]; omega),
      show colJ (4 * q + 3) di = ⟨1024 * (q % 4) + di.val, by omega⟩ from Fin.ext (by simp only [colJ_val]; omega)]
    rfl
  refine mi_acc (Cert.Spec.jointK (Cert.Spec.mat P) (Cert.Spec.mat Q)) lx ly (fun q => o (4 * q + 3)) ?_ ?_
  · -- the first tile: the number is zero until its last point
    have h1 : o 1 = o 0 := hoc 0 (by omega) (by omega)
    have h2 : o 2 = o 1 := hoc 1 (by omega) (by omega)
    refine (hoa 2 (by omega) (by omega)).trans ?_
    rw [h2, h1, ho0]
    exact congrArg (0 + ·) (hT 0 (by omega))
  · -- a later tile: the number is carried over its first three points
    intro q hq
    have e : 4 * (q + 1) + 3 = 4 * q + 6 + 1 := by omega
    have h4 : o (4 * q + 4) = o (4 * q + 3) := hoc (4 * q + 3) (by omega) (by omega)
    have h5 : o (4 * q + 5) = o (4 * q + 4) := hoc (4 * q + 4) (by omega) (by omega)
    have h6 : o (4 * q + 6) = o (4 * q + 5) := hoc (4 * q + 5) (by omega) (by omega)
    show o (4 * (q + 1) + 3) = o (4 * q + 3) + _
    rw [e, hoa (4 * q + 6) (by omega) (by omega), h6, h5, h4, ← e]
    exact congrArg (o (4 * q + 3) + ·) (hT (q + 1) (by omega))

/-! ## The accumulator and the output, point by point -/

variable (V : (c : Dev nD) → (b : Ref sig .tc) → Buf (Elt Ideal) ((c : Thread nD τ).loc b)) (c : Dev nD)

/-- The two matmul operands' blocks at point t, at their literal type. -/
abbrev blkA (t : Fin cfg1.N) : Vec Ideal S2048x1024 .bf16 := iblk1 V c 0 t
abbrev blkB (t : Fin cfg1.N) : Vec Ideal S2048x1024 .bf16 := iblk1 V c 1 t

/-- Where k = 0 the accumulator is the blocks' product over zero. -/
theorem scr_first (t : Fin cfg1.N) (h1 : t.val % 4 = 0) (ci di : Fin 1024) :
    (outsAt1 V c t.val t.isLt).2 (ix2 ci di)
      = 0 + ∑ r : Fin 2048, blkA V c t (ix2 r ci) * blkB V c t (ix2 r di) := by
  by_cases h0 : t.val % 64 = 0
  · rw [outsAt1_A V c t h0]
    dsimp only
    rw [sout1_A_0_eq, pay3'_apply, pay2'_apply]
  · rw [outsAt1_B V c t h0 h1]
    dsimp only
    rw [sout1_B_0_eq, pay3'_apply, pay2'_apply]

/-- Where k ≠ 0 it is the product added to what the point before left. -/
theorem scr_next (t : Fin cfg1.N) (h1 : ¬t.val % 4 = 0) (ci di : Fin 1024) :
    (outsAt1 V c t.val t.isLt).2 (ix2 ci di)
      = (outsAt1 V c (t.val - 1) (Nat.lt_of_le_of_lt (Nat.sub_le _ _) t.isLt)).2 (ix2 ci di)
        + ∑ r : Fin 2048, blkA V c t (ix2 r ci) * blkB V c t (ix2 r di) := by
  by_cases h2 : t.val % 4 = 3
  · rw [outsAt1_D V c t h2]
    dsimp only
    rw [sout1_D_0_eq, pay3'_apply]
  · rw [outsAt1_C V c t h1 h2]
    dsimp only
    rw [sout1_C_0_eq, pay3'_apply]

/-- At the first point the output is zero. -/
theorem out_first (t : Fin cfg1.N) (h0 : t.val % 64 = 0) : (outsAt1 V c t.val t.isLt).1 (ix2 0 0) = 0 := by
  rw [outsAt1_A V c t h0]
  dsimp only
  rw [out1_A_4_eq]
  exact pay1'_apply _

/-- Where k ≠ 3 past the first point the output is what the point before left. -/
theorem out_carry (t : Fin cfg1.N) (h0 : ¬t.val % 64 = 0) (h2 : ¬t.val % 4 = 3) :
    (outsAt1 V c t.val t.isLt).1 = (outsAt1 V c (t.val - 1) (Nat.lt_of_le_of_lt (Nat.sub_le _ _) t.isLt)).1 := by
  by_cases h1 : t.val % 4 = 0
  · rw [outsAt1_B V c t h0 h1]
  · rw [outsAt1_C V c t h1 h2]

/-- Where k = 3 the output gains the tile's terms, from the accumulator as this point leaves it. -/
theorem out_add (t : Fin cfg1.N) (h2 : t.val % 4 = 3) :
    (outsAt1 V c t.val t.isLt).1 (ix2 0 0)
      = (outsAt1 V c (t.val - 1) (Nat.lt_of_le_of_lt (Nat.sub_le _ _) t.isLt)).1 (ix2 0 0)
        + ∑ ci : Fin 1024, ∑ di : Fin 1024, ((outsAt1 V c t.val t.isLt).2 (ix2 ci di) * Cert.Spec.invRows)
            * ((Ideal.log ((outsAt1 V c t.val t.isLt).2 (ix2 ci di) * Cert.Spec.invRows + Cert.Spec.eps)
                - (iblk1 V c 2 t : Vec Ideal S1024x1 .f32) (ix2 ci 0)) - (iblk1 V c 3 t : Vec Ideal S1x1024 .f32) (ix2 0 di)) := by
  rw [outsAt1_D V c t h2]
  dsimp only
  rw [out1_D_4_eq, sout1_D_0_eq, pay4'_apply]

/-! ## The blocks in the arrays' coordinates -/

/-- The two arrays the matmul reads, as matrices of extended reals. -/
abbrev arrP : (⟨2, ![8192, 4096]⟩ : Shape).Idx → EReal := V c main_v0_0
abbrev arrQ : (⟨2, ![8192, 4096]⟩ : Shape).Idx → EReal := V c main_v0_1

/-- A term of the point's partial product, in the two arrays. -/
theorem prod_at (t : Fin cfg1.N) (r : Fin 2048) (ci di : Fin 1024) :
    blkA V c t (ix2 r ci) * blkB V c t (ix2 r di)
      = arrP V c (ix2 (rowAt t.val r) (colI t.val ci)) * arrQ V c (ix2 (rowAt t.val r) (colJ t.val di)) := by
  rw [show blkA V c t (ix2 r ci) = _ from block0'_read V c t r ci, show blkB V c t (ix2 r di) = _ from block1'_read V c t r di]
  have := point1_lt t
  exact pq_congr (arrP V c) (arrQ V c) rfl
    (by show 1024 * (t.val / 16) + ci.val = 1024 * (t.val / 16 % 4) + ci.val; omega) rfl

/-- The first marginal logarithm's block entry, in its array. -/
theorem lx_at (t : Fin cfg1.N) (ci : Fin 1024) :
    (iblk1 V c 2 t : Vec Ideal S1024x1 .f32) (ix2 ci 0) = (V c main_v12 : Vec Ideal S4096x1 .f32) (ix2 (colI t.val ci) 0) := by
  have := point1_lt t
  exact (block2'_read V c t ci).trans (congrArg (fun x => (V c main_v12 : Vec Ideal S4096x1 .f32) (ix2 x (0 : Fin 1)))
    (Fin.ext (by show 1024 * (t.val / 16) + ci.val = 1024 * (t.val / 16 % 4) + ci.val; omega)))

/-- The second marginal logarithm's block entry, in its array. -/
theorem ly_at (t : Fin cfg1.N) (di : Fin 1024) :
    (iblk1 V c 3 t : Vec Ideal S1x1024 .f32) (ix2 0 di) = (V c main_v16 : Vec Ideal S1x4096 .f32) (ix2 0 (colJ t.val di)) :=
  block3'_read V c t di

/-! ## The two sequences, and the output after the last point -/

/-- The accumulator's entry (ci, di) after point n (zero past the grid). -/
def sSeq (n : ℕ) (ci di : Fin 1024) : EReal := if h : n < cfg1.N then (outsAt1 V c n h).2 (ix2 ci di) else 0
/-- The output after point n (zero past the grid). -/
def oSeq (n : ℕ) : EReal := if h : n < cfg1.N then (outsAt1 V c n h).1 (ix2 0 0) else 0

theorem sSeq_of_lt (n : ℕ) (h : n < cfg1.N) (ci di : Fin 1024) : sSeq V c n ci di = (outsAt1 V c n h).2 (ix2 ci di) := dif_pos h
theorem oSeq_of_lt (n : ℕ) (h : n < cfg1.N) : oSeq V c n = (outsAt1 V c n h).1 (ix2 0 0) := dif_pos h

/-- After the last point the output is the mutual-information double sum of what the call was given. -/
theorem out_last (h63 : 63 < cfg1.N) :
    (outsAt1 V c 63 h63).1 (ix2 0 0)
      = Cert.Spec.miOfK (Cert.Spec.jointK (Cert.Spec.mat (V c main_v0_0)) (Cert.Spec.mat (V c main_v0_1)))
          (fun c' => V c main_v12 (ix2 c' 0)) (fun d => V c main_v16 (ix2 0 d)) := by
  have hN : cfg1.N = 64 := N_1
  rw [← oSeq_of_lt V c 63 h63]
  refine mi_of_steps (arrP V c) (arrQ V c) _ _ (sSeq V c) (oSeq V c) ?_ ?_ ?_ ?_ ?_
  · intro n hn h4 ci di
    have hn' : n < cfg1.N := by omega
    rw [sSeq_of_lt V c n hn']
    exact (scr_first V c ⟨n, hn'⟩ h4 ci di).trans
      (congrArg (0 + ·) (Finset.sum_congr rfl fun r _ => prod_at V c ⟨n, hn'⟩ r ci di))
  · intro n hn h4 ci di
    have hn' : n + 1 < cfg1.N := by omega
    rw [sSeq_of_lt V c (n + 1) hn', sSeq_of_lt V c n (Nat.lt_of_succ_lt hn')]
    exact (scr_next V c ⟨n + 1, hn'⟩ h4 ci di).trans
      (congrArg ((outsAt1 V c n (Nat.lt_of_succ_lt hn')).2 (ix2 ci di) + ·) (Finset.sum_congr rfl fun r _ => prod_at V c ⟨n + 1, hn'⟩ r ci di))
  · have h0 : 0 < cfg1.N := by omega
    rw [oSeq_of_lt V c 0 h0]
    exact out_first V c ⟨0, h0⟩ rfl
  · intro n hn h3
    have hn' : n + 1 < cfg1.N := by omega
    rw [oSeq_of_lt V c (n + 1) hn', oSeq_of_lt V c n (Nat.lt_of_succ_lt hn')]
    exact congrFun (out_carry V c ⟨n + 1, hn'⟩ (by show ¬(n + 1) % 64 = 0; omega) h3) (ix2 0 0)
  · intro n hn h3
    have hn' : n + 1 < cfg1.N := by omega
    rw [oSeq_of_lt V c (n + 1) hn', oSeq_of_lt V c n (Nat.lt_of_succ_lt hn')]
    refine (out_add V c ⟨n + 1, hn'⟩ h3).trans
      (congrArg ((outsAt1 V c n (Nat.lt_of_succ_lt hn')).1 (ix2 0 0) + ·) (Finset.sum_congr rfl fun ci _ => Finset.sum_congr rfl fun di _ => ?_))
    rw [lx_at V c ⟨n + 1, hn'⟩ ci, ly_at V c ⟨n + 1, hn'⟩ di, sSeq_of_lt V c (n + 1) hn']

/-! ## The write-back and the array -/

/-- The mutual information as contents of the 1 × 1 result array. -/
abbrev Gmi : Buf (Elt Ideal) ((cfg1.win 4).arr.view.loc (c.tc : Thread nD τ)) :=
  fun _ => Cert.Spec.miOfK (Cert.Spec.jointK (Cert.Spec.mat (V c main_v0_0)) (Cert.Spec.mat (V c main_v0_1)))
    (fun c' => V c main_v12 (ix2 c' 0)) (fun d => V c main_v16 (ix2 0 d))

/-- The output's block index is (0, 0) at every point. -/
theorem idx_out1 : ∀ t : Fin cfg1.N, win1_4.index t (0 : Fin 2) = 0 ∧ win1_4.index t (1 : Fin 2) = 0 :=
  (by decide +kernel : ∀ t : Fin grid1.N, _)

/-- The one write-back, after the last point, writes the mutual information. -/
theorem flushed4_eq (t : Fin cfg1.N) (hf : (cfg1.win 4).flush t = true) :
    (dat1 V c).flushed 4 t = ((cfg1.win 4).blk t).view.read (Elt Ideal) (Gmi V c) := by
  have ht : t.val = 63 := by have := (flush1_4 t).mp hf; have := point1_lt t; omega
  obtain ⟨n, hn⟩ := t
  dsimp only at ht
  subst ht
  show (cfg1.win 4).cut (grid1.coords ⟨63, hn⟩) ((dat1 V c).after 4 ⟨63, hn⟩) = _
  rw [after1_4]
  funext j
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  exact out_last V c hn

/-- An entry of the result array is in the output's block at point t iff each coordinate is in the block's range. -/
theorem mem_blk4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v17).slice (win1_4.rect t)).set ↔ _
  rw [View.set_slice_whole, Rect.mem_set_unit]
  exact Iff.rfl

/-- The block written back after the last point is the whole array. -/
theorem cover4 (i : S1x1.Idx) :
    ∃ t : Fin cfg1.N, (cfg1.win 4).flush t = true ∧ i ∈ ((cfg1.win 4).blk t).view.set := by
  have hN : cfg1.N = 64 := N_1
  have h63 : 63 < cfg1.N := by rw [hN]; omega
  have hi0 : (i 0).val < 1 := (i 0).isLt
  have hi1 : (i 1).val < 1 := (i 1).isLt
  refine ⟨⟨63, h63⟩, (flush1_4 _).mpr rfl, ?_⟩
  rw [mem_blk4]
  obtain ⟨e0, e1⟩ := idx_out1 ⟨63, h63⟩
  intro a
  match a with
  | ⟨0, _⟩ =>
    show win1_4.index ⟨63, h63⟩ (0 : Fin 2) * 1 ≤ (i 0).val ∧ (i 0).val < win1_4.index ⟨63, h63⟩ (0 : Fin 2) * 1 + 1
    rw [e0]; omega
  | ⟨1, _⟩ =>
    show win1_4.index ⟨63, h63⟩ (1 : Fin 2) * 1 ≤ (i 1).val ∧ (i 1).val < win1_4.index ⟨63, h63⟩ (1 : Fin 2) * 1 + 1
    rw [e1]; omega

end Cert.KernelIdeal.Val.S2A

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- The second call's result array ends holding the mutual information of the arrays the call is entered with. -/
theorem s2_mi : (dat1 V c).arrAt 4 cfg1.N = fun _ =>
    Cert.Spec.miOfK (Cert.Spec.jointK (Cert.Spec.mat (V c main_v0_0)) (Cert.Spec.mat (V c main_v0_1)))
      (fun c' => V c main_v12 (ix2 c' 0)) (fun d => V c main_v16 (ix2 0 d)) :=
  (dat1 V c).arrAt_eq_of_cover 4 (S2A.Gmi V c) (S2A.flushed4_eq V c) S2A.cover4

end Cert.KernelIdeal.Val

end
-- ==== Proof.Val.Final.lean ====
/-
  The kernel program's result at the ideal values: the contents @main returns with, read at the result buffer, are the
  specification's mean row entropy and mutual information set side by side. The first call leaves the two softmaxes,
  the entropy sum and the two column sums; the host stretch between the calls turns the sums into the mean entropy and
  the logarithms of the marginals; the second call leaves the mutual information of what it is given; the last host
  stretch joins the two scalars. On real inputs the forms the tiled computation leaves are the specification's.
-/
import proofs.«102363_j2070174236949_1_alg».proof.Proof.KI.Run
import proofs.«102363_j2070174236949_1_alg».proof.Proof.Val.Host
import proofs.«102363_j2070174236949_1_alg».proof.Proof.Val.S1ArraysP
import proofs.«102363_j2070174236949_1_alg».proof.Proof.Val.S1ArraysA
import proofs.«102363_j2070174236949_1_alg».proof.Proof.Val.S2Arrays
import proofs.«102363_j2070174236949_1_alg».proof.Proof.Math
import proofs.«102363_j2070174236949_1_alg».proof.Proof.Spec

noncomputable section

namespace Cert.KernelIdeal.Val

open Cert.KernelIdeal Cert.KernelIdeal.Gen Cert.KernelIdeal.Fr Idealize.ShloMosaic Idealize.ShloMosaic.ValueIdx

/-! ## The last host stretch over what the two calls leave -/

/-- A function of the two coordinates, as an array, read back as a matrix. -/
theorem mat_of_coords (f : Cert.Spec.Mat) : Cert.Spec.mat (fun i => f (i 0) (i 1)) = f := rfl

/-- The result over the contents the two calls leave: with the first call's five arrays at the softmaxes, the negated
    entropy sum and the two column sums, and the second call's array at the mutual information of what it is given,
    the last host stretch returns the specification's two results side by side. -/
theorem tail_value (W1 W3 : Valuation τ sig (Elt Ideal))
    (x y : (⟨S8192x4096, .f32⟩ : BufTy).Contents (Elt Ideal))
    (hx : Cert.Spec.IsReal (Cert.Spec.mat x)) (hy : Cert.Spec.IsReal (Cert.Spec.mat y))
    (h0 : W1 (Proc.devRef .tc main_v0_0) = fun i => Cert.Spec.sm (Cert.Spec.mat x) (i 0) (i 1))
    (h1 : W1 (Proc.devRef .tc main_v0_1) = fun i => Cert.Spec.sm (Cert.Spec.mat y) (i 0) (i 1))
    (h2 : W1 (Proc.devRef .tc main_v0_2) = fun _ => Cert.Spec.entSumK (Cert.Spec.mat x))
    (h3 : W1 (Proc.devRef .tc main_v0_3) = fun i => Cert.Spec.colSum (Cert.Spec.mat x) (i 1))
    (h4 : W1 (Proc.devRef .tc main_v0_4) = fun i => Cert.Spec.colSum (Cert.Spec.mat y) (i 1))
    (hv2 : W3 (Proc.devRef .tc main_v2) = StableHlo.after (hostOps1 (F := Ideal)) W1 (Proc.devRef .tc main_v2))
    (hv17 : W3 (Proc.devRef .tc main_v17) = fun _ =>
      Cert.Spec.miOfK
        (Cert.Spec.jointK (Cert.Spec.mat (StableHlo.after (hostOps1 (F := Ideal)) W1 (Proc.devRef .tc main_v0_0)))
          (Cert.Spec.mat (StableHlo.after (hostOps1 (F := Ideal)) W1 (Proc.devRef .tc main_v0_1))))
        (fun c' => StableHlo.after (hostOps1 (F := Ideal)) W1 (Proc.devRef .tc main_v12) (ix2 c' 0))
        (fun d => StableHlo.after (hostOps1 (F := Ideal)) W1 (Proc.devRef .tc main_v16) (ix2 0 d))) :
    StableHlo.after (hostOps2 (F := Ideal)) W3 (Proc.devRef .tc main_v21)
      = tail2 (fun _ => Cert.Spec.ent (Cert.Spec.mat x)) (fun _ => Cert.Spec.mi (Cert.Spec.mat x) (Cert.Spec.mat y)) := by
  have e0 : StableHlo.after (hostOps1 (F := Ideal)) W1 (Proc.devRef .tc main_v0_0) = W1 (Proc.devRef .tc main_v0_0) :=
    host1_keep W1 main_v0_0 (by decide)
  have e1 : StableHlo.after (hostOps1 (F := Ideal)) W1 (Proc.devRef .tc main_v0_1) = W1 (Proc.devRef .tc main_v0_1) :=
    host1_keep W1 main_v0_1 (by decide)
  have em0 : Cert.Spec.mat (StableHlo.after (hostOps1 (F := Ideal)) W1 (Proc.devRef .tc main_v0_0)) = Cert.Spec.sm (Cert.Spec.mat x) := by
    rw [e0, h0]; exact mat_of_coords _
  have em1 : Cert.Spec.mat (StableHlo.after (hostOps1 (F := Ideal)) W1 (Proc.devRef .tc main_v0_1)) = Cert.Spec.sm (Cert.Spec.mat y) := by
    rw [e1, h1]; exact mat_of_coords _
  have el0 : (fun c' : Fin 4096 => StableHlo.after (hostOps1 (F := Ideal)) W1 (Proc.devRef .tc main_v12) (ix2 c' 0))
      = Cert.Spec.lmarg (Cert.Spec.mat x) := by
    funext c'; rw [host1_v12, h3]; rfl
  have el1 : (fun d : Fin 4096 => StableHlo.after (hostOps1 (F := Ideal)) W1 (Proc.devRef .tc main_v16) (ix2 0 d))
      = Cert.Spec.lmarg (Cert.Spec.mat y) := by
    funext d; rw [host1_v16, h4]; rfl
  have ev2 : W3 (Proc.devRef .tc main_v2) = fun _ => Cert.Spec.ent (Cert.Spec.mat x) := by
    rw [hv2, host1_v2, h2]; exact funext fun _ => (Cert.Spec.result_eq _ _ hx hy).1
  rw [host2_v21, ev2, hv17, em0, em1, el0, el1, (Cert.Spec.result_eq _ _ hx hy).2]
  rfl

/-! ## The contents @main returns with, at the result buffer -/

/-- On real inputs the result buffer ends at the specification's two results, side by side. -/
theorem W4_v21 (m : (ℓ : Loc nD τ sig) → Buf (Elt Ideal) ℓ) (c : Dev nD)
    (hx : Cert.Spec.IsReal (Cert.Spec.mat (m ((c.tc : Thread nD τ).loc main_arg0))))
    (hy : Cert.Spec.IsReal (Cert.Spec.mat (m ((c.tc : Thread nD τ).loc main_arg1)))) :
    W4 (F := Ideal) m c (Proc.devRef .tc main_v21)
      = tail2 (fun _ => Cert.Spec.ent (Cert.Spec.mat (m ((c.tc : Thread nD τ).loc main_arg0))))
          (fun _ => Cert.Spec.mi (Cert.Spec.mat (m ((c.tc : Thread nD τ).loc main_arg0)))
            (Cert.Spec.mat (m ((c.tc : Thread nD τ).loc main_arg1)))) := by
  have h0 : W1 m c (Proc.devRef .tc main_v0_0)
      = fun i => Cert.Spec.sm (Cert.Spec.mat (m ((c.tc : Thread nD τ).loc main_arg0))) (i 0) (i 1) :=
    (W1_arr m c 2).trans (s1_px (Fr.V0 m) c)
  have h1 : W1 m c (Proc.devRef .tc main_v0_1)
      = fun i => Cert.Spec.sm (Cert.Spec.mat (m ((c.tc : Thread nD τ).loc main_arg1))) (i 0) (i 1) :=
    (W1_arr m c 3).trans (s1_py (Fr.V0 m) c)
  have h2 : W1 m c (Proc.devRef .tc main_v0_2)
      = fun _ => Cert.Spec.entSumK (Cert.Spec.mat (m ((c.tc : Thread nD τ).loc main_arg0))) :=
    (W1_arr m c 4).trans (s1_ent (Fr.V0 m) c)
  have h3 : W1 m c (Proc.devRef .tc main_v0_3)
      = fun i => Cert.Spec.colSum (Cert.Spec.mat (m ((c.tc : Thread nD τ).loc main_arg0))) (i 1) :=
    (W1_arr m c 5).trans (s1_mx (Fr.V0 m) c)
  have h4 : W1 m c (Proc.devRef .tc main_v0_4)
      = fun i => Cert.Spec.colSum (Cert.Spec.mat (m ((c.tc : Thread nD τ).loc main_arg1))) (i 1) :=
    (W1_arr m c 6).trans (s1_my (Fr.V0 m) c)
  have hv2 : W3 m c (Proc.devRef .tc main_v2) = StableHlo.after (hostOps1 (F := Ideal)) (W1 m c) (Proc.devRef .tc main_v2) :=
    W3_of_ne m c main_v2 (by decide)
  have hv17 := (W3_arr m c 4).trans (s2_mi (Fr.V2 m) c)
  exact tail_value (W1 m c) (W3 m c) _ _ hx hy h0 h1 h2 h3 h4 hv2 hv17

end Cert.KernelIdeal.Val

end
-- ==== Proof.Finite.lean ====
/-
  From the precondition to the real numbers: where the precondition's function answers one on the two
  input arrays, the absolute value of every entry of both is below +∞, so every entry is a real number.
-/
import proofs.«102363_j2070174236949_1_alg».proof.Defs
import proofs.«102363_j2070174236949_1_alg».proof.Proof.Spec
import proofs.«102363_j2070174236949_1_alg».proof.Proof.Math
import Idealize.ShloMosaic.Lib.ReduceAll
import Idealize.ShloMosaic.Lib.ValueIdx
import Idealize.ShloMosaic.Lib.Affine
import Idealize.ShloMosaic.PureOps.Ideal.Laws

noncomputable section

namespace Cert.Proof.Finite

open Idealize.ShloMosaic Idealize.SL.Sem

/-- The scalar shape has one index. -/
instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Where the precondition's function answers one, every entry of both arrays is a real number. -/
theorem real_of_fn [hP : Cert.Pre_finite_inputs.Facts]
    (a b : FVec Ideal Cert.Pre_finite_inputs.S8192x4096 .f32)
    (h : Cert.Pre_finite_inputs.fn (F := Ideal) a b = fun _ => 1#1) (j : Cert.Pre_finite_inputs.S8192x4096.Idx) :
    (∃ r : ℝ, a j = (r : EReal)) ∧ (∃ r : ℝ, b j = (r : EReal)) := by
  have h0 := congrFun h ValueIdx.ix0
  dsimp only [Cert.Pre_finite_inputs.fn] at h0
  obtain ⟨h1, h2⟩ := IntOp.andi_eq_one.mp h0
  have e1 := Host.reduce_andi_all _ _ _ _ _ h1 j
  have e2 := Host.reduce_andi_all _ _ _ _ _ h2 j
  exact ⟨real_of_abs_lt _ e1, real_of_abs_lt _ e2⟩

/-- Under the precondition both input matrices, on every device, have only real entries. -/
theorem isReal_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (Cert.Spec.mat (m ((c.tc : Thread Cert.KernelIdeal.nD Cert.KernelIdeal.τ).loc Cert.KernelIdeal.main_arg0))) ∧
      Cert.Spec.IsReal (Cert.Spec.mat (m ((c.tc : Thread Cert.KernelIdeal.nD Cert.KernelIdeal.τ).loc Cert.KernelIdeal.main_arg1))) :=
  ⟨fun n k => (real_of_fn _ _ (h c) (ValueIdx.ix2 n k)).1, fun n k => (real_of_fn _ _ (h c) (ValueIdx.ix2 n k)).2⟩

end Cert.Proof.Finite

end
-- ==== Proof.Claims.lean ====
/-
  The five claims. Both programs compute, from two 8192×4096 inputs x and y with p = softmax of x and q = softmax
  of y along the rows, the pair (mean row entropy of p, plug-in mutual information of the joint distribution
  (1/8192)·pᵀq against its marginals). The kernel does it in two tiled calls with a host stretch between them; the
  reference in one straight line of host operations. Run from memories that agree on the inputs, both end with the
  same two numbers: the tiled sums regroup freely on the extended reals, and where the two sides differ by a law
  that needs finite values — a sign taken term by term against a sign taken outside a sum, two logarithms
  subtracted one after the other against their sum subtracted once — the inputs' finiteness makes every value in
  sight a real number. The three frames are the runs with the results dropped; the idealized kernel is the
  printed kernel's own text, so nothing is to be preserved.
-/
import proofs.«102363_j2070174236949_1_alg».proof.Defs
import proofs.«102363_j2070174236949_1_alg».proof.Proof.Gen.Kernel
import proofs.«102363_j2070174236949_1_alg».proof.Proof.Gen.KernelIdeal
import proofs.«102363_j2070174236949_1_alg».proof.Proof.Gen.ReferenceIdeal
import proofs.«102363_j2070174236949_1_alg».proof.Proof.Gen.Pre_finite_inputs
import proofs.«102363_j2070174236949_1_alg».proof.Proof.K.Run
import proofs.«102363_j2070174236949_1_alg».proof.Proof.KI.Run
import proofs.«102363_j2070174236949_1_alg».proof.Proof.Ref.RefValue
import proofs.«102363_j2070174236949_1_alg».proof.Proof.Val.Final
import proofs.«102363_j2070174236949_1_alg».proof.Proof.Finite

noncomputable section

namespace Cert.Proof.Claims

open Idealize.ShloMosaic Idealize.ShloMosaic.TcCoe Idealize.SL.Sem

/-- The word-level kernel runs to the end and leaves its two inputs as launched. -/
theorem frame_k : Cert.frame_Kernel := fun m ρ _ => Cert.Kernel.Fr.frame (F := Bits) m ρ

/-- So does the idealized kernel. -/
theorem frame_ki : Cert.frame_KernelIdeal := fun m ρ _ => Cert.KernelIdeal.Fr.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The two idealized programs, from memories that agree on the inputs, end with the same pair
    (entropy, mutual information) of the inputs, and with the inputs unchanged. -/
theorem algebraic : Cert.algebraic_KernelIdeal_ReferenceIdeal := by
  intro m ρ m' ρ' hpre hagree
  refine ⟨fun c => Cert.KernelIdeal.Val.tail2
      (fun _ => Cert.Spec.ent (Cert.Spec.mat (m ((c.tc : Thread Cert.KernelIdeal.nD Cert.KernelIdeal.τ).loc Cert.KernelIdeal.main_arg0))))
      (fun _ => Cert.Spec.mi (Cert.Spec.mat (m ((c.tc : Thread Cert.KernelIdeal.nD Cert.KernelIdeal.τ).loc Cert.KernelIdeal.main_arg0)))
        (Cert.Spec.mat (m ((c.tc : Thread Cert.KernelIdeal.nD Cert.KernelIdeal.τ).loc Cert.KernelIdeal.main_arg1)))), ?_, ?_⟩
  · -- the kernel: its run, the result read off the last boundary's contents
    refine (θ_run Cert.KernelIdeal.defs _ _).mono (fun _ h c => ?_) (Cert.KernelIdeal.Fr.run_main (F := Ideal) m ρ)
    have hfin := Cert.Proof.Finite.isReal_of_pre m hpre c
    exact ⟨(h c _ (Cert.KernelIdeal.Fr.mem_uc Cert.KernelIdeal.main_v21 (by decide))).trans (Cert.KernelIdeal.Val.W4_v21 m c hfin.1 hfin.2),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c)⟩
  · -- the reference: its run, the result read stage by stage
    refine (θ_run Cert.ReferenceIdeal.defs _ _).mono (fun _ h c => ⟨?_, (h c).2⟩) (Cert.ReferenceIdeal.ValueP.run (F := Ideal) m' ρ')
    rw [(h c).1, Cert.ReferenceIdeal.ReadP.val_main_v58_eq, Cert.ReferenceIdeal.RefValue.ref_out, (hagree c).1, (hagree c).2]
    have e1 : Cert.ReferenceIdeal.ReadP.val_main_v29 (F := Ideal) (m ((c.tc : Thread Cert.KernelIdeal.nD Cert.KernelIdeal.τ).loc Cert.KernelIdeal.main_arg0))
        = fun _ => Cert.Spec.ent (Cert.Spec.mat (m ((c.tc : Thread Cert.KernelIdeal.nD Cert.KernelIdeal.τ).loc Cert.KernelIdeal.main_arg0))) :=
      funext fun i => Cert.ReferenceIdeal.RefValue.ref_ent _ i
    have e2 : Cert.ReferenceIdeal.ReadP.val_main_v55 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
        = fun _ => Cert.Spec.mi (Cert.Spec.mat (m ((c.tc : Thread Cert.KernelIdeal.nD Cert.KernelIdeal.τ).loc Cert.KernelIdeal.main_arg0)))
            (Cert.Spec.mat (m ((c.tc : Thread Cert.KernelIdeal.nD Cert.KernelIdeal.τ).loc Cert.KernelIdeal.main_arg1))) :=
      funext fun i => Cert.ReferenceIdeal.RefValue.ref_mi _ _ i
    rw [e1, e2]
    rfl

end Cert.Proof.Claims

end
-- ==== Proof.lean ====
/-
  The certificate of the entropy / mutual-information kernel against its reference: the witnesses of the
  programs' stated side conditions, then the five claims (Proof/Claims.lean), which rest on the two calls' runs
  (Proof/KI, Proof/K), the values the calls and the host stretches leave (Proof/Val), the reference read stage by
  stage (Proof/Ref), the specification (Proof/Spec.lean) and the arithmetic that joins the two forms of it
  (Proof/Math.lean, Proof/Finite.lean).
-/
import proofs.«102363_j2070174236949_1_alg».proof.Defs
import proofs.«102363_j2070174236949_1_alg».proof.Proof.Claims
import proofs.«102363_j2070174236949_1_alg».proof.Proof.Gen.Kernel
import proofs.«102363_j2070174236949_1_alg».proof.Proof.Gen.KernelIdeal
import proofs.«102363_j2070174236949_1_alg».proof.Proof.Gen.ReferenceIdeal
import proofs.«102363_j2070174236949_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
